-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x3x8 : Shape := ⟨3, ![10000, 3, 8]⟩
abbrev S10000x128 : Shape := ⟨2, ![10000, 128]⟩
abbrev S2x160000 : Shape := ⟨2, ![2, 160000]⟩
abbrev S160000x3x4 : Shape := ⟨3, ![160000, 3, 4]⟩
abbrev S160000x16 : Shape := ⟨2, ![160000, 16]⟩
abbrev S672x128 : Shape := ⟨2, ![672, 128]⟩
abbrev S128 : Shape := ⟨1, ![128]⟩
abbrev S128x128 : Shape := ⟨2, ![128, 128]⟩
abbrev S128x288 : Shape := ⟨2, ![128, 288]⟩
abbrev S288 : Shape := ⟨1, ![288]⟩
abbrev S512x128 : Shape := ⟨2, ![512, 128]⟩
abbrev S128x256 : Shape := ⟨2, ![128, 256]⟩
abbrev S256 : Shape := ⟨1, ![256]⟩
abbrev S_ : Shape := ⟨0, ![]⟩

class Facts : Prop where
  bcast_S_S10000x3x8 : S_.BroadcastsInDim S10000x3x8 (![] : Fin 0 → Fin S10000x3x8.rank)
  reducesTo_S10000x3x8_S_d0_1_2 : S10000x3x8.ReducesTo [0, 1, 2] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S160000x3x4 : S_.BroadcastsInDim S160000x3x4 (![] : Fin 0 → Fin S160000x3x4.rank)
  reducesTo_S160000x3x4_S_d0_1_2 : S160000x3x4.ReducesTo [0, 1, 2] S_
  bcast_S_S160000x16 : S_.BroadcastsInDim S160000x16 (![] : Fin 0 → Fin S160000x16.rank)
  reducesTo_S160000x16_S_d0_1 : S160000x16.ReducesTo [0, 1] S_
  bcast_S_S672x128 : S_.BroadcastsInDim S672x128 (![] : Fin 0 → Fin S672x128.rank)
  reducesTo_S672x128_S_d0_1 : S672x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x288 : S_.BroadcastsInDim S128x288 (![] : Fin 0 → Fin S128x288.rank)
  reducesTo_S128x288_S_d0_1 : S128x288.ReducesTo [0, 1] S_
  bcast_S_S288 : S_.BroadcastsInDim S288 (![] : Fin 0 → Fin S288.rank)
  reducesTo_S288_S_d0 : S288.ReducesTo [0] S_
  bcast_S_S512x128 : S_.BroadcastsInDim S512x128 (![] : Fin 0 → Fin S512x128.rank)
  reducesTo_S512x128_S_d0_1 : S512x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S2x160000 : S_.BroadcastsInDim S2x160000 (![] : Fin 0 → Fin S2x160000.rank)
  reducesTo_S2x160000_S_d0_1 : S2x160000.ReducesTo [0, 1] S_

variable [Facts]

def fn_part5 {F : FTy → Type} [FloatOps F] (main_v82 : IVec S_ 1) (main_v84 : IVec S2x160000 1) : IVec S_ 1 :=
  let main_c_33 : IVec S_ 1 := constantI S_ 1 1#1
  let main_v85 : IVec S_ 1 := (fun x v => Host.reduce IntOp.andi x v reducesTo_S2x160000_S_d0_1 h_S_) main_v84 main_c_33
  let main_v86 : IVec S_ 1 := andi main_v82 main_v85
  main_v86

def fn_part4 {F : FTy → Type} [FloatOps F] (main_arg2 : IVec S2x160000 32) (main_arg15 : FVec F S128x256 .f32) (main_arg16 : FVec F S256 .f32) (main_v63 : IVec S_ 1) (main_v67 : IVec S_ 1) : IVec S_ 1 :=
  let main_v68 : IVec S_ 1 := andi main_v63 main_v67
  let main_v69 : FVec F S128x256 .f32 := Host.absf main_arg15
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_c_30 : IVec S_ 32 := constantI S_ 32 0#32
  let main_v79 : IVec S2x160000 32 := broadcastInDim S2x160000 ![] bcast_S_S2x160000 main_c_30
  let main_v80 : IVec S2x160000 1 := cmpi .sge main_arg2 main_v79
  let main_c_31 : IVec S_ 1 := constantI S_ 1 1#1
  let main_v81 : IVec S_ 1 := (fun x v => Host.reduce IntOp.andi x v reducesTo_S2x160000_S_d0_1 h_S_) main_v80 main_c_31
  let main_v82 : IVec S_ 1 := andi main_v78 main_v81
  let main_c_32 : IVec S_ 32 := constantI S_ 32 10000#32
  let main_v83 : IVec S2x160000 32 := broadcastInDim S2x160000 ![] bcast_S_S2x160000 main_c_32
  let main_v84 : IVec S2x160000 1 := cmpi .slt main_arg2 main_v83
  fn_part5 (F := F) main_v82 main_v84

def fn_part3 {F : FTy → Type} [FloatOps F] (main_arg2 : IVec S2x160000 32) (main_arg12 : FVec F S128 .f32) (main_arg13 : FVec F S128x128 .f32) (main_arg14 : FVec F S128 .f32) (main_arg15 : FVec F S128x256 .f32) (main_arg16 : FVec F S256 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_v63 main_v67

def fn_part2 {F : FTy → Type} [FloatOps F] (main_arg2 : IVec S2x160000 32) (main_arg8 : FVec F S128 .f32) (main_arg9 : FVec F S128x288 .f32) (main_arg10 : FVec F S288 .f32) (main_arg11 : FVec F S512x128 .f32) (main_arg12 : FVec F S128 .f32) (main_arg13 : FVec F S128x128 .f32) (main_arg14 : FVec F S128 .f32) (main_arg15 : FVec F S128x256 .f32) (main_arg16 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x288 .f32 := Host.absf main_arg9
  let main_cst_14 : FVec F S_ .f32 := constant S_ .f32 0x7F800000#32
  let main_v40 : FVec F S128x288 .f32 := broadcastInDim S128x288 ![] bcast_S_S128x288 main_cst_14
  let main_v41 : IVec S128x288 1 := cmpf .olt main_v39 main_v40
  let main_c_15 : IVec S_ 1 := constantI S_ 1 1#1
  let main_v42 : IVec S_ 1 := (fun x v => Host.reduce IntOp.andi x v reducesTo_S128x288_S_d0_1 h_S_) main_v41 main_c_15
  let main_v43 : IVec S_ 1 := andi main_v38 main_v42
  let main_v44 : FVec F S288 .f32 := Host.absf main_arg10
  let main_cst_16 : FVec F S_ .f32 := constant S_ .f32 0x7F800000#32
  let main_v45 : FVec F S288 .f32 := broadcastInDim S288 ![] bcast_S_S288 main_cst_16
  let main_v46 : IVec S288 1 := cmpf .olt main_v44 main_v45
  let main_c_17 : IVec S_ 1 := constantI S_ 1 1#1
  let main_v47 : IVec S_ 1 := (fun x v => Host.reduce IntOp.andi x v reducesTo_S288_S_d0 h_S_) main_v46 main_c_17
  let main_v48 : IVec S_ 1 := andi main_v43 main_v47
  let main_v49 : FVec F S512x128 .f32 := Host.absf main_arg11
  let main_cst_18 : FVec F S_ .f32 := constant S_ .f32 0x7F800000#32
  let main_v50 : FVec F S512x128 .f32 := broadcastInDim S512x128 ![] bcast_S_S512x128 main_cst_18
  fn_part3 (F := F) main_arg2 main_arg12 main_arg13 main_arg14 main_arg15 main_arg16 main_v48 main_v49 main_v50

def fn_part1 {F : FTy → Type} [FloatOps F] (main_arg2 : IVec S2x160000 32) (main_arg5 : FVec F S672x128 .f32) (main_arg6 : FVec F S128 .f32) (main_arg7 : FVec F S128x128 .f32) (main_arg8 : FVec F S128 .f32) (main_arg9 : FVec F S128x288 .f32) (main_arg10 : FVec F S288 .f32) (main_arg11 : FVec F S512x128 .f32) (main_arg12 : FVec F S128 .f32) (main_arg13 : FVec F S128x128 .f32) (main_arg14 : FVec F S128 .f32) (main_arg15 : FVec F S128x256 .f32) (main_arg16 : FVec F S256 .f32) (main_v13 : IVec S_ 1) (main_v16 : IVec S160000x16 1) : IVec S_ 1 :=
  let main_c_5 : IVec S_ 1 := constantI S_ 1 1#1
  let main_v17 : IVec S_ 1 := (fun x v => Host.reduce IntOp.andi x v reducesTo_S160000x16_S_d0_1 h_S_) main_v16 main_c_5
  let main_v18 : IVec S_ 1 := andi main_v13 main_v17
  let main_v19 : FVec F S672x128 .f32 := Host.absf main_arg5
  let main_cst_6 : FVec F S_ .f32 := constant S_ .f32 0x7F800000#32
  let main_v20 : FVec F S672x128 .f32 := broadcastInDim S672x128 ![] bcast_S_S672x128 main_cst_6
  let main_v21 : IVec S672x128 1 := cmpf .olt main_v19 main_v20
  let main_c_7 : IVec S_ 1 := constantI S_ 1 1#1
  let main_v22 : IVec S_ 1 := (fun x v => Host.reduce IntOp.andi x v reducesTo_S672x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S10000x3x8 .f32) (main_arg1 : FVec F S10000x128 .f32) (main_arg2 : IVec S2x160000 32) (main_arg3 : FVec F S160000x3x4 .f32) (main_arg4 : FVec F S160000x16 .f32) (main_arg5 : FVec F S672x128 .f32) (main_arg6 : FVec F S128 .f32) (main_arg7 : FVec F S128x128 .f32) (main_arg8 : FVec F S128 .f32) (main_arg9 : FVec F S128x288 .f32) (main_arg10 : FVec F S288 .f32) (main_arg11 : FVec F S512x128 .f32) (main_arg12 : FVec F S128 .f32) (main_arg13 : FVec F S128x128 .f32) (main_arg14 : FVec F S128 .f32) (main_arg15 : FVec F S128x256 .f32) (main_arg16 : FVec F S256 .f32) : IVec S_ 1 :=
  let main_v0 : FVec F S10000x3x8 .f32 := Host.absf main_arg0
  let main_cst : FVec F S_ .f32 := constant S_ .f32 0x7F800000#32
  let main_v1 : FVec F S10000x3x8 .f32 := broadcastInDim S10000x3x8 ![] bcast_S_S10000x3x8 main_cst
  let main_v2 : IVec S10000x3x8 1 := cmpf .olt main_v0 main_v1
  let main_c : IVec S_ 1 := constantI S_ 1 1#1
  let main_v3 : IVec S_ 1 := (fun x v => Host.reduce IntOp.andi x v reducesTo_S10000x3x8_S_d0_1_2 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S160000x3x4 .f32 := Host.absf main_arg3
  let main_cst_2 : FVec F S_ .f32 := constant S_ .f32 0x7F800000#32
  let main_v10 : FVec F S160000x3x4 .f32 := broadcastInDim S160000x3x4 ![] bcast_S_S160000x3x4 main_cst_2
  let main_v11 : IVec S160000x3x4 1 := cmpf .olt main_v9 main_v10
  let main_c_3 : IVec S_ 1 := constantI S_ 1 1#1
  let main_v12 : IVec S_ 1 := (fun x v => Host.reduce IntOp.andi x v reducesTo_S160000x3x4_S_d0_1_2 h_S_) main_v11 main_c_3
  let main_v13 : IVec S_ 1 := andi main_v8 main_v12
  let main_v14 : FVec F S160000x16 .f32 := Host.absf main_arg4
  let main_cst_4 : FVec F S_ .f32 := constant S_ .f32 0x7F800000#32
  let main_v15 : FVec F S160000x16 .f32 := broadcastInDim S160000x16 ![] bcast_S_S160000x16 main_cst_4
  let main_v16 : IVec S160000x16 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S10000x3x8 : Shape := ⟨3, ![10000, 3, 8]⟩
abbrev S10000x128 : Shape := ⟨2, ![10000, 128]⟩
abbrev S2x160000 : Shape := ⟨2, ![2, 160000]⟩
abbrev S160000x3x4 : Shape := ⟨3, ![160000, 3, 4]⟩
abbrev S160000x16 : Shape := ⟨2, ![160000, 16]⟩
abbrev S672x128 : Shape := ⟨2, ![672, 128]⟩
abbrev S128 : Shape := ⟨1, ![128]⟩
abbrev S128x128 : Shape := ⟨2, ![128, 128]⟩
abbrev S128x288 : Shape := ⟨2, ![128, 288]⟩
abbrev S288 : Shape := ⟨1, ![288]⟩
abbrev S512x128 : Shape := ⟨2, ![512, 128]⟩
abbrev S128x256 : Shape := ⟨2, ![128, 256]⟩
abbrev S256 : Shape := ⟨1, ![256]⟩
abbrev S1x160000 : Shape := ⟨2, ![1, 160000]⟩
abbrev S160000 : Shape := ⟨1, ![160000]⟩
abbrev S_ : Shape := ⟨0, ![]⟩
abbrev S10000x24 : Shape := ⟨2, ![10000, 24]⟩
abbrev S160000x12 : Shape := ⟨2, ![160000, 12]⟩
abbrev S10000x152 : Shape := ⟨2, ![10000, 152]⟩
abbrev S160000x1 : Shape := ⟨2, ![160000, 1]⟩
abbrev S1 : Shape := ⟨1, ![1]⟩
abbrev S1x1 : Shape := ⟨2, ![1, 1]⟩
abbrev S160000x152 : Shape := ⟨2, ![160000, 152]⟩
abbrev S160000x24 : Shape := ⟨2, ![160000, 24]⟩
abbrev S160000x128 : Shape := ⟨2, ![160000, 128]⟩
abbrev S400x128 : Shape := ⟨2, ![400, 128]⟩
abbrev S16x128 : Shape := ⟨2, ![16, 128]⟩
abbrev S128x160 : Shape := ⟨2, ![128, 160]⟩
abbrev S160 : Shape := ⟨1, ![160]⟩
abbrev S4000x24 : Shape := ⟨2, ![4000, 24]⟩
abbrev S4000x12 : Shape := ⟨2, ![4000, 12]⟩
abbrev S4000x128 : Shape := ⟨2, ![4000, 128]⟩
abbrev S4000x16 : Shape := ⟨2, ![4000, 16]⟩
abbrev S4000x152 : Shape := ⟨2, ![4000, 152]⟩
abbrev S4000x3x8 : Shape := ⟨3, ![4000, 3, 8]⟩
abbrev S4000x3x4 : Shape := ⟨3, ![4000, 3, 4]⟩
abbrev S4000x3x20 : Shape := ⟨3, ![4000, 3, 20]⟩
abbrev S4000x20x3 : Shape := ⟨3, ![4000, 20, 3]⟩
abbrev S4000x20x20 : Shape := ⟨3, ![4000, 20, 20]⟩
abbrev S4000x400 : Shape := ⟨2, ![4000, 400]⟩
abbrev S4000 : Shape := ⟨1, ![4000]⟩
abbrev S4000x1 : Shape := ⟨2, ![4000, 1]⟩
abbrev S1x128 : Shape := ⟨2, ![1, 128]⟩
abbrev S4000x160 : Shape := ⟨2, ![4000, 160]⟩
abbrev S1x160 : Shape := ⟨2, ![1, 160]⟩
abbrev S4000x20x8 : Shape := ⟨3, ![4000, 20, 8]⟩
abbrev S4000x8x20 : Shape := ⟨3, ![4000, 8, 20]⟩
abbrev S10000 : Shape := ⟨1, ![10000]⟩
abbrev S10000x1 : Shape := ⟨2, ![10000, 1]⟩
abbrev S2000x24 : Shape := ⟨2, ![2000, 24]⟩
abbrev S2000x128 : Shape := ⟨2, ![2000, 128]⟩
abbrev S2000x3x8 : Shape := ⟨3, ![2000, 3, 8]⟩
abbrev S2000x3x16 : Shape := ⟨3, ![2000, 3, 16]⟩
abbrev S2000x16x3 : Shape := ⟨3, ![2000, 16, 3]⟩
abbrev S2000x16x16 : Shape := ⟨3, ![2000, 16, 16]⟩
abbrev S2000x256 : Shape := ⟨2, ![2000, 256]⟩
abbrev S2000 : Shape := ⟨1, ![2000]⟩
abbrev S2000x1 : Shape := ⟨2, ![2000, 1]⟩
abbrev S2000x512 : Shape := ⟨2, ![2000, 512]⟩
abbrev S1x256 : Shape := ⟨2, ![1, 256]⟩
abbrev S2000x16x8 : Shape := ⟨3, ![2000, 16, 8]⟩
abbrev S2000x8x16 : Shape := ⟨3, ![2000, 8, 16]⟩

abbrev nBuf : Space → Nat
  | .hbm => 130
  | .vmem => 43
  | .smem => 0
  | _ => 0

abbrev hbmTy0_0 (i : Nat) : BufTy := match i % 128 with
  | 0 => ⟨S10000x3x8, .f32⟩
  | 1 => ⟨S10000x128, .f32⟩
  | 2 => ⟨S2x160000, .i32⟩
  | 3 => ⟨S160000x3x4, .f32⟩
  | 4 => ⟨S160000x16, .f32⟩
  | 5 => ⟨S672x128, .f32⟩
  | 6 => ⟨S128, .f32⟩
  | 7 => ⟨S128x128, .f32⟩
  | 8 => ⟨S128, .f32⟩
  | 9 => ⟨S128x288, .f32⟩
  | 10 => ⟨S288, .f32⟩
  | 11 => ⟨S512x128, .f32⟩
  | 12 => ⟨S128, .f32⟩
  | 13 => ⟨S128x128, .f32⟩
  | 14 => ⟨S128, .f32⟩
  | 15 => ⟨S128x256, .f32⟩
  | 16 => ⟨S256, .f32⟩
  | 17 => ⟨S1x160000, .i32⟩
  | 18 => ⟨S160000, .i32⟩
  | 19 => ⟨S_, .i32⟩
  | 20 => ⟨S_, .i32⟩
  | 21 => ⟨S_, .i32⟩
  | 22 => ⟨S160000, .i32⟩
  | 23 => ⟨S160000, .i32⟩
  | 24 => ⟨S_, .i32⟩
  | 25 => ⟨S160000, .i32⟩
  | 26 => ⟨S160000, .i32⟩
  | 27 => ⟨S1x160000, .i32⟩
  | 28 => ⟨S160000, .i32⟩
  | 29 => ⟨S_, .i32⟩
  | 30 => ⟨S_, .i32⟩
  | 31 => ⟨S_, .i32⟩
  | 32 => ⟨S160000, .i32⟩
  | 33 => ⟨S160000, .i32⟩
  | 34 => ⟨S_, .i32⟩
  | 35 => ⟨S160000, .i32⟩
  | 36 => ⟨S160000, .i32⟩
  | 37 => ⟨S10000x24, .f32⟩
  | 38 => ⟨S160000x12, .f32⟩
  | 39 => ⟨S10000x152, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S1, .i32⟩
  | 49 => ⟨S_, .i32⟩
  | 50 => ⟨S160000x1, .i32⟩
  | 51 => ⟨S160000x1, .i1⟩
  | 52 => ⟨S1x1, .i32⟩
  | 53 => ⟨S160000x1, .i32⟩
  | 54 => ⟨S160000x1, .i1⟩
  | 55 => ⟨S160000x1, .i1⟩
  | 56 => ⟨S_, .i1⟩
  | 57 => ⟨S160000, .i1⟩
  | 58 => ⟨S160000x152, .f32⟩
  | 59 => ⟨S160000x152, .i1⟩
  | 60 => ⟨S_, .f32⟩
  | 61 => ⟨S160000x152, .f32⟩
  | 62 => ⟨S160000x152, .f32⟩
  | 63 => ⟨S_, .i32⟩
  | 64 => ⟨S160000, .i32⟩
  | 65 => ⟨S160000, .i1⟩
  | 66 => ⟨S_, .i32⟩
  | 67 => ⟨S160000, .i32⟩
  | 68 => ⟨S160000, .i32⟩
  | 69 => ⟨S160000, .i32⟩
  | 70 => ⟨S160000x1, .i32⟩
  | 71 => ⟨S1, .i32⟩
  | 72 => ⟨S_, .i32⟩
  | 73 => ⟨S160000x1, .i32⟩
  | 74 => ⟨S160000x1, .i1⟩
  | 75 => ⟨S1x1, .i32⟩
  | 76 => ⟨S160000x1, .i32⟩
  | 77 => ⟨S160000x1, .i1⟩
  | 78 => ⟨S160000x1, .i1⟩
  | 79 => ⟨S_, .i1⟩
  | 80 => ⟨S160000, .i1⟩
  | 81 => ⟨S160000x152, .f32⟩
  | 82 => ⟨S160000x152, .i1⟩
  | 83 => ⟨S_, .f32⟩
  | 84 => ⟨S160000x152, .f32⟩
  | 85 => ⟨S160000x152, .f32⟩
  | 86 => ⟨S160000x24, .f32⟩
  | 87 => ⟨S160000x128, .f32⟩
  | 88 => ⟨S160000x24, .f32⟩
  | 89 => ⟨S160000x128, .f32⟩
  | 90 => ⟨S400x128, .f32⟩
  | 91 => ⟨S400x128, .bf16⟩
  | 92 => ⟨S128x128, .f32⟩
  | 93 => ⟨S128x128, .bf16⟩
  | 94 => ⟨S128x128, .f32⟩
  | 95 => ⟨S128x128, .bf16⟩
  | 96 => ⟨S16x128, .f32⟩
  | 97 => ⟨S16x128, .bf16⟩
  | 98 => ⟨S128x128, .bf16⟩
  | 99 => ⟨S128x160, .f32⟩
  | 100 => ⟨S128x160, .bf16⟩
  | 101 => ⟨S128x128, .f32⟩
  | 102 => ⟨S128x128, .bf16⟩
  | 103 => ⟨S160, .f32⟩
  | 104 => ⟨S128, .f32⟩
  | 105 => ⟨S160000x152, .f32⟩
  | 106 => ⟨S_, .f32⟩
  | 107 => ⟨S10000x152, .f32⟩
  | 108 => ⟨S160000x1, .i32⟩
  | 109 => ⟨S10000x152, .f32⟩
  | 110 => ⟨S_, .f32⟩
  | 111 => ⟨S160000, .f32⟩
  | 112 => ⟨S_, .f32⟩
  | 113 => ⟨S10000, .f32⟩
  | 114 => ⟨S160000x1, .i32⟩
  | 115 => ⟨S10000, .f32⟩
  | 116 => ⟨S_, .f32⟩
  | 117 => ⟨S10000, .f32⟩
  | 118 => ⟨S10000, .f32⟩
  | 119 => ⟨S10000x1, .f32⟩
  | 120 => ⟨S10000x152, .f32⟩
  | 121 => ⟨S10000x152, .f32⟩
  | 122 => ⟨S10000x24, .f32⟩
  | 123 => ⟨S10000x128, .f32⟩
  | 124 => ⟨S512x128, .bf16⟩
  | 125 => ⟨S128x128, .bf16⟩
  | 126 => ⟨S128x256, .bf16⟩
  | 127 => ⟨S10000x24, .f32⟩
  | _ => ⟨S10000x3x8, .f32⟩

abbrev hbmTy0_1 (i : Nat) : BufTy := match i % 128 with
  | 0 => ⟨S10000x128, .f32⟩
  | 1 => ⟨S10000x3x8, .f32⟩
  | _ => ⟨S10000x3x8, .f32⟩

abbrev hbmTy (i : Nat) : BufTy := match i / 128 with
  | 0 => hbmTy0_0 i
  | 1 => hbmTy0_1 i
  | _ => ⟨S10000x3x8, .f32⟩

abbrev bufTy : (tb : Table) → Fin (tcTables nBuf tb) → BufTy
  | .hbm, ⟨i, _⟩ => hbmTy i
  | .local _ .vmem, ⟨0, _⟩ => ⟨S4000x24, .f32⟩
  | .local _ .vmem, ⟨1, _⟩ => ⟨S4000x24, .f32⟩
  | .local _ .vmem, ⟨2, _⟩ => ⟨S4000x24, .f32⟩
  | .local _ .vmem, ⟨3, _⟩ => ⟨S4000x24, .f32⟩
  | .local _ .vmem, ⟨4, _⟩ => ⟨S4000x12, .f32⟩
  | .local _ .vmem, ⟨5, _⟩ => ⟨S4000x12, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x16, .f32⟩
  | .local _ .vmem, ⟨11, _⟩ => ⟨S4000x16, .f32⟩
  | .local _ .vmem, ⟨12, _⟩ => ⟨S400x128, .bf16⟩
  | .local _ .vmem, ⟨13, _⟩ => ⟨S128x128, .bf16⟩
  | .local _ .vmem, ⟨14, _⟩ => ⟨S128x128, .bf16⟩
  | .local _ .vmem, ⟨15, _⟩ => ⟨S16x128, .bf16⟩
  | .local _ .vmem, ⟨16, _⟩ => ⟨S128, .f32⟩
  | .local _ .vmem, ⟨17, _⟩ => ⟨S128x128, .bf16⟩
  | .local _ .vmem, ⟨18, _⟩ => ⟨S128, .f32⟩
  | .local _ .vmem, ⟨19, _⟩ => ⟨S128x160, .bf16⟩
  | .local _ .vmem, ⟨20, _⟩ => ⟨S128x128, .bf16⟩
  | .local _ .vmem, ⟨21, _⟩ => ⟨S160, .f32⟩
  | .local _ .vmem, ⟨22, _⟩ => ⟨S128, .f32⟩
  | .local _ .vmem, ⟨23, _⟩ => ⟨S4000x152, .f32⟩
  | .local _ .vmem, ⟨24, _⟩ => ⟨S4000x152, .f32⟩
  | .local _ .vmem, ⟨25, _⟩ => ⟨S2000x24, .f32⟩
  | .local _ .vmem, ⟨26, _⟩ => ⟨S2000x24, .f32⟩
  | .local _ .vmem, ⟨27, _⟩ => ⟨S2000x24, .f32⟩
  | .local _ .vmem, ⟨28, _⟩ => ⟨S2000x24, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S512x128, .bf16⟩
  | .local _ .vmem, ⟨34, _⟩ => ⟨S128, .f32⟩
  | .local _ .vmem, ⟨35, _⟩ => ⟨S128x128, .bf16⟩
  | .local _ .vmem, ⟨36, _⟩ => ⟨S128, .f32⟩
  | .local _ .vmem, ⟨37, _⟩ => ⟨S128x256, .bf16⟩
  | .local _ .vmem, ⟨38, _⟩ => ⟨S256, .f32⟩
  | .local _ .vmem, ⟨39, _⟩ => ⟨S2000x24, .f32⟩
  | .local _ .vmem, ⟨40, _⟩ => ⟨S2000x24, .f32⟩
  | .local _ .vmem, ⟨41, _⟩ => ⟨S2000x128, .f32⟩
  | .local _ .vmem, ⟨42, _⟩ => ⟨S2000x128, .f32⟩
  | _, _ => ⟨S10000x3x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_c_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v9 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_cst : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_cst_3 : Ref sig .tc := ⟨.hbm, 110, rfl⟩
abbrev main_v34 : Ref sig .tc := ⟨.hbm, 111, rfl⟩
abbrev main_cst_4 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_cst_5 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48_0 : Ref sig .tc := ⟨.hbm, 127, rfl⟩
abbrev main_v48_1 : Ref sig .tc := ⟨.hbm, 128, rfl⟩
abbrev main_v49 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem10_1 : DmaSem sig := 40
abbrev cc1_sem11_0 : DmaSem sig := 41
abbrev cc1_sem11_1 : DmaSem sig := 42

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S400x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x160 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S160 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4000x152 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x24 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  slices_S2x160000_S1x160000_1_0 : S2x160000.Slices ![1, 0] S1x160000
  shapeCasts_S10000x3x8_S10000x24 : S10000x3x8.ShapeCasts S10000x24
  shapeCasts_S160000x3x4_S160000x12 : S160000x3x4.ShapeCasts S160000x12
  concatenates_S10000x24_S10000x128_S10000x152_d1 : Shape.Concatenates [S10000x24, S10000x128] S10000x152 1
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x152_0 : S160000.BroadcastsInDim S160000x152 (![0] : Fin 1 → Fin S160000x152.rank)
  bcast_S_S160000x152 : S_.BroadcastsInDim S160000x152 (![] : Fin 0 → Fin S160000x152.rank)
  slices_S160000x152_S160000x24_0_0 : S160000x152.Slices ![0, 0] S160000x24
  slices_S160000x152_S160000x128_0_24 : S160000x152.Slices ![0, 24] S160000x128
  slices_S672x128_S400x128_0_0 : S672x128.Slices ![0, 0] S400x128
  bitsLt_bf16_f32 : FTy.bits .bf16 < FTy.bits .f32
  slices_S672x128_S128x128_400_0 : S672x128.Slices ![400, 0] S128x128
  slices_S672x128_S128x128_528_0 : S672x128.Slices ![528, 0] S128x128
  slices_S672x128_S16x128_656_0 : S672x128.Slices ![656, 0] S16x128
  slices_S128x288_S128x160_0_0 : S128x288.Slices ![0, 0] S128x160
  slices_S128x288_S128x128_0_160 : S128x288.Slices ![0, 160] S128x128
  slices_S288_S160_0 : S288.Slices ![0] S160
  slices_S288_S128_160 : S288.Slices ![160] S128
  inb_S4000x24_S4000x24_0_0 : ∀ a, (![0, 0] : Fin 2 → Nat) a + S4000x24.size a ≤ S4000x24.size a
  h_S4000x24 : 0 < S4000x24.numel
  shapeCasts_S4000x24_S4000x24 : S4000x24.ShapeCasts S4000x24
  shapeCasts_S4000x24_S4000x3x8 : S4000x24.ShapeCasts S4000x3x8
  inb_S4000x12_S4000x12_0_0 : ∀ a, (![0, 0] : Fin 2 → Nat) a + S4000x12.size a ≤ S4000x12.size a
  h_S4000x12 : 0 < S4000x12.numel
  shapeCasts_S4000x12_S4000x12 : S4000x12.ShapeCasts S4000x12
  shapeCasts_S4000x12_S4000x3x4 : S4000x12.ShapeCasts S4000x3x4
  concatenates_S4000x3x8_S4000x3x8_S4000x3x4_S4000x3x20_d2 : Shape.Concatenates [S4000x3x8, S4000x3x8, S4000x3x4] S4000x3x20 2
  transposes_S4000x3x20_p0_2_1_S4000x20x3 : S4000x3x20.Transposes [0, 2, 1] S4000x20x3
  shapeCasts_S4000x20x20_S4000x400 : S4000x20x20.ShapeCasts S4000x400
  reduces_S4000x400_S4000 : S4000x400.Reduces [1] S4000
  shapeCasts_S4000_S4000x1 : S4000.ShapeCasts S4000x1
  broadcasts_S4000x1_S4000x400 : S4000x1.Broadcasts S4000x400
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x16_S4000x16_0_0 : ∀ a, (![0, 0] : Fin 2 → Nat) a + S4000x16.size a ≤ S4000x16.size a
  h_S4000x16 : 0 < S4000x16.numel
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x160_S128x160_0_0 : ∀ a, (![0, 0] : Fin 2 → Nat) a + S128x160.size a ≤ S128x160.size a
  h_S128x160 : 0 < S128x160.numel
  shapeCasts_S128x160_S128x160 : S128x160.ShapeCasts S128x160
  inb_S160_S160_0 : ∀ a, (![0] : Fin 1 → Nat) a + S160.size a ≤ S160.size a
  h_S160 : 0 < S160.numel
  shapeCasts_S160_S160 : S160.ShapeCasts S160
  shapeCasts_S160_S1x160 : S160.ShapeCasts S1x160
  broadcasts_S1x160_S4000x160 : S1x160.Broadcasts S4000x160
  shapeCasts_S128_S128 : S128.ShapeCasts S128
  shapeCasts_S4000x160_S4000x20x8 : S4000x160.ShapeCasts S4000x20x8
  transposes_S4000x20x8_p0_2_1_S4000x8x20 : S4000x20x8.Transposes [0, 2, 1] S4000x8x20
  shapeCasts_S4000x3x8_S4000x24 : S4000x3x8.ShapeCasts S4000x24
  concatenates_S4000x24_S4000x128_S4000x152_d1 : Shape.Concatenates [S4000x24, S4000x128] S4000x152 1
  inb_S4000x152_S4000x152_0_0 : ∀ a, (![0, 0] : Fin 2 → Nat) a + S4000x152.size a ≤ S4000x152.size a
  h_S4000x152 : 0 < S4000x152.numel
  bcast_S_S10000x152 : S_.BroadcastsInDim S10000x152 (![] : Fin 0 → Fin S10000x152.rank)
  bcast_S_S10000 : S_.BroadcastsInDim S10000 (![] : Fin 0 → Fin S10000.rank)
  shapeCasts_S10000_S10000x1 : S10000.ShapeCasts S10000x1
  bcast_S10000x1_S10000x152_0_1 : S10000x1.BroadcastsInDim S10000x152 (![0, 1] : Fin 2 → Fin S10000x152.rank)
  slices_S10000x152_S10000x24_0_0 : S10000x152.Slices ![0, 0] S10000x24
  slices_S10000x152_S10000x128_0_24 : S10000x152.Slices ![0, 24] S10000x128
  inb_S2000x24_S2000x24_0_0 : ∀ a, (![0, 0] : Fin 2 → Nat) a + S2000x24.size a ≤ S2000x24.size a
  h_S2000x24 : 0 < S2000x24.numel
  shapeCasts_S2000x24_S2000x24 : S2000x24.ShapeCasts S2000x24
  shapeCasts_S2000x24_S2000x3x8 : S2000x24.ShapeCasts S2000x3x8
  concatenates_S2000x3x8_S2000x3x8_S2000x3x16_d2 : Shape.Concatenates [S2000x3x8, S2000x3x8] S2000x3x16 2
  transposes_S2000x3x16_p0_2_1_S2000x16x3 : S2000x3x16.Transposes [0, 2, 1] S2000x16x3
  shapeCasts_S2000x16x16_S2000x256 : S2000x16x16.ShapeCasts S2000x256
  reduces_S2000x256_S2000 : S2000x256.Reduces [1] S2000
  shapeCasts_S2000_S2000x1 : S2000.ShapeCasts S2000x1
  broadcasts_S2000x1_S2000x256 : S2000x1.Broadcasts S2000x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x256_S2000x128_S2000x128_S2000x512_d1 : Shape.Concatenates [S2000x256, S2000x128, S2000x128] S2000x512 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  slices_S2000x256_o0_0_S2000x128 : S2000x256.Slices ![0, 0] S2000x128
  shapeCasts_S2000x128_S2000x16x8 : S2000x128.ShapeCasts S2000x16x8
  slices_S2000x256_o0_128_S2000x128 : S2000x256.Slices ![0, 128] S2000x128
  transposes_S2000x16x8_p0_2_1_S2000x8x16 : S2000x16x8.Transposes [0, 2, 1] S2000x8x16
  shapeCasts_S2000x3x8_S2000x24 : S2000x3x8.ShapeCasts S2000x24
  shapeCasts_S10000x24_S10000x3x8 : S10000x24.ShapeCasts S10000x3x8
  gather_S10000x152_S160000x1_S160000x152_1_0_n_n_0_1_1152_wf : GatherDims.WF S10000x152 S160000x1 S160000x152 [1] [0] [] [0] [] 1 ![1, 152]
  dot_S4000x20x3_S4000x20x3_S4000x20x20_2_2_1_1_0_0_wf : DotDims.WF S4000x20x3 S4000x20x3 S4000x20x20 [2] [2] [1] [1] [0] [0]
  dot_S4000x400_S400x128_S4000x128_1_0_0_1_n_n_wf : DotDims.WF S4000x400 S400x128 S4000x128 [1] [0] [0] [1] [] []
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  dot_S4000x128_S128x160_S4000x160_1_0_0_1_n_n_wf : DotDims.WF S4000x128 S128x160 S4000x160 [1] [0] [0] [1] [] []
  dot_S4000x3x20_S4000x8x20_S4000x3x8_2_2_1_1_0_0_wf : DotDims.WF S4000x3x20 S4000x8x20 S4000x3x8 [2] [2] [1] [1] [0] [0]
  scatter_S10000x152_S160000x1_S160000x152_1_0_0_1_wf : ScatterDims.WF S10000x152 S160000x1 S160000x152 [1] [0] [0] 1
  scatter_S10000_S160000x1_S160000_n_0_0_1_wf : ScatterDims.WF S10000 S160000x1 S160000 [] [0] [0] 1
  dot_S2000x16x3_S2000x16x3_S2000x16x16_2_2_1_1_0_0_wf : DotDims.WF S2000x16x3 S2000x16x3 S2000x16x16 [2] [2] [1] [1] [0] [0]
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x3x16_S2000x8x16_S2000x3x8_2_2_1_1_0_0_wf : DotDims.WF S2000x3x16 S2000x8x16 S2000x3x8 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x24.size a ≤ S160000x24.size a
  hwx0_0 : ∀ i : grid0.Coords, EltTy.bits .f32 = 32 ∨ (Rect.block (s := S160000x24) S4000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x24.size a ≤ S160000x24.size a
  hwx0_1 : ∀ i : grid0.Coords, EltTy.bits .f32 = 32 ∨ (Rect.block (s := S160000x24) S4000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x12.size a ≤ S160000x12.size a
  hwx0_2 : ∀ i : grid0.Coords, EltTy.bits .f32 = 32 ∨ (Rect.block (s := S160000x12) S4000x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S160000x128.size a
  hwx0_3 : ∀ i : grid0.Coords, EltTy.bits .f32 = 32 ∨ (Rect.block (s := S160000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S160000x128.size a
  hwx0_4 : ∀ i : grid0.Coords, EltTy.bits .f32 = 32 ∨ (Rect.block (s := S160000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x16.size a ≤ S160000x16.size a
  hwx0_5 : ∀ i : grid0.Coords, EltTy.bits .f32 = 32 ∨ (Rect.block (s := S160000x16) S4000x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S400x128.size a
  hwx0_6 : ∀ i : grid0.Coords, EltTy.bits .bf16 = 32 ∨ (Rect.block (s := S400x128) S400x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x128.size a ≤ S16x128.size a
  hwx0_9 : ∀ i : grid0.Coords, EltTy.bits .bf16 = 32 ∨ (Rect.block (s := S16x128) S16x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x160.size a ≤ S128x160.size a
  hwx0_13 : ∀ i : grid0.Coords, EltTy.bits .bf16 = 32 ∨ (Rect.block (s := S128x160) S128x160.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S160.size a ≤ S160.size a
  hwx0_15 : ∀ i : grid0.Coords, EltTy.bits .f32 = 32 ∨ (Rect.block (s := S160) S160.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x152.size a ≤ S160000x152.size a
  hwx0_17 : ∀ i : grid0.Coords, EltTy.bits .f32 = 32 ∨ (Rect.block (s := S160000x152) S4000x152.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x24.size a ≤ S10000x24.size a
  hwx1_0 : ∀ i : grid1.Coords, EltTy.bits .f32 = 32 ∨ (Rect.block (s := S10000x24) S2000x24.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x24.size a ≤ S10000x24.size a
  hwx1_1 : ∀ i : grid1.Coords, EltTy.bits .f32 = 32 ∨ (Rect.block (s := S10000x24) S2000x24.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .bf16 = 32 ∨ (Rect.block (s := S128x256) S128x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x24.size a ≤ S10000x24.size a
  hwx1_10 : ∀ i : grid1.Coords, EltTy.bits .f32 = 32 ∨ (Rect.block (s := S10000x24) S2000x24.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S10000x128.size a
  hwx1_11 : ∀ i : grid1.Coords, EltTy.bits .f32 = 32 ∨ (Rect.block (s := S10000x128) S2000x128.size (cc1_transform_11 i) (hinb1_11 i)).WholeWords (EltTy.packing .f32)

variable [Facts₀]

def gather_S10000x152_S160000x1_S160000x152_1_0_n_n_0_1_1152 : GatherDims S10000x152 S160000x1 S160000x152 where
  offsetDims := [1]
  collapsedSliceDims := [0]
  operandBatchingDims := []
  startIndicesBatchingDims := []
  startIndexMap := [0]
  indexVectorDim := 1
  sliceSizes := ![1, 152]
  wf := gather_S10000x152_S160000x1_S160000x152_1_0_n_n_0_1_1152_wf
def dot_S4000x20x3_S4000x20x3_S4000x20x20_2_2_1_1_0_0 : DotDims S4000x20x3 S4000x20x3 S4000x20x20 where
  lhsContracting := [2]
  rhsContracting := [2]
  lhsNonContracting := [1]
  rhsNonContracting := [1]
  lhsBatch := [0]
  rhsBatch := [0]
  wf := dot_S4000x20x3_S4000x20x3_S4000x20x20_2_2_1_1_0_0_wf
def dot_S4000x400_S400x128_S4000x128_1_0_0_1_n_n : DotDims S4000x400 S400x128 S4000x128 where
  lhsContracting := [1]
  rhsContracting := [0]
  lhsNonContracting := [0]
  rhsNonContracting := [1]
  lhsBatch := []
  rhsBatch := []
  wf := dot_S4000x400_S400x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x160_S4000x160_1_0_0_1_n_n : DotDims S4000x128 S128x160 S4000x160 where
  lhsContracting := [1]
  rhsContracting := [0]
  lhsNonContracting := [0]
  rhsNonContracting := [1]
  lhsBatch := []
  rhsBatch := []
  wf := dot_S4000x128_S128x160_S4000x160_1_0_0_1_n_n_wf
def dot_S4000x3x20_S4000x8x20_S4000x3x8_2_2_1_1_0_0 : DotDims S4000x3x20 S4000x8x20 S4000x3x8 where
  lhsContracting := [2]
  rhsContracting := [2]
  lhsNonContracting := [1]
  rhsNonContracting := [1]
  lhsBatch := [0]
  rhsBatch := [0]
  wf := dot_S4000x3x20_S4000x8x20_S4000x3x8_2_2_1_1_0_0_wf
def scatter_S10000x152_S160000x1_S160000x152_1_0_0_1 : ScatterDims S10000x152 S160000x1 S160000x152 where
  updateWindowDims := [1]
  insertedWindowDims := [0]
  scatterDimsToOperandDims := [0]
  indexVectorDim := 1
  wf := scatter_S10000x152_S160000x1_S160000x152_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x16x3_S2000x16x3_S2000x16x16_2_2_1_1_0_0 : DotDims S2000x16x3 S2000x16x3 S2000x16x16 where
  lhsContracting := [2]
  rhsContracting := [2]
  lhsNonContracting := [1]
  rhsNonContracting := [1]
  lhsBatch := [0]
  rhsBatch := [0]
  wf := dot_S2000x16x3_S2000x16x3_S2000x16x16_2_2_1_1_0_0_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x3x16_S2000x8x16_S2000x3x8_2_2_1_1_0_0 : DotDims S2000x3x16 S2000x8x16 S2000x3x8 where
  lhsContracting := [2]
  rhsContracting := [2]
  lhsNonContracting := [1]
  rhsNonContracting := [1]
  lhsBatch := [0]
  rhsBatch := [0]
  wf := dot_S2000x3x16_S2000x8x16_S2000x3x8_2_2_1_1_0_0_wf

abbrev win0_0 : Pipeline.Window sig grid0 :=
  Pipeline.Window.ofSpec (Memref.whole main_v11) S4000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4000x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S400x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S16x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S128x160.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28) S160.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v29) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v30) S4000x152.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v6) S2000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v48_0) S2000x24.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v48_1) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S10000x3x8 : Shape := ⟨3, ![10000, 3, 8]⟩
abbrev S10000x128 : Shape := ⟨2, ![10000, 128]⟩
abbrev S2x160000 : Shape := ⟨2, ![2, 160000]⟩
abbrev S160000x3x4 : Shape := ⟨3, ![160000, 3, 4]⟩
abbrev S160000x16 : Shape := ⟨2, ![160000, 16]⟩
abbrev S672x128 : Shape := ⟨2, ![672, 128]⟩
abbrev S128 : Shape := ⟨1, ![128]⟩
abbrev S128x128 : Shape := ⟨2, ![128, 128]⟩
abbrev S128x288 : Shape := ⟨2, ![128, 288]⟩
abbrev S288 : Shape := ⟨1, ![288]⟩
abbrev S512x128 : Shape := ⟨2, ![512, 128]⟩
abbrev S128x256 : Shape := ⟨2, ![128, 256]⟩
abbrev S256 : Shape := ⟨1, ![256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x3x8 : Shape := ⟨3, ![160000, 3, 8]⟩
abbrev S160000x3x20 : Shape := ⟨3, ![160000, 3, 20]⟩
abbrev S160000x128 : Shape := ⟨2, ![160000, 128]⟩
abbrev S160000x272 : Shape := ⟨2, ![160000, 272]⟩
abbrev S160000x20x20 : Shape := ⟨3, ![160000, 20, 20]⟩
abbrev S160000x400 : Shape := ⟨2, ![160000, 400]⟩
abbrev S160000x672 : Shape := ⟨2, ![160000, 672]⟩
abbrev S1x128 : Shape := ⟨2, ![1, 128]⟩
abbrev S160000x288 : Shape := ⟨2, ![160000, 288]⟩
abbrev S1x288 : Shape := ⟨2, ![1, 288]⟩
abbrev S160000x160 : Shape := ⟨2, ![160000, 160]⟩
abbrev S160000x20x8 : Shape := ⟨3, ![160000, 20, 8]⟩
abbrev S10000 : Shape := ⟨1, ![10000]⟩
abbrev S10000x1x1 : Shape := ⟨3, ![10000, 1, 1]⟩
abbrev S10000x1 : Shape := ⟨2, ![10000, 1]⟩
abbrev S10000x3x16 : Shape := ⟨3, ![10000, 3, 16]⟩
abbrev S10000x16x16 : Shape := ⟨3, ![10000, 16, 16]⟩
abbrev S10000x256 : Shape := ⟨2, ![10000, 256]⟩
abbrev S10000x512 : Shape := ⟨2, ![10000, 512]⟩
abbrev S1x256 : Shape := ⟨2, ![1, 256]⟩
abbrev S10000x16x8 : Shape := ⟨3, ![10000, 16, 8]⟩

abbrev nBuf : Space → Nat
  | .hbm => 186
  | .vmem => 0
  | .smem => 0
  | _ => 0

abbrev hbmTy0_0 (i : Nat) : BufTy := match i % 128 with
  | 0 => ⟨S10000x3x8, .f32⟩
  | 1 => ⟨S10000x128, .f32⟩
  | 2 => ⟨S2x160000, .i32⟩
  | 3 => ⟨S160000x3x4, .f32⟩
  | 4 => ⟨S160000x16, .f32⟩
  | 5 => ⟨S672x128, .f32⟩
  | 6 => ⟨S128, .f32⟩
  | 7 => ⟨S128x128, .f32⟩
  | 8 => ⟨S128, .f32⟩
  | 9 => ⟨S128x288, .f32⟩
  | 10 => ⟨S288, .f32⟩
  | 11 => ⟨S512x128, .f32⟩
  | 12 => ⟨S128, .f32⟩
  | 13 => ⟨S128x128, .f32⟩
  | 14 => ⟨S128, .f32⟩
  | 15 => ⟨S128x256, .f32⟩
  | 16 => ⟨S256, .f32⟩
  | 17 => ⟨S1x160000, .i32⟩
  | 18 => ⟨S160000, .i32⟩
  | 19 => ⟨S1x160000, .i32⟩
  | 20 => ⟨S160000, .i32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000x3x8, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000x3x8, .f32⟩
  | 39 => ⟨S160000x3x20, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x128, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S160000x128, .f32⟩
  | 58 => ⟨S160000x272, .f32⟩
  | 59 => ⟨S160000x20x20, .f32⟩
  | 60 => ⟨S160000x400, .f32⟩
  | 61 => ⟨S160000x400, .f32⟩
  | 62 => ⟨S_, .f32⟩
  | 63 => ⟨S160000, .f32⟩
  | 64 => ⟨S160000x1, .f32⟩
  | 65 => ⟨S160000x1, .f32⟩
  | 66 => ⟨S_, .f32⟩
  | 67 => ⟨S160000x1, .f32⟩
  | 68 => ⟨S160000x1, .f32⟩
  | 69 => ⟨S160000x400, .f32⟩
  | 70 => ⟨S160000x400, .f32⟩
  | 71 => ⟨S160000x672, .f32⟩
  | 72 => ⟨S160000x128, .f32⟩
  | 73 => ⟨S1x128, .f32⟩
  | 74 => ⟨S160000x128, .f32⟩
  | 75 => ⟨S160000x128, .f32⟩
  | 76 => ⟨S160000x128, .f32⟩
  | 77 => ⟨S160000x128, .f32⟩
  | 78 => ⟨S_, .f32⟩
  | 79 => ⟨S160000x128, .f32⟩
  | 80 => ⟨S160000x128, .f32⟩
  | 81 => ⟨S_, .f32⟩
  | 82 => ⟨S160000x128, .f32⟩
  | 83 => ⟨S160000x128, .f32⟩
  | 84 => ⟨S160000x128, .f32⟩
  | 85 => ⟨S160000x128, .f32⟩
  | 86 => ⟨S1x128, .f32⟩
  | 87 => ⟨S160000x128, .f32⟩
  | 88 => ⟨S160000x128, .f32⟩
  | 89 => ⟨S160000x128, .f32⟩
  | 90 => ⟨S160000x128, .f32⟩
  | 91 => ⟨S_, .f32⟩
  | 92 => ⟨S160000x128, .f32⟩
  | 93 => ⟨S160000x128, .f32⟩
  | 94 => ⟨S_, .f32⟩
  | 95 => ⟨S160000x128, .f32⟩
  | 96 => ⟨S160000x128, .f32⟩
  | 97 => ⟨S160000x128, .f32⟩
  | 98 => ⟨S160000x288, .f32⟩
  | 99 => ⟨S1x288, .f32⟩
  | 100 => ⟨S160000x288, .f32⟩
  | 101 => ⟨S160000x288, .f32⟩
  | 102 => ⟨S160000x160, .f32⟩
  | 103 => ⟨S160000x128, .f32⟩
  | 104 => ⟨S160000x20x8, .f32⟩
  | 105 => ⟨S160000x3x8, .f32⟩
  | 106 => ⟨S_, .f32⟩
  | 107 => ⟨S10000x3x8, .f32⟩
  | 108 => ⟨S160000x1, .i32⟩
  | 109 => ⟨S10000x3x8, .f32⟩
  | 110 => ⟨S_, .f32⟩
  | 111 => ⟨S160000, .f32⟩
  | 112 => ⟨S_, .f32⟩
  | 113 => ⟨S10000, .f32⟩
  | 114 => ⟨S160000x1, .i32⟩
  | 115 => ⟨S10000, .f32⟩
  | 116 => ⟨S_, .f32⟩
  | 117 => ⟨S10000, .f32⟩
  | 118 => ⟨S10000, .f32⟩
  | 119 => ⟨S10000x1x1, .f32⟩
  | 120 => ⟨S10000x3x8, .f32⟩
  | 121 => ⟨S10000x3x8, .f32⟩
  | 122 => ⟨S_, .f32⟩
  | 123 => ⟨S10000x128, .f32⟩
  | 124 => ⟨S160000x1, .i32⟩
  | 125 => ⟨S10000x128, .f32⟩
  | 126 => ⟨S_, .f32⟩
  | 127 => ⟨S160000, .f32⟩
  | _ => ⟨S10000x3x8, .f32⟩

abbrev hbmTy0_1 (i : Nat) : BufTy := match i % 128 with
  | 0 => ⟨S_, .f32⟩
  | 1 => ⟨S10000, .f32⟩
  | 2 => ⟨S160000x1, .i32⟩
  | 3 => ⟨S10000, .f32⟩
  | 4 => ⟨S_, .f32⟩
  | 5 => ⟨S10000, .f32⟩
  | 6 => ⟨S10000, .f32⟩
  | 7 => ⟨S10000x1, .f32⟩
  | 8 => ⟨S10000x128, .f32⟩
  | 9 => ⟨S10000x128, .f32⟩
  | 10 => ⟨S10000x3x16, .f32⟩
  | 11 => ⟨S10000x16x16, .f32⟩
  | 12 => ⟨S10000x256, .f32⟩
  | 13 => ⟨S10000x256, .f32⟩
  | 14 => ⟨S_, .f32⟩
  | 15 => ⟨S10000, .f32⟩
  | 16 => ⟨S10000x1, .f32⟩
  | 17 => ⟨S10000x1, .f32⟩
  | 18 => ⟨S_, .f32⟩
  | 19 => ⟨S10000x1, .f32⟩
  | 20 => ⟨S10000x1, .f32⟩
  | 21 => ⟨S10000x256, .f32⟩
  | 22 => ⟨S10000x256, .f32⟩
  | 23 => ⟨S10000x512, .f32⟩
  | 24 => ⟨S10000x128, .f32⟩
  | 25 => ⟨S1x128, .f32⟩
  | 26 => ⟨S10000x128, .f32⟩
  | 27 => ⟨S10000x128, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S10000x128, .f32⟩
  | 37 => ⟨S10000x128, .f32⟩
  | 38 => ⟨S1x128, .f32⟩
  | 39 => ⟨S10000x128, .f32⟩
  | 40 => ⟨S10000x128, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S10000x128, .f32⟩
  | 50 => ⟨S10000x256, .f32⟩
  | 51 => ⟨S1x256, .f32⟩
  | 52 => ⟨S10000x256, .f32⟩
  | 53 => ⟨S10000x256, .f32⟩
  | 54 => ⟨S10000x128, .f32⟩
  | 55 => ⟨S10000x128, .f32⟩
  | 56 => ⟨S10000x16x8, .f32⟩
  | 57 => ⟨S10000x3x8, .f32⟩
  | _ => ⟨S10000x3x8, .f32⟩

abbrev hbmTy (i : Nat) : BufTy := match i / 128 with
  | 0 => hbmTy0_0 i
  | 1 => hbmTy0_1 i
  | _ => ⟨S10000x3x8, .f32⟩

abbrev bufTy : (tb : Table) → Fin (tcTables nBuf tb) → BufTy
  | .hbm, ⟨i, _⟩ => hbmTy i
  | _, _ => ⟨S10000x3x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call0_v0 : Ref sig .tc := ⟨.hbm, 61, rfl⟩
abbrev main_call0_cst : Ref sig .tc := ⟨.hbm, 62, rfl⟩
abbrev main_call0_v1 : Ref sig .tc := ⟨.hbm, 63, rfl⟩
abbrev main_call0_v2 : Ref sig .tc := ⟨.hbm, 64, rfl⟩
abbrev main_v36 : Ref sig .tc := ⟨.hbm, 65, rfl⟩
abbrev main_cst : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_7 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_8 : Ref sig .tc := ⟨.hbm, 110, rfl⟩
abbrev main_v63 : Ref sig .tc := ⟨.hbm, 111, rfl⟩
abbrev main_cst_9 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_11 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_12 : Ref sig .tc := ⟨.hbm, 126, rfl⟩
abbrev main_v75 : Ref sig .tc := ⟨.hbm, 127, rfl⟩
abbrev main_cst_13 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_14 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call3_v0 : Ref sig .tc := ⟨.hbm, 141, rfl⟩
abbrev main_call3_cst : Ref sig .tc := ⟨.hbm, 142, rfl⟩
abbrev main_call3_v1 : Ref sig .tc := ⟨.hbm, 143, rfl⟩
abbrev main_call3_v2 : Ref sig .tc := ⟨.hbm, 144, rfl⟩
abbrev main_v87 : Ref sig .tc := ⟨.hbm, 145, rfl⟩
abbrev main_cst_15 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_call4_v0 : Ref sig .tc := ⟨.hbm, 156, rfl⟩
abbrev main_call4_v1 : Ref sig .tc := ⟨.hbm, 157, rfl⟩
abbrev main_call4_cst : Ref sig .tc := ⟨.hbm, 158, rfl⟩
abbrev main_call4_v2 : Ref sig .tc := ⟨.hbm, 159, rfl⟩
abbrev main_call4_v3 : Ref sig .tc := ⟨.hbm, 160, rfl⟩
abbrev main_call4_cst_0 : Ref sig .tc := ⟨.hbm, 161, rfl⟩
abbrev main_call4_v4 : Ref sig .tc := ⟨.hbm, 162, rfl⟩
abbrev main_call4_v5 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_call5_v5 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x3x8_S160000x3x8_S160000x3x4_S160000x3x20_d2 : Shape.Concatenates [S160000x3x8, S160000x3x8, S160000x3x4] S160000x3x20 2
  concatenates_S160000x128_S160000x128_S160000x16_S160000x272_d1 : Shape.Concatenates [S160000x128, S160000x128, S160000x16] S160000x272 1
  shapeCasts_S160000x20x20_S160000x400 : S160000x20x20.ShapeCasts S160000x400
  reducesTo_S160000x400_S160000_d1 : S160000x400.ReducesTo [1] S160000
  h_S_ : 0 < S_.numel
  bcast_S_S160000x1 : S_.BroadcastsInDim S160000x1 (![] : Fin 0 → Fin S160000x1.rank)
  bcast_S160000x1_S160000x400_0_1 : S160000x1.BroadcastsInDim S160000x400 (![0, 1] : Fin 2 → Fin S160000x400.rank)
  concatenates_S160000x400_S160000x272_S160000x672_d1 : Shape.Concatenates [S160000x400, S160000x272] S160000x672 1
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  bcast_S288_S1x288_1 : S288.BroadcastsInDim S1x288 (![1] : Fin 1 → Fin S1x288.rank)
  bcast_S1x288_S160000x288_0_1 : S1x288.BroadcastsInDim S160000x288 (![0, 1] : Fin 2 → Fin S160000x288.rank)
  slices_S160000x288_S160000x160_0_0 : S160000x288.Slices ![0, 0] S160000x160
  slices_S160000x288_S160000x128_0_160 : S160000x288.Slices ![0, 160] S160000x128
  shapeCasts_S160000x160_S160000x20x8 : S160000x160.ShapeCasts S160000x20x8
  bcast_S_S10000x3x8 : S_.BroadcastsInDim S10000x3x8 (![] : Fin 0 → Fin S10000x3x8.rank)
  bcast_S_S10000 : S_.BroadcastsInDim S10000 (![] : Fin 0 → Fin S10000.rank)
  shapeCasts_S10000_S10000x1x1 : S10000.ShapeCasts S10000x1x1
  bcast_S10000x1x1_S10000x3x8_0_1_2 : S10000x1x1.BroadcastsInDim S10000x3x8 (![0, 1, 2] : Fin 3 → Fin S10000x3x8.rank)
  bcast_S_S10000x128 : S_.BroadcastsInDim S10000x128 (![] : Fin 0 → Fin S10000x128.rank)
  shapeCasts_S10000_S10000x1 : S10000.ShapeCasts S10000x1
  bcast_S10000x1_S10000x128_0_1 : S10000x1.BroadcastsInDim S10000x128 (![0, 1] : Fin 2 → Fin S10000x128.rank)
  concatenates_S10000x3x8_S10000x3x8_S10000x3x16_d2 : Shape.Concatenates [S10000x3x8, S10000x3x8] S10000x3x16 2
  shapeCasts_S10000x16x16_S10000x256 : S10000x16x16.ShapeCasts S10000x256
  reducesTo_S10000x256_S10000_d1 : S10000x256.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S10000x256_S10000x128_S10000x128_S10000x512_d1 : Shape.Concatenates [S10000x256, S10000x128, S10000x128] S10000x512 1
  bcast_S1x128_S10000x128_0_1 : S1x128.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  slices_S10000x256_S10000x128_0_0 : S10000x256.Slices ![0, 0] S10000x128
  slices_S10000x256_S10000x128_0_128 : S10000x256.Slices ![0, 128] S10000x128
  shapeCasts_S10000x128_S10000x16x8 : S10000x128.ShapeCasts S10000x16x8
  gather_S10000x3x8_S160000x1_S160000x3x8_12_0_n_n_0_1_138_wf : GatherDims.WF S10000x3x8 S160000x1 S160000x3x8 [1, 2] [0] [] [0] [] 1 ![1, 3, 8]
  gather_S10000x128_S160000x1_S160000x128_1_0_n_n_0_1_1128_wf : GatherDims.WF S10000x128 S160000x1 S160000x128 [1] [0] [] [0] [] 1 ![1, 128]
  dot_S160000x3x20_S160000x3x20_S160000x20x20_1_1_2_2_0_0_wf : DotDims.WF S160000x3x20 S160000x3x20 S160000x20x20 [1] [1] [2] [2] [0] [0]
  dot_S160000x672_S672x128_S160000x128_1_0_0_1_n_n_wf : DotDims.WF S160000x672 S672x128 S160000x128 [1] [0] [0] [1] [] []
  dot_S160000x128_S128x128_S160000x128_1_0_0_1_n_n_wf : DotDims.WF S160000x128 S128x128 S160000x128 [1] [0] [0] [1] [] []
  dot_S160000x128_S128x288_S160000x288_1_0_0_1_n_n_wf : DotDims.WF S160000x128 S128x288 S160000x288 [1] [0] [0] [1] [] []
  dot_S160000x3x20_S160000x20x8_S160000x3x8_2_1_1_2_0_0_wf : DotDims.WF S160000x3x20 S160000x20x8 S160000x3x8 [2] [1] [1] [2] [0] [0]
  scatter_S10000x3x8_S160000x1_S160000x3x8_12_0_0_1_wf : ScatterDims.WF S10000x3x8 S160000x1 S160000x3x8 [1, 2] [0] [0] 1
  scatter_S10000_S160000x1_S160000_n_0_0_1_wf : ScatterDims.WF S10000 S160000x1 S160000 [] [0] [0] 1
  scatter_S10000x128_S160000x1_S160000x128_1_0_0_1_wf : ScatterDims.WF S10000x128 S160000x1 S160000x128 [1] [0] [0] 1
  dot_S10000x3x16_S10000x3x16_S10000x16x16_1_1_2_2_0_0_wf : DotDims.WF S10000x3x16 S10000x3x16 S10000x16x16 [1] [1] [2] [2] [0] [0]
  dot_S10000x512_S512x128_S10000x128_1_0_0_1_n_n_wf : DotDims.WF S10000x512 S512x128 S10000x128 [1] [0] [0] [1] [] []
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S10000x3x16_S10000x16x8_S10000x3x8_2_1_1_2_0_0_wf : DotDims.WF S10000x3x16 S10000x16x8 S10000x3x8 [2] [1] [1] [2] [0] [0]

variable [Facts₀]

def gather_S10000x3x8_S160000x1_S160000x3x8_12_0_n_n_0_1_138 : GatherDims S10000x3x8 S160000x1 S160000x3x8 where
  offsetDims := [1, 2]
  collapsedSliceDims := [0]
  operandBatchingDims := []
  startIndicesBatchingDims := []
  startIndexMap := [0]
  indexVectorDim := 1
  sliceSizes := ![1, 3, 8]
  wf := gather_S10000x3x8_S160000x1_S160000x3x8_12_0_n_n_0_1_138_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S160000x3x20_S160000x3x20_S160000x20x20_1_1_2_2_0_0 : DotDims S160000x3x20 S160000x3x20 S160000x20x20 where
  lhsContracting := [1]
  rhsContracting := [1]
  lhsNonContracting := [2]
  rhsNonContracting := [2]
  lhsBatch := [0]
  rhsBatch := [0]
  wf := dot_S160000x3x20_S160000x3x20_S160000x20x20_1_1_2_2_0_0_wf
def dot_S160000x672_S672x128_S160000x128_1_0_0_1_n_n : DotDims S160000x672 S672x128 S160000x128 where
  lhsContracting := [1]
  rhsContracting := [0]
  lhsNonContracting := [0]
  rhsNonContracting := [1]
  lhsBatch := []
  rhsBatch := []
  wf := dot_S160000x672_S672x128_S160000x128_1_0_0_1_n_n_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def dot_S160000x128_S128x288_S160000x288_1_0_0_1_n_n : DotDims S160000x128 S128x288 S160000x288 where
  lhsContracting := [1]
  rhsContracting := [0]
  lhsNonContracting := [0]
  rhsNonContracting := [1]
  lhsBatch := []
  rhsBatch := []
  wf := dot_S160000x128_S128x288_S160000x288_1_0_0_1_n_n_wf
def dot_S160000x3x20_S160000x20x8_S160000x3x8_2_1_1_2_0_0 : DotDims S160000x3x20 S160000x20x8 S160000x3x8 where
  lhsContracting := [2]
  rhsContracting := [1]
  lhsNonContracting := [1]
  rhsNonContracting := [2]
  lhsBatch := [0]
  rhsBatch := [0]
  wf := dot_S160000x3x20_S160000x20x8_S160000x3x8_2_1_1_2_0_0_wf
def scatter_S10000x3x8_S160000x1_S160000x3x8_12_0_0_1 : ScatterDims S10000x3x8 S160000x1 S160000x3x8 where
  updateWindowDims := [1, 2]
  insertedWindowDims := [0]
  scatterDimsToOperandDims := [0]
  indexVectorDim := 1
  wf := scatter_S10000x3x8_S160000x1_S160000x3x8_12_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x3x16_S10000x3x16_S10000x16x16_1_1_2_2_0_0 : DotDims S10000x3x16 S10000x3x16 S10000x16x16 where
  lhsContracting := [1]
  rhsContracting := [1]
  lhsNonContracting := [2]
  rhsNonContracting := [2]
  lhsBatch := [0]
  rhsBatch := [0]
  wf := dot_S10000x3x16_S10000x3x16_S10000x16x16_1_1_2_2_0_0_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x3x16_S10000x16x8_S10000x3x8_2_1_1_2_0_0 : DotDims S10000x3x16 S10000x16x8 S10000x3x8 where
  lhsContracting := [2]
  rhsContracting := [1]
  lhsNonContracting := [1]
  rhsNonContracting := [2]
  lhsBatch := [0]
  rhsBatch := [0]
  wf := dot_S10000x3x16_S10000x16x8_S10000x3x8_2_1_1_2_0_0_wf

class Facts : Prop extends Facts₀ where

variable [Facts]
-- ==== Proof.Spec.lean ====
/-
  What both programs compute, written once over the extended reals, one graph row at a time.

  An EDGE `e` with endpoints `src e`, `dst e` sees the three spatial rows of `X = [f(src) | f(dst) | edge_f(e)]`
  (width 20). Its rotation-invariant summary is the Gram matrix `Xᵀ X` (20 × 20, flattened row-major to 400
  numbers), divided by the larger of its Euclidean norm and a fixed guard. That vector, followed by `s(src)`,
  `s(dst)` and `edge_s(e)`, goes through three affine layers with `silu` after the first two, giving 288 numbers:
  the first 160, read as a 20 × 8 matrix `C`, are contracted back with `X` (`X C`, 3 × 8: the equivariant message),
  the last 128 are the scalar message. Messages are AVERAGED over the edges that leave a node (an empty node
  averages to zero: the divisor is the larger of the count and one).
  A NODE `n` repeats the construction with `T = [f(n) | mean message]` (width 16), the input
  `[unit Gram | s(n) | mean scalar message]` (512 numbers) and 256 outputs: a 16 × 8 matrix contracted with `T`, and
  128 scalars. Those two are the program's results.

  Two spellings of the edge function are given: the one whose first layer is ONE sum over the 672 inputs and whose
  last layer is ONE 288-column product, and the one whose first layer is four partial sums over the four pieces of
  the input (against the matching row ranges of the weight matrix) and whose last layer is computed apart for the
  first 160 and the last 128 columns. They are equal because a finite sum in the extended reals may be cut into
  consecutive stretches (addition there is associative and commutative; nothing is distributed or cancelled, so no
  finiteness is needed).
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx

/-! ## Scalars and rows -/

/-- The guard under the norm, as the binary32 word both programs carry (it is never evaluated). -/
abbrev guard : EReal := Ideal.ofBits .f32 0x2B8CBCCC#32
/-- The words of `0.0` and `1.0` that start a segment sum and count its members. -/
abbrev zeroW : EReal := Ideal.ofBits .f32 0x00000000#32
abbrev oneW : EReal := Ideal.ofBits .f32 0x3F800000#32

/-- `silu x = x · 1 / (1 + e^(-x))`. -/
def silu (x : EReal) : EReal := x * Ideal.logistic x

/-- Entry `(d, k)` of the Gram matrix of the three spatial rows of `X`. -/
def gram {n : ℕ} (X : Fin 3 → Fin n → EReal) (d k : Fin n) : EReal := ∑ i : Fin 3, X i d * X i k

/-- A vector divided by the larger of its Euclidean norm and the guard. -/
def unitize {n : ℕ} (g : Fin n → EReal) (p : Fin n) : EReal :=
  Ideal.div (g p) (max (Ideal.sqrt (∑ q : Fin n, g q * g q)) guard)

/-- An affine layer: `x W + b` at output `j`. -/
def lin {n k : ℕ} (x : Fin n → EReal) (W : Fin n → Fin k → EReal) (b : Fin k → EReal) (j : Fin k) : EReal :=
  (∑ q : Fin n, x q * W q j) + b j

/-! ## The edge function -/

/-- `[a | b | c]` along the feature axis: widths 8, 8, 4. -/
def cat3 (a b : Fin 3 → Fin 8 → EReal) (c : Fin 3 → Fin 4 → EReal) (i : Fin 3) (d : Fin 20) : EReal :=
  if h : d.val < 8 then a i ⟨d.val, h⟩
  else if h' : d.val < 16 then b i ⟨d.val - 8, by omega⟩ else c i ⟨d.val - 16, by omega⟩

/-- The 20 × 20 Gram matrix of `X`, flattened row-major. -/
def gramFlat20 (X : Fin 3 → Fin 20 → EReal) (p : Fin 400) : EReal :=
  gram X ⟨p.val / 20, by omega⟩ ⟨p.val % 20, by omega⟩

/-- `[u | ss | sd | es]`: widths 400, 128, 128, 16. -/
def edgeIn (u : Fin 400 → EReal) (ss sd : Fin 128 → EReal) (es : Fin 16 → EReal) (q : Fin 672) : EReal :=
  if h : q.val < 400 then u ⟨q.val, h⟩
  else if h1 : q.val < 528 then ss ⟨q.val - 400, by omega⟩
  else if h2 : q.val < 656 then sd ⟨q.val - 528, by omega⟩ else es ⟨q.val - 656, by omega⟩

section Edge
variable (fs fd : Fin 3 → Fin 8 → EReal) (ef : Fin 3 → Fin 4 → EReal) (ss sd : Fin 128 → EReal) (es : Fin 16 → EReal)
  (W1 : Fin 672 → Fin 128 → EReal) (b1 : Fin 128 → EReal) (W2 : Fin 128 → Fin 128 → EReal) (b2 : Fin 128 → EReal)
  (W3 : Fin 128 → Fin 288 → EReal) (b3 : Fin 288 → EReal)

/-- The unit Gram vector of an edge. -/
def edgeU : Fin 400 → EReal := unitize (gramFlat20 (cat3 fs fd ef))
/-- The first hidden layer, as one sum over all 672 inputs. -/
def edgeH1 (j : Fin 128) : EReal := silu (lin (edgeIn (edgeU fs fd ef) ss sd es) W1 b1 j)
def edgeH2 (j : Fin 128) : EReal := silu (lin (edgeH1 fs fd ef ss sd es W1 b1) W2 b2 j)
/-- The 288 outputs of the edge network. -/
def edgeC (j : Fin 288) : EReal := lin (edgeH2 fs fd ef ss sd es W1 b1 W2 b2) W3 b3 j
/-- The equivariant message: `X C` with `C` the first 160 outputs as a 20 × 8 matrix. -/
def edgeF (i : Fin 3) (k : Fin 8) : EReal :=
  ∑ d : Fin 20, cat3 fs fd ef i d * edgeC fs fd ef ss sd es W1 b1 W2 b2 W3 b3 ⟨8 * d.val + k.val, by omega⟩
/-- The scalar message: the last 128 outputs. -/
def edgeS (j : Fin 128) : EReal := edgeC fs fd ef ss sd es W1 b1 W2 b2 W3 b3 ⟨160 + j.val, by omega⟩
end Edge

/-! ## The edge function with the first layer in four partial sums and the last layer in two column blocks -/

section EdgeParts
variable (fs fd : Fin 3 → Fin 8 → EReal) (ef : Fin 3 → Fin 4 → EReal) (ss sd : Fin 128 → EReal) (es : Fin 16 → EReal)
  (Wa : Fin 400 → Fin 128 → EReal) (Wb Wc : Fin 128 → Fin 128 → EReal) (Wd : Fin 16 → Fin 128 → EReal) (b1 : Fin 128 → EReal)
  (W2 : Fin 128 → Fin 128 → EReal) (b2 : Fin 128 → EReal)
  (W3a : Fin 128 → Fin 160 → EReal) (W3b : Fin 128 → Fin 128 → EReal) (b3a : Fin 160 → EReal) (b3b : Fin 128 → EReal)

/-- The first hidden layer as four partial products added left to right, then the bias. -/
def partsH1 (j : Fin 128) : EReal :=
  silu (((((∑ q : Fin 400, edgeU fs fd ef q * Wa q j) + ∑ q : Fin 128, ss q * Wb q j)
    + ∑ q : Fin 128, sd q * Wc q j) + ∑ q : Fin 16, es q * Wd q j) + b1 j)
def partsH2 (j : Fin 128) : EReal := silu (lin (partsH1 fs fd ef ss sd es Wa Wb Wc Wd b1) W2 b2 j)
/-- The packed message row: 24 numbers of `X C` (row-major 3 × 8), then the 128 scalar outputs. -/
def partsMsg (j : Fin 152) : EReal :=
  if h : j.val < 24 then
    ∑ d : Fin 20, cat3 fs fd ef ⟨j.val / 8, by omega⟩ d
      * lin (partsH2 fs fd ef ss sd es Wa Wb Wc Wd b1 W2 b2) W3a b3a ⟨8 * d.val + j.val % 8, by omega⟩
  else lin (partsH2 fs fd ef ss sd es Wa Wb Wc Wd b1 W2 b2) W3b b3b ⟨j.val - 24, by omega⟩
end EdgeParts

/-! ## The node function -/

/-- `[a | b]` along the feature axis: widths 8, 8. -/
def cat2 (a b : Fin 3 → Fin 8 → EReal) (i : Fin 3) (d : Fin 16) : EReal :=
  if h : d.val < 8 then a i ⟨d.val, h⟩ else b i ⟨d.val - 8, by omega⟩

/-- The 16 × 16 Gram matrix of `T`, flattened row-major. -/
def gramFlat16 (T : Fin 3 → Fin 16 → EReal) (p : Fin 256) : EReal :=
  gram T ⟨p.val / 16, by omega⟩ ⟨p.val % 16, by omega⟩

/-- `[u | s | sc]`: widths 256, 128, 128. -/
def nodeIn (u : Fin 256 → EReal) (s sc : Fin 128 → EReal) (q : Fin 512) : EReal :=
  if h : q.val < 256 then u ⟨q.val, h⟩
  else if h1 : q.val < 384 then s ⟨q.val - 256, by omega⟩ else sc ⟨q.val - 384, by omega⟩

section Node
variable (fn fc : Fin 3 → Fin 8 → EReal) (s sc : Fin 128 → EReal)
  (V1 : Fin 512 → Fin 128 → EReal) (c1 : Fin 128 → EReal) (V2 : Fin 128 → Fin 128 → EReal) (c2 : Fin 128 → EReal)
  (V3 : Fin 128 → Fin 256 → EReal) (c3 : Fin 256 → EReal)

def nodeU : Fin 256 → EReal := unitize (gramFlat16 (cat2 fn fc))
def nodeH1 (j : Fin 128) : EReal := silu (lin (nodeIn (nodeU fn fc) s sc) V1 c1 j)
def nodeH2 (j : Fin 128) : EReal := silu (lin (nodeH1 fn fc s sc V1 c1) V2 c2 j)
def nodeC (j : Fin 256) : EReal := lin (nodeH2 fn fc s sc V1 c1 V2 c2) V3 c3 j
/-- The first result at a node: `T C` with `C` the first 128 outputs as a 16 × 8 matrix. -/
def nodeF (i : Fin 3) (k : Fin 8) : EReal :=
  ∑ d : Fin 16, cat2 fn fc i d * nodeC fn fc s sc V1 c1 V2 c2 V3 c3 ⟨8 * d.val + k.val, by omega⟩
/-- The second result at a node: the last 128 outputs. -/
def nodeS (j : Fin 128) : EReal := nodeC fn fc s sc V1 c1 V2 c2 V3 c3 ⟨128 + j.val, by omega⟩
end Node

/-! ## Averages over the edges that leave a node -/

/-- The sum, started from the zero word, of `val e` over the edges whose source is `n`. -/
def segSum {E N : ℕ} (src : Fin E → Fin N) (val : Fin E → EReal) (n : Fin N) : EReal :=
  zeroW + ∑ e : Fin E, if src e = n then val e else 0
/-- The number of edges whose source is `n`, as a sum of one-words. -/
def segCnt {E N : ℕ} (src : Fin E → Fin N) (n : Fin N) : EReal := segSum src (fun _ => oneW) n
/-- The average: the sum over the larger of the count and one. -/
def segMean {E N : ℕ} (src : Fin E → Fin N) (val : Fin E → EReal) (n : Fin N) : EReal :=
  Ideal.div (segSum src val n) (max (segCnt src n) oneW)

/-! ## The whole program over its argument arrays -/

section Whole
variable (A0 : (⟨3, ![10000, 3, 8]⟩ : Shape).Idx → EReal) (A1 : (⟨2, ![10000, 128]⟩ : Shape).Idx → EReal)
  (src dst : Fin 160000 → Fin 10000)
  (A3 : (⟨3, ![160000, 3, 4]⟩ : Shape).Idx → EReal) (A4 : (⟨2, ![160000, 16]⟩ : Shape).Idx → EReal)
  (A5 : (⟨2, ![672, 128]⟩ : Shape).Idx → EReal) (A6 : (⟨1, ![128]⟩ : Shape).Idx → EReal)
  (A7 : (⟨2, ![128, 128]⟩ : Shape).Idx → EReal) (A8 : (⟨1, ![128]⟩ : Shape).Idx → EReal)
  (A9 : (⟨2, ![128, 288]⟩ : Shape).Idx → EReal) (A10 : (⟨1, ![288]⟩ : Shape).Idx → EReal)
  (A11 : (⟨2, ![512, 128]⟩ : Shape).Idx → EReal) (A12 : (⟨1, ![128]⟩ : Shape).Idx → EReal)
  (A13 : (⟨2, ![128, 128]⟩ : Shape).Idx → EReal) (A14 : (⟨1, ![128]⟩ : Shape).Idx → EReal)
  (A15 : (⟨2, ![128, 256]⟩ : Shape).Idx → EReal) (A16 : (⟨1, ![256]⟩ : Shape).Idx → EReal)

/-- Node `n`'s three spatial rows, and its scalar features. -/
def fRow (n : Fin 10000) (i : Fin 3) (k : Fin 8) : EReal := A0 (ix3 n i k)
def sRow (n : Fin 10000) (j : Fin 128) : EReal := A1 (ix2 n j)

/-- The equivariant message of edge `e`. -/
def msgF (e : Fin 160000) (i : Fin 3) (k : Fin 8) : EReal :=
  edgeF (fRow A0 (src e)) (fRow A0 (dst e)) (fun i k => A3 (ix3 e i k)) (sRow A1 (src e)) (sRow A1 (dst e))
    (fun j => A4 (ix2 e j)) (fun q j => A5 (ix2 q j)) (fun j => A6 (ix1 j)) (fun q j => A7 (ix2 q j)) (fun j => A8 (ix1 j))
    (fun q j => A9 (ix2 q j)) (fun j => A10 (ix1 j)) i k
/-- The scalar message of edge `e`. -/
def msgS (e : Fin 160000) (j : Fin 128) : EReal :=
  edgeS (fRow A0 (src e)) (fRow A0 (dst e)) (fun i k => A3 (ix3 e i k)) (sRow A1 (src e)) (sRow A1 (dst e))
    (fun j => A4 (ix2 e j)) (fun q j => A5 (ix2 q j)) (fun j => A6 (ix1 j)) (fun q j => A7 (ix2 q j)) (fun j => A8 (ix1 j))
    (fun q j => A9 (ix2 q j)) (fun j => A10 (ix1 j)) j

/-- The averaged messages at node `n`. -/
def aggF (n : Fin 10000) (i : Fin 3) (k : Fin 8) : EReal :=
  segMean src (fun e => msgF A0 A1 src dst A3 A4 A5 A6 A7 A8 A9 A10 e i k) n
def aggS (n : Fin 10000) (j : Fin 128) : EReal :=
  segMean src (fun e => msgS A0 A1 src dst A3 A4 A5 A6 A7 A8 A9 A10 e j) n

/-- THE FIRST RESULT, `[10000, 3, 8]`. -/
def outF : (⟨3, ![10000, 3, 8]⟩ : Shape).Idx → EReal := fun y =>
  nodeF (fRow A0 (y 0)) (aggF A0 A1 src dst A3 A4 A5 A6 A7 A8 A9 A10 (y 0)) (sRow A1 (y 0))
    (aggS A0 A1 src dst A3 A4 A5 A6 A7 A8 A9 A10 (y 0))
    (fun q j => A11 (ix2 q j)) (fun j => A12 (ix1 j)) (fun q j => A13 (ix2 q j)) (fun j => A14 (ix1 j))
    (fun q j => A15 (ix2 q j)) (fun j => A16 (ix1 j)) (y 1) (y 2)
/-- THE SECOND RESULT, `[10000, 128]`. -/
def outS : (⟨2, ![10000, 128]⟩ : Shape).Idx → EReal := fun y =>
  nodeS (fRow A0 (y 0)) (aggF A0 A1 src dst A3 A4 A5 A6 A7 A8 A9 A10 (y 0)) (sRow A1 (y 0))
    (aggS A0 A1 src dst A3 A4 A5 A6 A7 A8 A9 A10 (y 0))
    (fun q j => A11 (ix2 q j)) (fun j => A12 (ix1 j)) (fun q j => A13 (ix2 q j)) (fun j => A14 (ix1 j))
    (fun q j => A15 (ix2 q j)) (fun j => A16 (ix1 j)) (y 1)
end Whole

end Cert.Spec

end
-- ==== Proof.KArgs.lean ====
/-
  Names shared by the modules that read the kernel's program: a core's argument arrays as launched, the hypothesis
  that the two rows of the index argument name nodes (row 0 the source of each edge, row 1 its target), and the
  specification's functions (Spec.lean) taken at those arrays.
-/
import proofs.«408349_j8770323218950_3_alg».proof.Proof.KRun
import proofs.«408349_j8770323218950_3_alg».proof.Proof.Spec

noncomputable section

namespace Cert.KArgs

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD) (src dst : Fin 160000 → Fin 10000)

/-- Core `c`'s buffer `k` as launched. -/
abbrev A (k : Ref sig .tc) : Buf (Elt Ideal) ((c.tc : Thread nD τ).loc k) := m ((c.tc : Thread nD τ).loc k)

/-- Every word of row 0 of the index argument, read signed, is the node `src e`. -/
abbrev SrcOk : Prop := ∀ e : Fin 160000, ((A m c main_arg2) (ix2 (0 : Fin 2) e)).toInt = ((src e).val : Int)
/-- Every word of row 1 of the index argument, read signed, is the node `dst e`. -/
abbrev DstOk : Prop := ∀ e : Fin 160000, ((A m c main_arg2) (ix2 (1 : Fin 2) e)).toInt = ((dst e).val : Int)

/-- The equivariant and the scalar message of an edge, at this memory. -/
abbrev msgF := Cert.Spec.msgF (A m c main_arg0) (A m c main_arg1) src dst (A m c main_arg3) (A m c main_arg4) (A m c main_arg5)
  (A m c main_arg6) (A m c main_arg7) (A m c main_arg8) (A m c main_arg9) (A m c main_arg10)
abbrev msgS := Cert.Spec.msgS (A m c main_arg0) (A m c main_arg1) src dst (A m c main_arg3) (A m c main_arg4) (A m c main_arg5)
  (A m c main_arg6) (A m c main_arg7) (A m c main_arg8) (A m c main_arg9) (A m c main_arg10)
/-- The averaged messages at a node, at this memory. -/
abbrev aggF := Cert.Spec.aggF (A m c main_arg0) (A m c main_arg1) src dst (A m c main_arg3) (A m c main_arg4) (A m c main_arg5)
  (A m c main_arg6) (A m c main_arg7) (A m c main_arg8) (A m c main_arg9) (A m c main_arg10)
abbrev aggS := Cert.Spec.aggS (A m c main_arg0) (A m c main_arg1) src dst (A m c main_arg3) (A m c main_arg4) (A m c main_arg5)
  (A m c main_arg6) (A m c main_arg7) (A m c main_arg8) (A m c main_arg9) (A m c main_arg10)
/-- The two results, at this memory. -/
abbrev outF := Cert.Spec.outF (A m c main_arg0) (A m c main_arg1) src dst (A m c main_arg3) (A m c main_arg4) (A m c main_arg5)
  (A m c main_arg6) (A m c main_arg7) (A m c main_arg8) (A m c main_arg9) (A m c main_arg10) (A m c main_arg11)
  (A m c main_arg12) (A m c main_arg13) (A m c main_arg14) (A m c main_arg15) (A m c main_arg16)
abbrev outS := Cert.Spec.outS (A m c main_arg0) (A m c main_arg1) src dst (A m c main_arg3) (A m c main_arg4) (A m c main_arg5)
  (A m c main_arg6) (A m c main_arg7) (A m c main_arg8) (A m c main_arg9) (A m c main_arg10) (A m c main_arg11)
  (A m c main_arg12) (A m c main_arg13) (A m c main_arg14) (A m c main_arg15) (A m c main_arg16)

end Cert.KArgs

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.KHost0.lean ====
/-
  The arrays the edge kernel's windows stage, as the first region finds them, read at an index from the launch
  memory.

  The host program before the region: the two rows of the index argument are clamped into [0, 9999] (the identity
  on words that name nodes); the node table is `[f flattened to 24 columns | s]` (152 columns); each endpoint's rows are
  taken out of it (negative indices wrapped, out-of-range rows filled: both the identity on words that name nodes;
  the gather's own clamp likewise) and cut back into the 24 spatial and 128 scalar columns; the edge features are
  flattened to 12 columns; the weight matrices are cut into row and column ranges and their float format changed
  (the identity at the ideal instance).
-/
import proofs.«408349_j8770323218950_3_alg».proof.Proof.KArgs
import proofs.«408349_j8770323218950_3_alg».proof.Proof.LibIndex
import Idealize.ShloMosaic.Lib.ValueLayout
import Idealize.ShloMosaic.PureOps.Reduce

noncomputable section

namespace Cert.KHost0

open Cert.KernelIdeal Cert.KernelIdeal.Gen Idealize.ShloMosaic Idealize.ShloMosaic.TcCoe Idealize.SL.Sem
open Idealize.ShloMosaic.ValueIdx

open Cert.KArgs

variable (m : (ℓ : Loc nD τ sig) → Buf (Elt Ideal) ℓ) (ρ : Dev nD → PrngReg) (c : Dev nD)
  (src dst : Fin 160000 → Fin 10000)

/-! ## Words that name nodes -/
/-- On a word whose signed value lies in [0, 9999] the clamp into that range is the identity. -/
theorem clamp_word (w : BitVec 32) (h0 : 0 ≤ w.toInt) (h1 : w.toInt ≤ 9999) :
    IntOp.minsi 9999#32 (IntOp.maxsi 0#32 w) = w := by
  have hz : (0#32 : BitVec 32).toInt = 0 := by decide
  have hn : (9999#32 : BitVec 32).toInt = 9999 := by decide
  have hmax : IntOp.maxsi 0#32 w = w := by
    unfold IntOp.maxsi
    rw [if_neg]
    simp only [BitVec.slt, hz, decide_eq_true_eq]; omega
  rw [hmax]
  unfold IntOp.minsi
  rw [if_neg]
  simp only [BitVec.slt, hn, decide_eq_true_eq]; omega

/-- A word whose signed value is not negative is not below zero … -/
theorem slt_zero_word (w : BitVec 32) (h0 : 0 ≤ w.toInt) : IntOp.cmpi .slt w 0#32 = 0#1 := by
  have hz : (0#32 : BitVec 32).toInt = 0 := by decide
  unfold IntOp.cmpi
  have : w.slt 0#32 = false := by simp only [BitVec.slt, hz, decide_eq_false_iff_not]; omega
  rw [this]; rfl

/-- … is at least zero … -/
theorem sge_zero_word (w : BitVec 32) (h0 : 0 ≤ w.toInt) : IntOp.cmpi .sge w 0#32 = 1#1 := by
  have hz : (0#32 : BitVec 32).toInt = 0 := by decide
  unfold IntOp.cmpi
  have : (0#32 : BitVec 32).sle w = true := by simp only [BitVec.sle, hz, decide_eq_true_eq]; omega
  rw [this]; rfl

/-- … and one whose signed value is at most 9999 is at most the word 9999. -/
theorem sle_max_word (w : BitVec 32) (h1 : w.toInt ≤ 9999) : IntOp.cmpi .sle w 9999#32 = 1#1 := by
  have hn : (9999#32 : BitVec 32).toInt = 9999 := by decide
  unfold IntOp.cmpi
  have : w.sle 9999#32 = true := by simp only [BitVec.sle, hn, decide_eq_true_eq]; omega
  rw [this]; rfl

/-! ## An and-reduction of ones -/

/-- A left fold by and, from one, over ones is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduction by and, from one, of an array of ones is one everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1)
    (hinit : init (Shape.Idx.first hu) = 1#1) : Host.reduce IntOp.andi x init h hu j = 1#1 := by
  rw [Host.reduce_eq_foldl, hinit]
  exact foldl_andi_one x _ (fun n _ => hx n)

/-! ## The take of table rows, as one function of the table and the index vector -/

/-- A negative index wrapped by the table's height. -/
def wrapIdx (x : IVec S160000 32) : IVec S160000 32 :=
  select (cmpi .slt x (broadcastInDim S160000 ![] bcast_S_S160000 (constantI S_ 32 0#32)))
    (addi x (broadcastInDim S160000 ![] bcast_S_S160000 (constantI S_ 32 10000#32))) x

/-- The wrapped indices as a column. -/
def colIdx (x : IVec S160000 32) : IVec S160000x1 32 :=
  broadcastInDim S160000x1 ![0] bcast_S160000_S160000x1_0 (wrapIdx x)

/-- The mask of the rows whose index is a row number of the table. -/
def rowOk (x : IVec S160000 32) : IVec S160000 1 :=
  Host.reduce IntOp.andi
    (andi (cmpi .sge (colIdx x) (broadcastInDim S160000x1 ![] bcast_S_S160000x1 (constantI S_ 32 0#32)))
      (cmpi .sle (colIdx x) (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

/-- The rows of the table the indices name; a row whose index names none is filled with the fill word. -/
def takeFn (table : FVec Ideal S10000x152 .f32) (x : IVec S160000 32) : FVec Ideal S160000x152 .f32 :=
  select (broadcastInDim S160000x152 ![0] bcast_S160000_S160000x152_0 (rowOk x))
    (Host.gather gather_S10000x152_S160000x1_S160000x152_1_0_n_n_0_1_1152 table (colIdx x))
    (broadcastInDim S160000x152 ![] bcast_S_S160000x152 (constant (F := Ideal) S_ .f32 0x7FC00000#32))

section Take
variable (x : IVec S160000 32) (node : Fin 160000 → Fin 10000)
  (hx : ∀ e : Fin 160000, (x (ix1 e)).toInt = ((node e).val : Int))
include hx

theorem wrapIdx_apply (e : Fin 160000) : wrapIdx x (ix1 e) = x (ix1 e) := by
  have h0 : 0 ≤ (x (ix1 e)).toInt := by rw [hx e]; omega
  show Scalar.select (IntOp.cmpi .slt (x (ix1 e)) 0#32) _ _ = _
  rw [slt_zero_word _ h0, select_zero]

theorem colIdx_apply (e : Fin 160000) (z : Fin 1) : colIdx x (ix2 e z) = x (ix1 e) := by
  unfold colIdx
  refine (broadcastInDim_apply _ _ _ _ (ix1 e) (fun a => by match a with | ⟨0, _⟩ => rfl)).trans ?_
  exact wrapIdx_apply x node hx e

theorem rowOk_apply (e : Fin 160000) : rowOk x (ix1 e) = 1#1 := by
  unfold rowOk
  refine reduce_andi_one _ _ _ _ _ (fun i => ?_) rfl
  obtain ⟨k, z, rfl⟩ : ∃ (k : Fin 160000) (z : Fin 1), i = ix2 k z := ⟨i 0, i 1, eq_ix2 i⟩
  have h0 : 0 ≤ (x (ix1 k)).toInt := by rw [hx k]; omega
  have h1 : (x (ix1 k)).toInt ≤ 9999 := by rw [hx k]; have := (node k).isLt; omega
  show IntOp.andi (IntOp.cmpi .sge (colIdx x (ix2 k z)) 0#32) (IntOp.cmpi .sle (colIdx x (ix2 k z)) 9999#32) = 1#1
  rw [colIdx_apply x node hx k z, sge_zero_word _ h0, sle_max_word _ h1]
  rfl

/-- THE TAKE READ AT `(e, q)`: column `q` of the table's row `node e`. -/
theorem takeFn_apply (table : FVec Ideal S10000x152 .f32) (e : Fin 160000) (q : Fin 152) :
    takeFn table x (ix2 e q) = table (ix2 (node e) q) := by
  unfold takeFn
  rw [select_apply]
  have hm : broadcastInDim S160000x152 ![0] bcast_S160000_S160000x152_0 (rowOk x) (ix2 e q) = 1#1 :=
    (broadcastInDim_apply _ _ _ _ (ix1 e) (fun a => by match a with | ⟨0, _⟩ => rfl)).trans (rowOk_apply x node hx e)
  rw [hm, select_one]
  refine (Cert.LibIndex.gather_row_apply_of (hN := by decide) _ rfl rfl rfl rfl rfl rfl rfl table (colIdx x) e q).trans ?_
  have hc : colIdx x (ix2 e (0 : Fin 1)) = x (ix1 e) := colIdx_apply x node hx e 0
  have hn := (node e).isLt
  refine congrArg (fun r : Fin 10000 => table (ix2 r q)) (Fin.ext ?_)
  show min (colIdx x (ix2 e (0 : Fin 1))).toInt.toNat (10000 - 1) = (node e).val
  rw [hc, hx e]; omega
end Take

/-! ## The node table and the rows of the index argument -/

/-- The node table: the spatial rows flattened to 24 columns, then the 128 scalars. -/
def tableFn (a0 : FVec Ideal S10000x3x8 .f32) (a1 : FVec Ideal S10000x128 .f32) : FVec Ideal S10000x152 .f32 :=
  concatenate S10000x152 1 [⟨S10000x24, shapeCast S10000x24 a0 shapeCasts_S10000x3x8_S10000x24⟩, ⟨S10000x128, a1⟩]
    concatenates_S10000x24_S10000x128_S10000x152_d1

/-- Column `8 i + k` of the table is feature `k` of spatial row `i`. -/
theorem tableFn_left (a0 : FVec Ideal S10000x3x8 .f32) (a1 : FVec Ideal S10000x128 .f32) (n : Fin 10000) (i : Fin 3)
    (k : Fin 8) (hlt : 8 * i.val + k.val < 152) : tableFn a0 a1 (ix2 n ⟨8 * i.val + k.val, hlt⟩) = a0 (ix3 n i k) := by
  unfold tableFn
  refine (concatenate_pair_apply_left (t := S10000x152) (s₁ := S10000x24) (s₂ := S10000x128) (1 : Fin 2) _ a1
    concatenates_S10000x24_S10000x128_S10000x152_d1 (ix2 n ⟨8 * i.val + k.val, hlt⟩) rfl
    (ix2 n (⟨8 * i.val + k.val, by omega⟩ : Fin 24))
    (fun b => by match b with | ⟨0, _⟩ => rfl | ⟨1, _⟩ => rfl)).trans ?_
  refine shapeCast_apply _ _ _ (ix3 n i k) ?_
  rw [Shape.rowMajor_val_three, Shape.rowMajor_val_two]
  show (n.val * 3 + i.val) * 8 + k.val = n.val * 24 + (8 * i.val + k.val)
  omega

/-- Column `24 + q` of the table is scalar `q`. -/
theorem tableFn_right (a0 : FVec Ideal S10000x3x8 .f32) (a1 : FVec Ideal S10000x128 .f32) (n : Fin 10000) (q : Fin 128)
    (hlt : 24 + q.val < 152) : tableFn a0 a1 (ix2 n ⟨24 + q.val, hlt⟩) = a1 (ix2 n q) := by
  unfold tableFn
  refine concatenate_pair_apply_right (t := S10000x152) (s₁ := S10000x24) (s₂ := S10000x128) (1 : Fin 2) _ a1
    concatenates_S10000x24_S10000x128_S10000x152_d1 (ix2 n ⟨24 + q.val, hlt⟩) rfl rfl (ix2 n q)
    (fun b => by
      match b with
      | ⟨0, _⟩ => exact fun _ => rfl
      | ⟨1, _⟩ => exact fun h => absurd rfl h) ?_
  show q.val + 24 = 24 + q.val
  omega

/-- Row 0 and row 1 of the index argument, as vectors. -/
def rowFn0 (a2 : IVec S2x160000 32) : IVec S160000 32 :=
  shapeCast S160000 (extractStridedSlice S1x160000 ![0, 0] a2 slices_S2x160000_S1x160000_0_0) shapeCasts_S1x160000_S160000
def rowFn1 (a2 : IVec S2x160000 32) : IVec S160000 32 :=
  shapeCast S160000 (extractStridedSlice S1x160000 ![1, 0] a2 slices_S2x160000_S1x160000_1_0) shapeCasts_S1x160000_S160000

theorem rowFn0_apply (a2 : IVec S2x160000 32) (e : Fin 160000) : rowFn0 a2 (ix1 e) = a2 (ix2 (0 : Fin 2) e) := by
  unfold rowFn0
  refine (shapeCast_apply _ _ _ (ix2 (0 : Fin 1) e) ?_).trans ?_
  · rw [Shape.rowMajor_val_two, Shape.rowMajor_val_one]
    show 0 * 160000 + e.val = e.val
    omega
  · exact slice2_axis0_apply 0 _ _ (0 : Fin 1) e (0 : Fin 2) rfl

theorem rowFn1_apply (a2 : IVec S2x160000 32) (e : Fin 160000) : rowFn1 a2 (ix1 e) = a2 (ix2 (1 : Fin 2) e) := by
  unfold rowFn1
  refine (shapeCast_apply _ _ _ (ix2 (0 : Fin 1) e) ?_).trans ?_
  · rw [Shape.rowMajor_val_two, Shape.rowMajor_val_one]
    show 0 * 160000 + e.val = e.val
    omega
  · exact slice2_axis0_apply 1 _ _ (0 : Fin 1) e (1 : Fin 2) rfl

/-- The clamp of an index vector into [0, 9999]. -/
def clampFn (x : IVec S160000 32) : IVec S160000 32 :=
  minsi (broadcastInDim S160000 ![] bcast_S_S160000 (constantI S_ 32 9999#32))
    (maxsi (broadcastInDim S160000 ![] bcast_S_S160000 (constantI S_ 32 0#32)) x)

/-- On words that name nodes the clamp is the identity. -/
theorem clampFn_apply (x : IVec S160000 32) (node : Fin 160000 → Fin 10000)
    (hx : ∀ e : Fin 160000, (x (ix1 e)).toInt = ((node e).val : Int)) (e : Fin 160000) :
    clampFn x (ix1 e) = x (ix1 e) := by
  have h0 : 0 ≤ (x (ix1 e)).toInt := by rw [hx e]; omega
  have h1 : (x (ix1 e)).toInt ≤ 9999 := by rw [hx e]; have := (node e).isLt; omega
  exact clamp_word _ h0 h1

/-! ## The stretches of host operations before the first region, each read at the buffers it writes and at the
    buffers it passes on, over any contents before it -/

section Stretch
variable (V : Valuation τ sig (Elt Ideal))

/-- The first two stretches leave in `main_v2` the clamp of row 0 of the index argument. -/
theorem s01_v2 : StableHlo.after hostOps0_1 (StableHlo.after hostOps0 V) (Proc.devRef .tc main_v2)
    = clampFn (rowFn0 (V (Proc.devRef .tc main_arg2))) := by
  after_results; rfl
theorem s01_arg2 : StableHlo.after hostOps0_1 (StableHlo.after hostOps0 V) (Proc.devRef .tc main_arg2)
    = V (Proc.devRef .tc main_arg2) := by
  after_results
/-- The next two leave in `main_v5` the clamp of row 1. -/
theorem s23_v5 : StableHlo.after hostOps0_3 (StableHlo.after hostOps0_2 V) (Proc.devRef .tc main_v5)
    = clampFn (rowFn1 (V (Proc.devRef .tc main_arg2))) := by
  after_results; rfl
theorem s23_v2 : StableHlo.after hostOps0_3 (StableHlo.after hostOps0_2 V) (Proc.devRef .tc main_v2)
    = V (Proc.devRef .tc main_v2) := by
  after_results
theorem s0123_arg0 : StableHlo.after hostOps0_3 (StableHlo.after hostOps0_2 (StableHlo.after hostOps0_1
    (StableHlo.after hostOps0 V))) (Proc.devRef .tc main_arg0) = V (Proc.devRef .tc main_arg0) := by
  after_results
theorem s0123_arg1 : StableHlo.after hostOps0_3 (StableHlo.after hostOps0_2 (StableHlo.after hostOps0_1
    (StableHlo.after hostOps0 V))) (Proc.devRef .tc main_arg1) = V (Proc.devRef .tc main_arg1) := by
  after_results
/-- The fifth builds the node table. -/
theorem s4_v8 : StableHlo.after hostOps0_4 V (Proc.devRef .tc main_v8)
    = tableFn (V (Proc.devRef .tc main_arg0)) (V (Proc.devRef .tc main_arg1)) := by
  after_results; rfl
theorem s4_v2 : StableHlo.after hostOps0_4 V (Proc.devRef .tc main_v2) = V (Proc.devRef .tc main_v2) := by
  after_results
theorem s4_v5 : StableHlo.after hostOps0_4 V (Proc.devRef .tc main_v5) = V (Proc.devRef .tc main_v5) := by
  after_results
section
/- The two spellings of the take differ only by transports along the buffers' types: the reduction, the gather and
   the pointwise operations are compared as they stand. -/
attribute [local irreducible] Host.reduce Host.gather select cmpi addi andi broadcastInDim constantI constant
/-- The sixth takes the source rows out of the table. -/
theorem s5_v9 : StableHlo.after hostOps0_5 V (Proc.devRef .tc main_v9)
    = takeFn (V (Proc.devRef .tc main_v8)) (V (Proc.devRef .tc main_v2)) := by
  after_results_simp; rfl
/-- The seventh takes the target rows. -/
theorem s6_v10 : StableHlo.after hostOps0_6 V (Proc.devRef .tc main_v10)
    = takeFn (V (Proc.devRef .tc main_v8)) (V (Proc.devRef .tc main_v5)) := by
  after_results_simp; rfl
end
theorem s5_v8 : StableHlo.after hostOps0_5 V (Proc.devRef .tc main_v8) = V (Proc.devRef .tc main_v8) := by
  after_results_simp
theorem s5_v5 : StableHlo.after hostOps0_5 V (Proc.devRef .tc main_v5) = V (Proc.devRef .tc main_v5) := by
  after_results_simp
theorem s6_v9 : StableHlo.after hostOps0_6 V (Proc.devRef .tc main_v9) = V (Proc.devRef .tc main_v9) := by
  after_results_simp
/-- The eighth cuts the taken rows back into the spatial and the scalar columns. -/
theorem s7_v11 : StableHlo.after hostOps0_7 V (Proc.devRef .tc main_v11)
    = extractStridedSlice S160000x24 ![0, 0] (V (Proc.devRef .tc main_v9)) slices_S160000x152_S160000x24_0_0 := by
  after_results
theorem s7_v12 : StableHlo.after hostOps0_7 V (Proc.devRef .tc main_v12)
    = extractStridedSlice S160000x128 ![0, 24] (V (Proc.devRef .tc main_v9)) slices_S160000x152_S160000x128_0_24 := by
  after_results
theorem s7_v13 : StableHlo.after hostOps0_7 V (Proc.devRef .tc main_v13)
    = extractStridedSlice S160000x24 ![0, 0] (V (Proc.devRef .tc main_v10)) slices_S160000x152_S160000x24_0_0 := by
  after_results
theorem s7_v14 : StableHlo.after hostOps0_7 V (Proc.devRef .tc main_v14)
    = extractStridedSlice S160000x128 ![0, 24] (V (Proc.devRef .tc main_v10)) slices_S160000x152_S160000x128_0_24 := by
  after_results
/-- The clamped source indices pass through the last six stretches. -/
theorem s234567_v2 : StableHlo.after hostOps0_7 (StableHlo.after hostOps0_6 (StableHlo.after hostOps0_5
    (StableHlo.after hostOps0_4 (StableHlo.after hostOps0_3 (StableHlo.after hostOps0_2 V)))))
    (Proc.devRef .tc main_v2) = V (Proc.devRef .tc main_v2) := by
  after_results_simp
end Stretch

/-! ## The fold at the buffers on the way to the windows -/

/-- The rows the host program takes for the source and for the target endpoint of every edge. -/
abbrev srcRows : FVec Ideal S160000x152 .f32 :=
  takeFn (tableFn (A m c main_arg0) (A m c main_arg1)) (clampFn (rowFn0 (A m c main_arg2)))
abbrev dstRows : FVec Ideal S160000x152 .f32 :=
  takeFn (tableFn (A m c main_arg0) (A m c main_arg1)) (clampFn (rowFn1 (A m c main_arg2)))

theorem W2_v2 : W2 (F := Ideal) m ρ c (Proc.devRef .tc main_v2) = clampFn (rowFn0 (A m c main_arg2)) :=
  s01_v2 (W0 m ρ c)
theorem W4_v2 : W4 (F := Ideal) m ρ c (Proc.devRef .tc main_v2) = clampFn (rowFn0 (A m c main_arg2)) :=
  (s23_v2 (W2 m ρ c)).trans (W2_v2 m ρ c)
theorem W4_v5 : W4 (F := Ideal) m ρ c (Proc.devRef .tc main_v5) = clampFn (rowFn1 (A m c main_arg2)) :=
  (s23_v5 (W2 m ρ c)).trans (congrArg (fun z => clampFn (rowFn1 z)) (s01_arg2 (W0 m ρ c)))
theorem W5_v8 : W5 (F := Ideal) m ρ c (Proc.devRef .tc main_v8) = tableFn (A m c main_arg0) (A m c main_arg1) :=
  (s4_v8 (W4 m ρ c)).trans (congrArg₂ tableFn (s0123_arg0 (W0 m ρ c)) (s0123_arg1 (W0 m ρ c)))
theorem W5_v2 : W5 (F := Ideal) m ρ c (Proc.devRef .tc main_v2) = clampFn (rowFn0 (A m c main_arg2)) :=
  (s4_v2 (W4 m ρ c)).trans (W4_v2 m ρ c)
theorem W5_v5 : W5 (F := Ideal) m ρ c (Proc.devRef .tc main_v5) = clampFn (rowFn1 (A m c main_arg2)) :=
  (s4_v5 (W4 m ρ c)).trans (W4_v5 m ρ c)
theorem W6_v9 : W6 (F := Ideal) m ρ c (Proc.devRef .tc main_v9) = srcRows m c :=
  (s5_v9 (W5 m ρ c)).trans (congrArg₂ takeFn (W5_v8 m ρ c) (W5_v2 m ρ c))
theorem W6_v8 : W6 (F := Ideal) m ρ c (Proc.devRef .tc main_v8) = tableFn (A m c main_arg0) (A m c main_arg1) :=
  (s5_v8 (W5 m ρ c)).trans (W5_v8 m ρ c)
theorem W6_v5 : W6 (F := Ideal) m ρ c (Proc.devRef .tc main_v5) = clampFn (rowFn1 (A m c main_arg2)) :=
  (s5_v5 (W5 m ρ c)).trans (W5_v5 m ρ c)
theorem W7_v9 : W7 (F := Ideal) m ρ c (Proc.devRef .tc main_v9) = srcRows m c :=
  (s6_v9 (W6 m ρ c)).trans (W6_v9 m ρ c)
theorem W7_v10 : W7 (F := Ideal) m ρ c (Proc.devRef .tc main_v10) = dstRows m c :=
  (s6_v10 (W6 m ρ c)).trans (congrArg₂ takeFn (W6_v8 m ρ c) (W6_v5 m ρ c))
theorem W8_v11 : W8 (F := Ideal) m ρ c (Proc.devRef .tc main_v11)
    = extractStridedSlice S160000x24 ![0, 0] (srcRows m c) slices_S160000x152_S160000x24_0_0 := by
  show StableHlo.after hostOps0_7 (W7 m ρ c) _ = _
  rw [s7_v11, W7_v9]
theorem W8_v12 : W8 (F := Ideal) m ρ c (Proc.devRef .tc main_v12)
    = extractStridedSlice S160000x128 ![0, 24] (srcRows m c) slices_S160000x152_S160000x128_0_24 := by
  show StableHlo.after hostOps0_7 (W7 m ρ c) _ = _
  rw [s7_v12, W7_v9]
theorem W8_v13 : W8 (F := Ideal) m ρ c (Proc.devRef .tc main_v13)
    = extractStridedSlice S160000x24 ![0, 0] (dstRows m c) slices_S160000x152_S160000x24_0_0 := by
  show StableHlo.after hostOps0_7 (W7 m ρ c) _ = _
  rw [s7_v13, W7_v10]
theorem W8_v14 : W8 (F := Ideal) m ρ c (Proc.devRef .tc main_v14)
    = extractStridedSlice S160000x128 ![0, 24] (dstRows m c) slices_S160000x152_S160000x128_0_24 := by
  show StableHlo.after hostOps0_7 (W7 m ρ c) _ = _
  rw [s7_v14, W7_v10]
theorem W8_v2 : W8 (F := Ideal) m ρ c (Proc.devRef .tc main_v2) = clampFn (rowFn0 (A m c main_arg2)) :=
  (s234567_v2 (W2 m ρ c)).trans (W2_v2 m ρ c)

/-! ## The endpoint rows at an index -/

/-- Under the precondition the clamped word of row 0 at edge `e` is the node `src e` … -/
theorem srcIdx (hsrc : SrcOk m c src) (e : Fin 160000) :
    (clampFn (rowFn0 (A m c main_arg2)) (ix1 e)).toInt = ((src e).val : Int) := by
  have hrow : ∀ e : Fin 160000, (rowFn0 (A m c main_arg2) (ix1 e)).toInt = ((src e).val : Int) := fun e => by
    rw [rowFn0_apply]; exact hsrc e
  rw [clampFn_apply _ src hrow e]; exact hrow e
/-- … and that of row 1 the node `dst e`. -/
theorem dstIdx (hdst : DstOk m c dst) (e : Fin 160000) :
    (clampFn (rowFn1 (A m c main_arg2)) (ix1 e)).toInt = ((dst e).val : Int) := by
  have hrow : ∀ e : Fin 160000, (rowFn1 (A m c main_arg2) (ix1 e)).toInt = ((dst e).val : Int) := fun e => by
    rw [rowFn1_apply]; exact hdst e
  rw [clampFn_apply _ dst hrow e]; exact hrow e

/-- The source's taken row is the table's row `src e`, the target's the row `dst e`. -/
theorem srcRows_apply (hsrc : SrcOk m c src) (e : Fin 160000) (q : Fin 152) :
    srcRows m c (ix2 e q) = tableFn (A m c main_arg0) (A m c main_arg1) (ix2 (src e) q) :=
  takeFn_apply _ src (srcIdx m c src hsrc) _ e q
theorem dstRows_apply (hdst : DstOk m c dst) (e : Fin 160000) (q : Fin 152) :
    dstRows m c (ix2 e q) = tableFn (A m c main_arg0) (A m c main_arg1) (ix2 (dst e) q) :=
  takeFn_apply _ dst (dstIdx m c dst hdst) _ e q

/-! ## The eighteen arrays at the first region's entry, and the clamped source indices -/

/-- Window 0: the source node's spatial rows, flat: column `8 i + k` is feature `k` of spatial row `i`. -/
theorem v11 (hsrc : SrcOk m c src) (e : Fin 160000) (i : Fin 3) (k : Fin 8) :
    W8 (F := Ideal) m ρ c (Proc.devRef .tc main_v11) (ix2 e ⟨8 * i.val + k.val, by omega⟩) = A m c main_arg0 (ix3 (src e) i k) := by
  refine (congrFun (W8_v11 m ρ c) _).trans ?_
  refine (slice2_axis1_apply (n0 := 160000) (n1 := 152) (m := 24) 0 (srcRows m c) slices_S160000x152_S160000x24_0_0 e
    (⟨8 * i.val + k.val, by omega⟩ : Fin 24) (⟨8 * i.val + k.val, by omega⟩ : Fin 152) (Nat.zero_add _).symm).trans ?_
  refine (srcRows_apply m c src hsrc e _).trans ?_
  exact tableFn_left _ _ (src e) i k _
/-- Window 1: the target node's spatial rows, flat. -/
theorem v13 (hdst : DstOk m c dst) (e : Fin 160000) (i : Fin 3) (k : Fin 8) :
    W8 (F := Ideal) m ρ c (Proc.devRef .tc main_v13) (ix2 e ⟨8 * i.val + k.val, by omega⟩) = A m c main_arg0 (ix3 (dst e) i k) := by
  refine (congrFun (W8_v13 m ρ c) _).trans ?_
  refine (slice2_axis1_apply (n0 := 160000) (n1 := 152) (m := 24) 0 (dstRows m c) slices_S160000x152_S160000x24_0_0 e
    (⟨8 * i.val + k.val, by omega⟩ : Fin 24) (⟨8 * i.val + k.val, by omega⟩ : Fin 152) (Nat.zero_add _).symm).trans ?_
  refine (dstRows_apply m c dst hdst e _).trans ?_
  exact tableFn_left _ _ (dst e) i k _
/-- Window 2: the edge's spatial rows, flat: column `4 i + k`. The reshape keeps the row-major position:
    `(3 e + i) · 4 + k = 12 e + (4 i + k)`. -/
theorem v7 (e : Fin 160000) (i : Fin 3) (k : Fin 4) :
    W8 (F := Ideal) m ρ c (Proc.devRef .tc main_v7) (ix2 e ⟨4 * i.val + k.val, by omega⟩) = A m c main_arg3 (ix3 e i k) := by
  show StableHlo.after hostOps0_7 (W7 m ρ c) (Proc.devRef .tc main_v7) (ix2 e ⟨4 * i.val + k.val, by omega⟩) = _
  after_results
  show shapeCast S160000x12 (A m c main_arg3) shapeCasts_S160000x3x4_S160000x12 (ix2 e ⟨4 * i.val + k.val, by omega⟩) = _
  exact shapeCast_apply (s := S160000x3x4) (t := S160000x12) (A m c main_arg3) shapeCasts_S160000x3x4_S160000x12 _
    (ix3 e i k) (by
    show (S160000x3x4.rowMajor (ix3 e i k)).val = (S160000x12.rowMajor (ix2 e ⟨4 * i.val + k.val, by omega⟩)).val
    rw [Shape.rowMajor_val_three, Shape.rowMajor_val_two]
    show (e.val * 3 + i.val) * 4 + k.val = e.val * 12 + (4 * i.val + k.val)
    omega)
/-- Window 3: the source node's scalars. -/
theorem v12 (hsrc : SrcOk m c src) (e : Fin 160000) (q : Fin 128) :
    W8 (F := Ideal) m ρ c (Proc.devRef .tc main_v12) (ix2 e q) = A m c main_arg1 (ix2 (src e) q) := by
  refine (congrFun (W8_v12 m ρ c) _).trans ?_
  refine (slice2_axis1_apply 24 _ _ e q (⟨24 + q.val, by omega⟩ : Fin 152) rfl).trans ?_
  refine (srcRows_apply m c src hsrc e _).trans ?_
  exact tableFn_right _ _ (src e) q _
/-- Window 4: the target node's scalars. -/
theorem v14 (hdst : DstOk m c dst) (e : Fin 160000) (q : Fin 128) :
    W8 (F := Ideal) m ρ c (Proc.devRef .tc main_v14) (ix2 e q) = A m c main_arg1 (ix2 (dst e) q) := by
  refine (congrFun (W8_v14 m ρ c) _).trans ?_
  refine (slice2_axis1_apply 24 _ _ e q (⟨24 + q.val, by omega⟩ : Fin 152) rfl).trans ?_
  refine (dstRows_apply m c dst hdst e _).trans ?_
  exact tableFn_right _ _ (dst e) q _
/-- Window 5: the edge's scalars, as launched: no host operation writes an argument. -/
theorem arg4 : W8 (F := Ideal) m ρ c (Proc.devRef .tc main_arg4) = A m c main_arg4 := by
  show StableHlo.after hostOps0_7 (W7 m ρ c) (Proc.devRef .tc main_arg4) = _
  after_results
/-- Windows 6 to 9: the four row ranges of the first weight matrix (rows from 0, 400, 528 and 656); the change of
    float format after each cut is the identity. -/
theorem v16 (q : Fin 400) (j : Fin 128) :
    W8 (F := Ideal) m ρ c (Proc.devRef .tc main_v16) (ix2 q j) = A m c main_arg5 (ix2 ⟨q.val, by omega⟩ j) := by
  show StableHlo.after hostOps0_7 (W7 m ρ c) (Proc.devRef .tc main_v16) (ix2 q j) = _
  after_results
  refine Eq.trans (truncf_apply _ _ _) ?_
  exact slice2_axis0_apply 0 (A m c main_arg5) slices_S672x128_S400x128_0_0 q j ⟨q.val, by omega⟩ (Nat.zero_add _).symm
theorem v18 (q : Fin 128) (j : Fin 128) :
    W8 (F := Ideal) m ρ c (Proc.devRef .tc main_v18) (ix2 q j) = A m c main_arg5 (ix2 ⟨400 + q.val, by omega⟩ j) := by
  show StableHlo.after hostOps0_7 (W7 m ρ c) (Proc.devRef .tc main_v18) (ix2 q j) = _
  after_results
  refine Eq.trans (truncf_apply _ _ _) ?_
  exact slice2_axis0_apply 400 (A m c main_arg5) slices_S672x128_S128x128_400_0 q j ⟨400 + q.val, by omega⟩ rfl
theorem v20 (q : Fin 128) (j : Fin 128) :
    W8 (F := Ideal) m ρ c (Proc.devRef .tc main_v20) (ix2 q j) = A m c main_arg5 (ix2 ⟨528 + q.val, by omega⟩ j) := by
  show StableHlo.after hostOps0_7 (W7 m ρ c) (Proc.devRef .tc main_v20) (ix2 q j) = _
  after_results
  refine Eq.trans (truncf_apply _ _ _) ?_
  exact slice2_axis0_apply 528 (A m c main_arg5) slices_S672x128_S128x128_528_0 q j ⟨528 + q.val, by omega⟩ rfl
theorem v22 (q : Fin 16) (j : Fin 128) :
    W8 (F := Ideal) m ρ c (Proc.devRef .tc main_v22) (ix2 q j) = A m c main_arg5 (ix2 ⟨656 + q.val, by omega⟩ j) := by
  show StableHlo.after hostOps0_7 (W7 m ρ c) (Proc.devRef .tc main_v22) (ix2 q j) = _
  after_results
  refine Eq.trans (truncf_apply _ _ _) ?_
  exact slice2_axis0_apply 656 (A m c main_arg5) slices_S672x128_S16x128_656_0 q j ⟨656 + q.val, by omega⟩ rfl
/-- Window 10: the first bias, as launched. -/
theorem arg6 : W8 (F := Ideal) m ρ c (Proc.devRef .tc main_arg6) = A m c main_arg6 := by
  show StableHlo.after hostOps0_7 (W7 m ρ c) (Proc.devRef .tc main_arg6) = _
  after_results
/-- Window 11: the second weight matrix: its float format changed, which is the identity. -/
theorem v23 (q j : Fin 128) :
    W8 (F := Ideal) m ρ c (Proc.devRef .tc main_v23) (ix2 q j) = A m c main_arg7 (ix2 q j) := by
  show StableHlo.after hostOps0_7 (W7 m ρ c) (Proc.devRef .tc main_v23) (ix2 q j) = _
  after_results
  exact truncf_apply _ _ _
/-- Window 12: the second bias, as launched. -/
theorem arg8 : W8 (F := Ideal) m ρ c (Proc.devRef .tc main_arg8) = A m c main_arg8 := by
  show StableHlo.after hostOps0_7 (W7 m ρ c) (Proc.devRef .tc main_arg8) = _
  after_results
/-- Windows 13 and 14: the two column ranges of the third weight matrix (columns from 0 and from 160). -/
theorem v25 (q : Fin 128) (j : Fin 160) :
    W8 (F := Ideal) m ρ c (Proc.devRef .tc main_v25) (ix2 q j) = A m c main_arg9 (ix2 q ⟨j.val, by omega⟩) := by
  show StableHlo.after hostOps0_7 (W7 m ρ c) (Proc.devRef .tc main_v25) (ix2 q j) = _
  after_results
  refine Eq.trans (truncf_apply _ _ _) ?_
  exact slice2_axis1_apply 0 (A m c main_arg9) slices_S128x288_S128x160_0_0 q j ⟨j.val, by omega⟩ (Nat.zero_add _).symm
theorem v27 (q : Fin 128) (j : Fin 128) :
    W8 (F := Ideal) m ρ c (Proc.devRef .tc main_v27) (ix2 q j) = A m c main_arg9 (ix2 q ⟨160 + j.val, by omega⟩) := by
  show StableHlo.after hostOps0_7 (W7 m ρ c) (Proc.devRef .tc main_v27) (ix2 q j) = _
  after_results
  refine Eq.trans (truncf_apply _ _ _) ?_
  exact slice2_axis1_apply 160 (A m c main_arg9) slices_S128x288_S128x128_0_160 q j ⟨160 + j.val, by omega⟩ rfl
/-- Windows 15 and 16: the two ranges of the third bias (entries from 0 and from 160). -/
theorem v28 (j : Fin 160) :
    W8 (F := Ideal) m ρ c (Proc.devRef .tc main_v28) (ix1 j) = A m c main_arg10 (ix1 ⟨j.val, by omega⟩) := by
  show StableHlo.after hostOps0_7 (W7 m ρ c) (Proc.devRef .tc main_v28) (ix1 j) = _
  after_results
  exact extractStridedSlice_apply (s := S288) (t := S160) _ (A m c main_arg10) slices_S288_S160_0 (ix1 j)
    (ix1 ⟨j.val, by omega⟩) (fun ax => by
      match ax with
      | ⟨0, _⟩ => exact (Nat.zero_add _).symm)
theorem v29 (j : Fin 128) :
    W8 (F := Ideal) m ρ c (Proc.devRef .tc main_v29) (ix1 j) = A m c main_arg10 (ix1 ⟨160 + j.val, by omega⟩) := by
  show StableHlo.after hostOps0_7 (W7 m ρ c) (Proc.devRef .tc main_v29) (ix1 j) = _
  after_results
  exact extractStridedSlice_apply (s := S288) (t := S128) _ (A m c main_arg10) slices_S288_S128_160 (ix1 j)
    (ix1 ⟨160 + j.val, by omega⟩) (fun ax => by
      match ax with
      | ⟨0, _⟩ => rfl)
/-- The clamped source indices, which the host program after the region scatters by: on words that name nodes the
    clamp is the identity. -/
theorem v2 (hsrc : SrcOk m c src) (e : Fin 160000) :
    (W8 (F := Ideal) m ρ c (Proc.devRef .tc main_v2) (ix1 e)).toInt = ((src e).val : Int) :=
  (congrArg BitVec.toInt (congrFun (W8_v2 m ρ c) (ix1 e))).trans (srcIdx m c src hsrc e)

end Cert.KHost0

end
-- ==== Proof.LibBatchNT.lean ====
/-
  A general lemma: a kernel's BATCHED matrix product whose two operands are contracted along their LAST axis,
  `[B, M, K]` by `[B, N, K]` into `[B, M, N]` (batch axis 0 on both sides; what `einsum('bmk,bnk->bmn')` lowers to),
  into the zero accumulator, at the ideal instance, read at an entry as a sum over `k`.
-/
import Idealize.ShloMosaic.PureOps.Ideal
import Idealize.ShloMosaic.PureOps.Ideal.Laws
import Idealize.ShloMosaic.Lib.ValueIdx

noncomputable section

namespace Cert.LibBatchNT

open Idealize.ShloMosaic Idealize.ShloMosaic.ValueIdx

/-- The sum over the contraction index, as a sum over `Fin K`: the left operand is read at `(b, a, k)` and the right
    operand at `(b, n, k)`. -/
theorem batch_sum {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    {α : Type} [AddCommMonoid α] (f : (⟨3, ![B, M, K]⟩ : Shape).Idx → (⟨3, ![B, N, K]⟩ : Shape).Idx → α)
    (b : Fin B) (a : Fin M) (n : Fin N) :
    ∑ k : d.contr.Idx, f (d.lhsIdx (ix3 b a n) k) (d.rhsIdx (ix3 b a n) k)
      = ∑ k : Fin K, f (ix3 b a k) (ix3 b n k) := by
  obtain ⟨lc, rc, ln, rn, lb, rb, wf⟩ := d
  dsimp only at h1 h2 h3 h4 h5 h6
  subst h1 h2 h3 h4 h5 h6
  -- the contraction index has one coordinate, of extent K
  have hr : (DotDims.mk [2] [2] [1] [1] [0] [0] wf :
      DotDims ⟨3, ![B, M, K]⟩ ⟨3, ![B, N, K]⟩ ⟨3, ![B, M, N]⟩).contr.rank = 1 := rfl
  have hs : (DotDims.mk [2] [2] [1] [1] [0] [0] wf :
      DotDims ⟨3, ![B, M, K]⟩ ⟨3, ![B, N, K]⟩ ⟨3, ![B, M, N]⟩).contr.size ⟨0, by omega⟩ = K := rfl
  rw [← Equiv.sum_comp (contrEquiv1 _ K hr hs).symm]
  refine Finset.sum_congr rfl fun k _ => ?_
  congr 1
  · -- the left operand's index, axis by axis: batch, row, contraction
    funext c
    match c with
    | ⟨0, _⟩ => exact Fin.ext rfl
    | ⟨1, _⟩ => exact Fin.ext rfl
    | ⟨2, _⟩ => exact Fin.ext rfl
  · -- the right operand's index, axis by axis: batch, column, contraction
    funext c
    match c with
    | ⟨0, _⟩ => exact Fin.ext rfl
    | ⟨1, _⟩ => exact Fin.ext rfl
    | ⟨2, _⟩ => exact Fin.ext rfl

/-- THE KERNEL'S BATCHED PRODUCT INTO THE ZERO ACCUMULATOR, at the ideal instance, at entry `(b, a, n)`. -/
theorem matmul_zero_apply {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0]) {φ₁ φ₂ : FTy}
    (prec : Option ContractPrecision) (l : FVec Ideal ⟨3, ![B, M, K]⟩ φ₁) (r : FVec Ideal ⟨3, ![B, N, K]⟩ φ₂)
    (b : Fin B) (a : Fin M) (n : Fin N) :
    matmul d prec l r (constant ⟨3, ![B, M, N]⟩ .f32 0x00000000#32) (ix3 b a n) = ∑ k : Fin K, l (ix3 b a k) * r (ix3 b n k) := by
  show FloatOps.matmul d prec l r (constant ⟨3, ![B, M, N]⟩ .f32 0x00000000#32) (ix3 b a n) = _
  rw [Ideal.matmul_constant_zero_apply]
  exact batch_sum d h1 h2 h3 h4 h5 h6 (fun i j => l i * r j) b a n

end Cert.LibBatchNT

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KEdge.lean ====
/-
  The edge kernel's body, one row at a time.

  The body loads the whole blocks of its seventeen input windows and stores one [4000, 152] block. Row `r` of that
  block depends on row `r` of the six per-edge blocks and on the whole weight blocks, and is the packed message of
  Spec.lean (`partsMsg`): the three spatial rows `[f_src | f_dst | edge_f]` read out of the flat rows (feature `k` of
  spatial row `i` sits in column `8 i + k`, `4 i + k` for the edge features), their Gram matrix flattened and divided
  by the guarded norm, the first layer as four partial products, two `silu` layers, the last layer in two column
  blocks, the first re-contracted with the spatial rows. A change of float format is the identity here, a matrix
  product into the zero accumulator is a plain sum, and the lane sum of squares is a plain sum.
-/
import proofs.«408349_j8770323218950_3_alg».proof.Proof.KRun
import proofs.«408349_j8770323218950_3_alg».proof.Proof.Spec
import proofs.«408349_j8770323218950_3_alg».proof.Proof.LibBatchNT
import proofs.«408349_j8770323218950_3_alg».proof.Proof.LibDot
import proofs.«408349_j8770323218950_3_alg».proof.Proof.LibKeepdims

noncomputable section

namespace Cert.KEdge

open Cert.KernelIdeal Cert.KernelIdeal.Gen Idealize.ShloMosaic Idealize.ShloMosaic.TcCoe Idealize.SL.Sem
open Idealize.ShloMosaic.ValueIdx

/-! ## The flat rows read as three spatial rows -/

/-- A [4000, 24] block read as [4000, 3, 8]: feature k of spatial row i sits in column 8 i + k. -/
theorem rows24_apply {α : Type} (x : S4000x24.Idx → α) (h1 : S4000x24.ShapeCasts S4000x24) (h2 : S4000x24.ShapeCasts S4000x3x8)
    (r : Fin 4000) (i : Fin 3) (k : Fin 8) :
    shapeCast S4000x3x8 (shapeCast S4000x24 x h1) h2 (ix3 r i k) = x (ix2 r ⟨8 * i.val + k.val, by omega⟩) := by
  rw [shapeCast_self]
  exact shapeCast_apply x h2 _ _ (by
    rw [Shape.rowMajor_val_two, Shape.rowMajor_val_three]
    show r.val * 24 + (8 * i.val + k.val) = (r.val * 3 + i.val) * 8 + k.val
    omega)

/-- A [4000, 12] block read as [4000, 3, 4]: feature k of spatial row i sits in column 4 i + k. -/
theorem rows12_apply {α : Type} (x : S4000x12.Idx → α) (h1 : S4000x12.ShapeCasts S4000x12) (h2 : S4000x12.ShapeCasts S4000x3x4)
    (r : Fin 4000) (i : Fin 3) (k : Fin 4) :
    shapeCast S4000x3x4 (shapeCast S4000x12 x h1) h2 (ix3 r i k) = x (ix2 r ⟨4 * i.val + k.val, by omega⟩) := by
  rw [shapeCast_self]
  exact shapeCast_apply x h2 _ _ (by
    rw [Shape.rowMajor_val_two, Shape.rowMajor_val_three]
    show r.val * 12 + (4 * i.val + k.val) = (r.val * 3 + i.val) * 4 + k.val
    omega)

/-- The three pieces side by side along the feature axis are the spatial rows X of the row's edge. -/
theorem pay2_apply (x0 x1 : Vec Ideal S4000x24 .f32) (x2 : Vec Ideal S4000x12 .f32) (r : Fin 4000) (i : Fin 3) (d : Fin 20) :
    k0_pay2 (F := Ideal) x0 x1 x2 (ix3 r i d)
      = Cert.Spec.cat3 (fun i k => x0 (ix2 r ⟨8 * i.val + k.val, by omega⟩)) (fun i k => x1 (ix2 r ⟨8 * i.val + k.val, by omega⟩))
          (fun i k => x2 (ix2 r ⟨4 * i.val + k.val, by omega⟩)) i d := by
  unfold k0_pay2 Cert.Spec.cat3
  dsimp only
  by_cases h : d.val < 8
  · rw [dif_pos h]
    refine (concatenate_apply_piece _ _ _ (ix3 r i d) 0 (by show (0 : ℕ) < 3; omega) S4000x3x8 _ rfl rfl 0 rfl (ix3 r i ⟨d.val, h⟩) ?_ ?_).trans ?_
    · intro b
      match b with
      | ⟨0, _⟩ => exact fun _ => rfl
      | ⟨1, _⟩ => exact fun _ => rfl
      | ⟨2, _⟩ => exact fun hb => absurd rfl hb
    · show 0 + d.val = d.val
      omega
    · exact rows24_apply x0 _ _ r i ⟨d.val, h⟩
  · rw [dif_neg h]
    by_cases h' : d.val < 16
    · rw [dif_pos h']
      refine (concatenate_apply_piece _ _ _ (ix3 r i d) 1 (by show (1 : ℕ) < 3; omega) S4000x3x8 _ rfl rfl 8 rfl (ix3 r i ⟨d.val - 8, by omega⟩) ?_ ?_).trans ?_
      · intro b
        match b with
        | ⟨0, _⟩ => exact fun _ => rfl
        | ⟨1, _⟩ => exact fun _ => rfl
        | ⟨2, _⟩ => exact fun hb => absurd rfl hb
      · show 8 + (d.val - 8) = d.val
        omega
      · exact rows24_apply x1 _ _ r i ⟨d.val - 8, by omega⟩
    · rw [dif_neg h']
      refine (concatenate_apply_piece _ _ _ (ix3 r i d) 2 (by show (2 : ℕ) < 3; omega) S4000x3x4 _ rfl rfl 16 rfl (ix3 r i ⟨d.val - 16, by omega⟩) ?_ ?_).trans ?_
      · intro b
        match b with
        | ⟨0, _⟩ => exact fun _ => rfl
        | ⟨1, _⟩ => exact fun _ => rfl
        | ⟨2, _⟩ => exact fun hb => absurd rfl hb
      · show 16 + (d.val - 16) = d.val
        omega
      · exact rows12_apply x2 _ _ r i ⟨d.val - 16, by omega⟩

/-! ## The Gram matrix and the unit vector -/

/-- The transposed rows multiplied with themselves over the three spatial rows: entry (d, k) of the Gram matrix. -/
theorem gram_apply (X : FVec Ideal S4000x3x20 .f32) (hT : S4000x3x20.Transposes [0, 2, 1] S4000x20x3)
    (r : Fin 4000) (d k : Fin 20) :
    matmul dot_S4000x20x3_S4000x20x3_S4000x20x20_2_2_1_1_0_0 none (transpose S4000x20x3 [0, 2, 1] X hT)
        (transpose S4000x20x3 [0, 2, 1] X hT) (constant (F := Ideal) S4000x20x20 .f32 0x00000000#32) (ix3 r d k)
      = ∑ i : Fin 3, X (ix3 r i d) * X (ix3 r i k) := by
  refine (Cert.LibBatchNT.matmul_zero_apply _ rfl rfl rfl rfl rfl rfl none _ _ r d k).trans ?_
  refine Finset.sum_congr rfl fun i _ => ?_
  rw [transpose_ix3_021_apply, transpose_ix3_021_apply]

/-- A [4000, 20, 20] block flattened row-major to [4000, 400]: entry p of a row is entry (p / 20, p % 20). -/
theorem flat400_apply {α : Type} (G : S4000x20x20.Idx → α) (h : S4000x20x20.ShapeCasts S4000x400) (r : Fin 4000) (p : Fin 400) :
    shapeCast S4000x400 G h (ix2 r p) = G (ix3 r ⟨p.val / 20, by omega⟩ ⟨p.val % 20, by omega⟩) :=
  shapeCast_apply G h _ _ (by
    rw [Shape.rowMajor_val_two, Shape.rowMajor_val_three]
    show (r.val * 20 + p.val / 20) * 20 + p.val % 20 = r.val * 400 + p.val
    omega)

/-- A row divided by the larger of its Euclidean norm (the root of the lane sum of squares) and the guard. -/
theorem unit_apply (g : FVec Ideal S4000x400 .f32) (hR : S4000x400.Reduces [1] S4000) (hφ : FKind.Formats .f32)
    (hacc : (0x00000000#32 : BitVec 32) = FKind.add.neutral .f32 hφ) (hc : S4000.ShapeCasts S4000x1)
    (hb : S4000x1.Broadcasts S4000x400) (r : Fin 4000) (p : Fin 400) :
    divf g (broadcastTo S4000x400 (maximumf (sqrt (shapeCast S4000x1
        (multiReduction (F := Ideal) .add [1] S4000 (mulf g g) 0x00000000#32 hR hφ hacc) hc))
        (broadcast S4000x1 (Scalar.ofBits (F := Ideal) .f32 0x2B8CBCCC#32))) hb) (ix2 r p)
      = Cert.Spec.unitize (fun q => g (ix2 r q)) p := by
  show Ideal.div (g (ix2 r p)) (broadcastTo S4000x400 _ hb (ix2 r p)) = _
  rw [broadcastTo_a1_ab_apply]
  show Ideal.div (g (ix2 r p)) (max (Ideal.sqrt (shapeCast S4000x1 _ hc (ix2 r 0))) (Ideal.ofBits .f32 0x2B8CBCCC#32)) = _
  rw [shapeCast_a_a1_apply, multiReduction_add_cols_apply]
  rfl

/-! ## The first layer's first two partial products -/

/-- A change of float format keeps the scalar features of the row. -/
theorem pay3_apply (x : Vec Ideal S4000x128 .f32) (r : Fin 4000) (q : Fin 128) :
    k0_pay3 (F := Ideal) x (ix2 r q) = x (ix2 r q) := by
  unfold k0_pay3
  rw [truncf_apply, shapeCast_self]

theorem pay4_apply (x : Vec Ideal S4000x16 .f32) (r : Fin 4000) (q : Fin 16) :
    k0_pay4 (F := Ideal) x (ix2 r q) = x (ix2 r q) := rfl

/-- The unit Gram vector against its rows of the first weight matrix, plus the source features against theirs. -/
theorem pay5_apply (x0 x1 : Vec Ideal S4000x24 .f32) (x2 : Vec Ideal S4000x12 .f32) (x3 : Vec Ideal S4000x128 .f32)
    (x6 : Vec Ideal S400x128 .bf16) (x7 : Vec Ideal S128x128 .bf16) (r : Fin 4000) (j : Fin 128) :
    k0_pay5 (F := Ideal) x0 x1 x2 x3 x6 x7 (ix2 r j)
      = (∑ q : Fin 400, Cert.Spec.unitize (Cert.Spec.gramFlat20 (fun i d => k0_pay2 (F := Ideal) x0 x1 x2 (ix3 r i d))) q * x6 (ix2 q j))
        + ∑ q : Fin 128, x3 (ix2 r q) * x7 (ix2 q j) := by
  unfold k0_pay5
  dsimp only
  rw [addf_apply]
  refine congrArg₂ (· + ·) ?_ ?_
  · refine (Cert.LibDot.matmul_zero_apply _ rfl rfl rfl rfl rfl rfl none _ _ r j).trans ?_
    refine Finset.sum_congr rfl fun q _ => congrArg₂ (· * ·) ?_ ?_
    · rw [truncf_apply]
      refine (unit_apply _ _ _ _ _ _ r q).trans ?_
      refine congrArg (fun g => Cert.Spec.unitize g q) (funext fun p => ?_)
      rw [flat400_apply, gram_apply]
      rfl
    · rw [shapeCast_self]
  · refine (Cert.LibDot.matmul_zero_apply _ rfl rfl rfl rfl rfl rfl none _ _ r j).trans ?_
    refine Finset.sum_congr rfl fun q _ => congrArg₂ (· * ·) ?_ ?_
    · rw [truncf_apply, shapeCast_self]
    · rw [shapeCast_self]

/-! ## The two hidden layers and the last layer's two column blocks -/

/-- x times the logistic of x, entry by entry. -/
theorem silu_apply {s : Shape} (v : FVec Ideal s .f32) (i : s.Idx) : mulf v (logistic v) i = Cert.Spec.silu (v i) := rfl

/-- A bias vector laid as one row and repeated down the rows reads, in any row, the bias of the column. -/
theorem bias_apply {α : Type} {a n : ℕ} (b : (⟨1, ![n]⟩ : Shape).Idx → α) (hc : (⟨1, ![n]⟩ : Shape).ShapeCasts ⟨2, ![1, n]⟩)
    (hb : (⟨2, ![1, n]⟩ : Shape).Broadcasts ⟨2, ![a, n]⟩) (r : Fin a) (j : Fin n) :
    broadcastTo ⟨2, ![a, n]⟩ (shapeCast ⟨2, ![1, n]⟩ b hc) hb (ix2 r j) = b (ix1 j) := by
  rw [broadcastTo_1b_ab_apply, shapeCast_a_1a_apply]

/-- The second hidden layer of a row, from the row's first two partial products and its remaining features. -/
theorem pay6_apply (v28 : FVec Ideal S4000x128 .bf16) (v29 : FVec Ideal S4000x16 .bf16) (v36 : FVec Ideal S4000x128 .f32)
    (x8 : Vec Ideal S128x128 .bf16) (x9 : Vec Ideal S16x128 .bf16) (x10 : Vec Ideal S128 .f32)
    (x11 : Vec Ideal S128x128 .bf16) (x12 : Vec Ideal S128 .f32) (r : Fin 4000) (j : Fin 128) :
    k0_pay6 (F := Ideal) v28 v29 v36 x8 x9 x10 x11 x12 (ix2 r j)
      = Cert.Spec.silu (Cert.Spec.lin (fun j' => Cert.Spec.silu (((v36 (ix2 r j') + ∑ q : Fin 128, v28 (ix2 r q) * x8 (ix2 q j'))
            + ∑ q : Fin 16, v29 (ix2 r q) * x9 (ix2 q j')) + x10 (ix1 j')))
          (fun q j => x11 (ix2 q j)) (fun j => x12 (ix1 j)) j) := by
  unfold k0_pay6
  rw [truncf_apply]
  refine (silu_apply _ _).trans (congrArg Cert.Spec.silu ?_)
  unfold Cert.Spec.lin
  rw [addf_apply]
  refine congrArg₂ (· + ·) ?_ ?_
  · refine (Cert.LibDot.matmul_zero_apply _ rfl rfl rfl rfl rfl rfl none _ _ r j).trans ?_
    refine Finset.sum_congr rfl fun q _ => congrArg₂ (· * ·) ?_ ?_
    · rw [truncf_apply]
      refine (silu_apply _ _).trans (congrArg Cert.Spec.silu ?_)
      rw [addf_apply, addf_apply, addf_apply]
      refine congrArg₂ (· + ·) (congrArg₂ (· + ·) (congrArg₂ (· + ·) rfl ?_) ?_) ?_
      · refine (Cert.LibDot.matmul_zero_apply _ rfl rfl rfl rfl rfl rfl none _ _ r q).trans ?_
        refine Finset.sum_congr rfl fun q' _ => congrArg₂ (· * ·) rfl ?_
        rw [shapeCast_self]
      · refine (Cert.LibDot.matmul_zero_apply _ rfl rfl rfl rfl rfl rfl none _ _ r q).trans ?_
        refine Finset.sum_congr rfl fun q' _ => congrArg₂ (· * ·) rfl ?_
        rw [shapeCast_self]
      · exact bias_apply _ _ _ r q
    · rw [shapeCast_self]
  · exact bias_apply _ _ _ r j

/-- The scalar outputs of a row: the second hidden layer through the last layer's last 128 columns. -/
theorem pay7_apply (v28 : FVec Ideal S4000x128 .bf16) (v29 : FVec Ideal S4000x16 .bf16) (v36 : FVec Ideal S4000x128 .f32)
    (x8 : Vec Ideal S128x128 .bf16) (x9 : Vec Ideal S16x128 .bf16) (x10 : Vec Ideal S128 .f32)
    (x11 : Vec Ideal S128x128 .bf16) (x12 : Vec Ideal S128 .f32) (x14 : Vec Ideal S128x128 .bf16) (x16 : Vec Ideal S128 .f32)
    (r : Fin 4000) (j : Fin 128) :
    k0_pay7 (F := Ideal) v28 v29 v36 x8 x9 x10 x11 x12 x14 x16 (ix2 r j)
      = Cert.Spec.lin (fun q => k0_pay6 (F := Ideal) v28 v29 v36 x8 x9 x10 x11 x12 (ix2 r q))
          (fun q j => x14 (ix2 q j)) (fun j => x16 (ix1 j)) j := by
  unfold k0_pay7 Cert.Spec.lin
  dsimp only
  rw [addf_apply]
  refine congrArg₂ (· + ·) ?_ ?_
  · refine (Cert.LibDot.matmul_zero_apply _ rfl rfl rfl rfl rfl rfl none _ _ r j).trans ?_
    refine Finset.sum_congr rfl fun q _ => congrArg₂ (· * ·) rfl ?_
    rw [shapeCast_self]
  · rw [shapeCast_self]
    exact bias_apply _ _ _ r j

/-- The first 160 outputs of a row read as a 20 by 8 matrix: entry (d, k) is output 8 d + k. -/
theorem pay8_apply (v28 : FVec Ideal S4000x128 .bf16) (v29 : FVec Ideal S4000x16 .bf16) (v36 : FVec Ideal S4000x128 .f32)
    (x8 : Vec Ideal S128x128 .bf16) (x9 : Vec Ideal S16x128 .bf16) (x10 : Vec Ideal S128 .f32)
    (x11 : Vec Ideal S128x128 .bf16) (x12 : Vec Ideal S128 .f32) (x13 : Vec Ideal S128x160 .bf16) (x15 : Vec Ideal S160 .f32)
    (r : Fin 4000) (d : Fin 20) (k : Fin 8) :
    k0_pay8 (F := Ideal) v28 v29 v36 x8 x9 x10 x11 x12 x13 x15 (ix3 r d k)
      = Cert.Spec.lin (fun q => k0_pay6 (F := Ideal) v28 v29 v36 x8 x9 x10 x11 x12 (ix2 r q))
          (fun q j => x13 (ix2 q j)) (fun j => x15 (ix1 j)) ⟨8 * d.val + k.val, by omega⟩ := by
  unfold k0_pay8 Cert.Spec.lin
  dsimp only
  refine (shapeCast_apply _ _ _ (ix2 r ⟨8 * d.val + k.val, by omega⟩) (by
    rw [Shape.rowMajor_val_two, Shape.rowMajor_val_three]
    show r.val * 160 + (8 * d.val + k.val) = (r.val * 20 + d.val) * 8 + k.val
    omega)).trans ?_
  rw [addf_apply]
  refine congrArg₂ (· + ·) ?_ ?_
  · refine (Cert.LibDot.matmul_zero_apply _ rfl rfl rfl rfl rfl rfl none _ _ r _).trans ?_
    refine Finset.sum_congr rfl fun q _ => congrArg₂ (· * ·) rfl ?_
    rw [shapeCast_self]
  · rw [shapeCast_self]
    exact bias_apply _ _ _ r _

/-! ## The packed row -/

/-- The stored row: the spatial rows against the 20 by 8 matrix (24 numbers, row-major 3 by 8), then the scalar outputs. -/
theorem pay1_apply (v9 : FVec Ideal S4000x3x20 .f32) (v77 : FVec Ideal S4000x128 .f32) (v78 : FVec Ideal S4000x20x8 .f32)
    (r : Fin 4000) (j : Fin 152) :
    k0_pay1 (F := Ideal) v9 v77 v78 (ix2 r j)
      = if h : j.val < 24 then ∑ d : Fin 20, v9 (ix3 r ⟨j.val / 8, by omega⟩ d) * v78 (ix3 r d ⟨j.val % 8, by omega⟩)
        else v77 (ix2 r ⟨j.val - 24, by omega⟩) := by
  unfold k0_pay1
  dsimp only
  by_cases h : j.val < 24
  · rw [dif_pos h]
    refine (concatenate_pair_apply_left (s₁ := S4000x24) (s₂ := S4000x128) _ _ _ _ (ix2 r j) rfl (ix2 r (⟨j.val, h⟩ : Fin 24)) ?_).trans ?_
    · intro b
      match b with
      | ⟨0, _⟩ => rfl
      | ⟨1, _⟩ => rfl
    · refine (shapeCast_apply _ _ _ (ix3 r ⟨j.val / 8, by omega⟩ ⟨j.val % 8, by omega⟩) (by
        rw [Shape.rowMajor_val_three, Shape.rowMajor_val_two]
        show (r.val * 3 + j.val / 8) * 8 + j.val % 8 = r.val * 24 + j.val
        omega)).trans ?_
      refine (Cert.LibBatchNT.matmul_zero_apply _ rfl rfl rfl rfl rfl rfl none _ _ r _ _).trans ?_
      refine Finset.sum_congr rfl fun d _ => congrArg₂ (· * ·) rfl ?_
      rw [transpose_ix3_021_apply]
  · rw [dif_neg h]
    refine concatenate_pair_apply_right (s₁ := S4000x24) (s₂ := S4000x128) _ _ _ _ (ix2 r j) rfl rfl (ix2 r (⟨j.val - 24, by omega⟩ : Fin 128)) ?_ ?_
    · intro b
      match b with
      | ⟨0, _⟩ => exact fun _ => rfl
      | ⟨1, _⟩ => exact fun hb => absurd rfl hb
    · show (j.val - 24) + 24 = j.val
      omega

/-! ## The stored block -/

/-- The offsets of a whole block are zero on every axis. -/
theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-- The second hidden layer of row r is that of the four partial products of the row's data. -/
theorem h2_apply (x0 x1 : Vec Ideal S4000x24 .f32) (x2 : Vec Ideal S4000x12 .f32) (x3 x4 : Vec Ideal S4000x128 .f32)
    (x5 : Vec Ideal S4000x16 .f32) (x6 : Vec Ideal S400x128 .bf16) (x7 x8 : Vec Ideal S128x128 .bf16)
    (x9 : Vec Ideal S16x128 .bf16) (x10 : Vec Ideal S128 .f32) (x11 : Vec Ideal S128x128 .bf16) (x12 : Vec Ideal S128 .f32)
    (r : Fin 4000) (q : Fin 128) :
    k0_pay6 (F := Ideal) (k0_pay3 x4) (k0_pay4 x5) (k0_pay5 x0 x1 x2 x3 x6 x7) x8 x9 x10 x11 x12 (ix2 r q)
      = Cert.Spec.partsH2 (fun i k => x0 (ix2 r ⟨8 * i.val + k.val, by omega⟩)) (fun i k => x1 (ix2 r ⟨8 * i.val + k.val, by omega⟩))
          (fun i k => x2 (ix2 r ⟨4 * i.val + k.val, by omega⟩)) (fun q => x3 (ix2 r q)) (fun q => x4 (ix2 r q)) (fun q => x5 (ix2 r q))
          (fun q j => x6 (ix2 q j)) (fun q j => x7 (ix2 q j)) (fun q j => x8 (ix2 q j)) (fun q j => x9 (ix2 q j)) (fun j => x10 (ix1 j))
          (fun q j => x11 (ix2 q j)) (fun j => x12 (ix1 j)) q := by
  rw [pay6_apply]
  unfold Cert.Spec.partsH2
  refine congrArg Cert.Spec.silu (congrArg (fun h => Cert.Spec.lin h _ _ q) (funext fun j' => ?_))
  unfold Cert.Spec.partsH1 Cert.Spec.edgeU
  have hX : (fun i d => k0_pay2 (F := Ideal) x0 x1 x2 (ix3 r i d)) = Cert.Spec.cat3 _ _ _ :=
    funext fun i => funext fun d => pay2_apply x0 x1 x2 r i d
  rw [pay5_apply, hX]
  simp only [pay3_apply, pay4_apply]

/-- ROW `r`, COLUMN `j` OF THE STORED BLOCK is the packed message of row `r`'s data. -/
theorem out_apply (x0 x1 : Vec Ideal S4000x24 .f32) (x2 : Vec Ideal S4000x12 .f32) (x3 x4 : Vec Ideal S4000x128 .f32)
    (x5 : Vec Ideal S4000x16 .f32) (x6 : Vec Ideal S400x128 .bf16) (x7 x8 : Vec Ideal S128x128 .bf16)
    (x9 : Vec Ideal S16x128 .bf16) (x10 : Vec Ideal S128 .f32) (x11 : Vec Ideal S128x128 .bf16) (x12 : Vec Ideal S128 .f32)
    (x13 : Vec Ideal S128x160 .bf16) (x14 : Vec Ideal S128x128 .bf16) (x15 : Vec Ideal S160 .f32) (x16 : Vec Ideal S128 .f32)
    (r : Fin 4000) (j : Fin 152) :
    out0_17 (F := Ideal) x0 x1 x2 x3 x4 x5 x6 x7 x8 x9 x10 x11 x12 x13 x14 x15 x16 (ix2 r j)
      = Cert.Spec.partsMsg (fun i k => x0 (ix2 r ⟨8 * i.val + k.val, by omega⟩)) (fun i k => x1 (ix2 r ⟨8 * i.val + k.val, by omega⟩))
          (fun i k => x2 (ix2 r ⟨4 * i.val + k.val, by omega⟩)) (fun q => x3 (ix2 r q)) (fun q => x4 (ix2 r q)) (fun q => x5 (ix2 r q))
          (fun q j => x6 (ix2 q j)) (fun q j => x7 (ix2 q j)) (fun q j => x8 (ix2 q j)) (fun q j => x9 (ix2 q j)) (fun j => x10 (ix1 j))
          (fun q j => x11 (ix2 q j)) (fun j => x12 (ix1 j)) (fun q j => x13 (ix2 q j)) (fun q j => x14 (ix2 q j))
          (fun j => x15 (ix1 j)) (fun j => x16 (ix1 j)) j := by
  unfold out0_17
  rw [View.canon_unit_zero hz2]
  simp only [View.ld_unit_zero (S := S4000x24) hz2, View.ld_unit_zero (S := S4000x12) hz2, View.ld_unit_zero (S := S4000x128) hz2,
    View.ld_unit_zero (S := S4000x16) hz2, View.ld_unit_zero (S := S400x128) hz2, View.ld_unit_zero (S := S128x128) hz2,
    View.ld_unit_zero (S := S16x128) hz2, View.ld_unit_zero (S := S128) hz1, View.ld_unit_zero (S := S128x160) hz2,
    View.ld_unit_zero (S := S160) hz1]
  rw [pay1_apply]
  unfold Cert.Spec.partsMsg
  have hH2 := funext (h2_apply x0 x1 x2 x3 x4 x5 x6 x7 x8 x9 x10 x11 x12 r)
  by_cases h : j.val < 24
  · rw [dif_pos h, dif_pos h]
    refine Finset.sum_congr rfl fun d _ => congrArg₂ (· * ·) (pay2_apply x0 x1 x2 r _ d) ?_
    rw [pay8_apply, hH2]
  · rw [dif_neg h, dif_neg h, pay7_apply, hH2]

end Cert.KEdge

end
-- ==== Proof.SpecLaws.lean ====
/-
  The two spellings of the edge function agree.

  A sum over the 672 inputs of the first layer is the sum over its first 400, plus the next 128, plus the next 128,
  plus the last 16 (a finite sum in a commutative monoid cut into consecutive stretches; the extended reals under
  addition are one, so nothing here needs a finite operand). On each stretch the concatenated input is the piece that
  lies there, and the weight row is the row of the matching slice. The last layer computed apart for the first 160 and
  the last 128 columns is the 288-column layer read at those columns.
-/
import proofs.«408349_j8770323218950_3_alg».proof.Proof.Spec

noncomputable section

namespace Cert.Spec

open Idealize.ShloMosaic

/-- A sum over `Fin 672` cut at 400, 528 and 656. -/
theorem sum_cut672 (f : Fin 672 → EReal) :
    ∑ q : Fin 672, f q
      = (((∑ q : Fin 400, f ⟨q.val, by omega⟩) + ∑ q : Fin 128, f ⟨400 + q.val, by omega⟩)
          + ∑ q : Fin 128, f ⟨528 + q.val, by omega⟩) + ∑ q : Fin 16, f ⟨656 + q.val, by omega⟩ := by
  -- 672 = 656 + 16: the last 16 terms come off
  have h1 : ∑ q : Fin 672, f q
      = (∑ q : Fin 656, f (Fin.castAdd 16 q)) + ∑ q : Fin 16, f (Fin.natAdd 656 q) :=
    Fin.sum_univ_add (a := 656) (b := 16) (M := EReal) f
  -- 656 = 528 + 128
  have h2 : ∑ q : Fin 656, f (Fin.castAdd 16 q)
      = (∑ q : Fin 528, f (Fin.castAdd 16 (Fin.castAdd 128 q)))
          + ∑ q : Fin 128, f (Fin.castAdd 16 (Fin.natAdd 528 q)) :=
    Fin.sum_univ_add (a := 528) (b := 128) (M := EReal) (fun q => f (Fin.castAdd 16 q))
  -- 528 = 400 + 128
  have h3 : ∑ q : Fin 528, f (Fin.castAdd 16 (Fin.castAdd 128 q))
      = (∑ q : Fin 400, f (Fin.castAdd 16 (Fin.castAdd 128 (Fin.castAdd 128 q))))
          + ∑ q : Fin 128, f (Fin.castAdd 16 (Fin.castAdd 128 (Fin.natAdd 400 q))) :=
    Fin.sum_univ_add (a := 400) (b := 128) (M := EReal) (fun q => f (Fin.castAdd 16 (Fin.castAdd 128 q)))
  -- an index embedded from the left keeps its value; one embedded from the right is shifted by the cut
  rw [h1, h2, h3]
  rfl

/-! ### The concatenated input on each of its four stretches -/

section Pieces
variable (u : Fin 400 → EReal) (ss sd : Fin 128 → EReal) (es : Fin 16 → EReal)

/-- Below 400 the concatenated input is the unit Gram vector. -/
theorem edgeIn_lt400 (q : Fin 400) : edgeIn u ss sd es ⟨q.val, by omega⟩ = u q := by
  have h : (⟨q.val, by omega⟩ : Fin 672).val < 400 := q.isLt
  unfold edgeIn
  rw [dif_pos h]

/-- From 400 to 527 it is the source scalars. -/
theorem edgeIn_400 (q : Fin 128) : edgeIn u ss sd es ⟨400 + q.val, by omega⟩ = ss q := by
  have h0 : ¬ (⟨400 + q.val, by omega⟩ : Fin 672).val < 400 := by
    show ¬ (400 + q.val < 400); omega
  have h1 : (⟨400 + q.val, by omega⟩ : Fin 672).val < 528 := by
    show 400 + q.val < 528; omega
  unfold edgeIn
  rw [dif_neg h0, dif_pos h1]
  exact congrArg ss (Fin.ext (by show 400 + q.val - 400 = q.val; omega))

/-- From 528 to 655 it is the destination scalars. -/
theorem edgeIn_528 (q : Fin 128) : edgeIn u ss sd es ⟨528 + q.val, by omega⟩ = sd q := by
  have h0 : ¬ (⟨528 + q.val, by omega⟩ : Fin 672).val < 400 := by
    show ¬ (528 + q.val < 400); omega
  have h1 : ¬ (⟨528 + q.val, by omega⟩ : Fin 672).val < 528 := by
    show ¬ (528 + q.val < 528); omega
  have h2 : (⟨528 + q.val, by omega⟩ : Fin 672).val < 656 := by
    show 528 + q.val < 656; omega
  unfold edgeIn
  rw [dif_neg h0, dif_neg h1, dif_pos h2]
  exact congrArg sd (Fin.ext (by show 528 + q.val - 528 = q.val; omega))

/-- From 656 on it is the edge scalars. -/
theorem edgeIn_656 (q : Fin 16) : edgeIn u ss sd es ⟨656 + q.val, by omega⟩ = es q := by
  have h0 : ¬ (⟨656 + q.val, by omega⟩ : Fin 672).val < 400 := by
    show ¬ (656 + q.val < 400); omega
  have h1 : ¬ (⟨656 + q.val, by omega⟩ : Fin 672).val < 528 := by
    show ¬ (656 + q.val < 528); omega
  have h2 : ¬ (⟨656 + q.val, by omega⟩ : Fin 672).val < 656 := by
    show ¬ (656 + q.val < 656); omega
  unfold edgeIn
  rw [dif_neg h0, dif_neg h1, dif_neg h2]
  exact congrArg es (Fin.ext (by show 656 + q.val - 656 = q.val; omega))
end Pieces

section
variable (fs fd : Fin 3 → Fin 8 → EReal) (ef : Fin 3 → Fin 4 → EReal) (ss sd : Fin 128 → EReal) (es : Fin 16 → EReal)
  (W1 : Fin 672 → Fin 128 → EReal) (b1 : Fin 128 → EReal) (W2 : Fin 128 → Fin 128 → EReal) (b2 : Fin 128 → EReal)
  (W3 : Fin 128 → Fin 288 → EReal) (b3 : Fin 288 → EReal)

/-- The first hidden layer in four partial sums is the first hidden layer in one sum: the 672-term sum is cut at
    400, 528 and 656, and on each stretch the concatenated input is the piece that lies there. -/
theorem partsH1_eq :
    partsH1 fs fd ef ss sd es
        (fun q j => W1 ⟨q.val, by omega⟩ j) (fun q j => W1 ⟨400 + q.val, by omega⟩ j)
        (fun q j => W1 ⟨528 + q.val, by omega⟩ j) (fun q j => W1 ⟨656 + q.val, by omega⟩ j) b1
      = edgeH1 fs fd ef ss sd es W1 b1 := by
  funext j
  unfold partsH1 edgeH1 lin
  rw [sum_cut672]
  simp only [edgeIn_lt400, edgeIn_400, edgeIn_528, edgeIn_656]

/-- Hence the second hidden layers agree. -/
theorem partsH2_eq :
    partsH2 fs fd ef ss sd es
        (fun q j => W1 ⟨q.val, by omega⟩ j) (fun q j => W1 ⟨400 + q.val, by omega⟩ j)
        (fun q j => W1 ⟨528 + q.val, by omega⟩ j) (fun q j => W1 ⟨656 + q.val, by omega⟩ j) b1 W2 b2
      = edgeH2 fs fd ef ss sd es W1 b1 W2 b2 := by
  funext j
  unfold partsH2 edgeH2
  rw [partsH1_eq]

/-- THE PACKED MESSAGE ROW, computed with the weight matrices cut as the four row ranges of `W1` and the two column
    ranges of `W3` and `b3`, is the equivariant message (row-major, 24 numbers) followed by the scalar message. -/
theorem partsMsg_eq (j : Fin 152) :
    partsMsg fs fd ef ss sd es
        (fun q j => W1 ⟨q.val, by omega⟩ j) (fun q j => W1 ⟨400 + q.val, by omega⟩ j)
        (fun q j => W1 ⟨528 + q.val, by omega⟩ j) (fun q j => W1 ⟨656 + q.val, by omega⟩ j) b1 W2 b2
        (fun q c => W3 q ⟨c.val, by omega⟩) (fun q c => W3 q ⟨160 + c.val, by omega⟩)
        (fun c => b3 ⟨c.val, by omega⟩) (fun c => b3 ⟨160 + c.val, by omega⟩) j
      = if h : j.val < 24 then edgeF fs fd ef ss sd es W1 b1 W2 b2 W3 b3 ⟨j.val / 8, by omega⟩ ⟨j.val % 8, by omega⟩
        else edgeS fs fd ef ss sd es W1 b1 W2 b2 W3 b3 ⟨j.val - 24, by omega⟩ := by
  unfold partsMsg
  rw [partsH2_eq]
  by_cases h : j.val < 24
  · -- the first 160 columns of the last layer, contracted with the spatial rows
    rw [dif_pos h, dif_pos h]
    unfold edgeF edgeC lin
    rfl
  · -- the last 128 columns of the last layer
    rw [dif_neg h, dif_neg h]
    unfold edgeS edgeC lin
    rfl
end

end Cert.Spec

end
-- ==== Proof.KMsg.lean ====
/-
  The message array the first region leaves.

  The region's output window writes block `t` (rows `4000 t` to `4000 t + 3999`, all 152 columns) at grid point `t`,
  and the forty blocks tile the array, so the array after the region is, at every index, what the point covering
  that row stored. An input window's block at point `t` is the same rows of its array (the weight windows: the whole
  array at every point). With the body's row (KEdge), the arrays as the region finds them (KHost0) and the law between
  the two spellings of the edge function (SpecLaws), row `e` of the array is the equivariant message of edge `e`
  (24 numbers, row-major) followed by its scalar message.
-/
import proofs.«408349_j8770323218950_3_alg».proof.Proof.KArgs
import proofs.«408349_j8770323218950_3_alg».proof.Proof.KHost0
import proofs.«408349_j8770323218950_3_alg».proof.Proof.KEdge
import proofs.«408349_j8770323218950_3_alg».proof.Proof.SpecLaws
import Idealize.ShloMosaic.Lib.Pipeline.Value

noncomputable section

namespace Cert.KMsg

open Cert.KernelIdeal Cert.KernelIdeal.Gen Idealize.ShloMosaic Idealize.ShloMosaic.TcCoe Idealize.SL.Sem
open Idealize.ShloMosaic.ValueIdx
open Idealize.ShloMosaic.Pipeline (Dat)

open Cert.KArgs

variable (m : (ℓ : Loc nD τ sig) → Buf (Elt Ideal) ℓ) (ρ : Dev nD → PrngReg) (c : Dev nD)
  (src dst : Fin 160000 → Fin 10000)

/-! ## The grid and the windows' index maps

The grid is one axis of forty points. A per-edge window (windows 0 to 5, and the output window 17) is at block
`(t, 0)` at point `t`; a weight window (6 to 16) is at block `(0, 0)` or `(0)` at every point. -/

theorem t_lt (t : Fin cfg0.N) : t.val < 40 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx12 : ∀ t : Fin cfg0.N, win0_12.index t (0 : Fin 1) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)

/-! ## An input window's block at a point, read off its array

An element of a block sits in the array, on each axis, at the block index times the block's extent plus its own
coordinate. So row `r` of a per-edge block at point `t` is row `4000 t + r` of the array, and a weight block is the
whole array. -/

section Blocks
variable (V : (c : Dev nD) → (b : Ref sig .tc) → Buf (Elt Ideal) ((c : Thread nD τ).loc b))

theorem blk0 (t : Fin cfg0.N) (r : Fin 4000) (q : Fin 24) (h : 4000 * t.val + r.val < 160000) :
    (iblk0 V c 0 t : Vec Ideal S4000x24 .f32) (ix2 r q)
      = (V c main_v11 : Vec Ideal S160000x24 .f32) (ix2 ⟨4000 * t.val + r.val, h⟩ q) := by
  have hi := idx0 t
  unfold iblk0
  rw [View.read_apply]
  show V c main_v11 _ = V c main_v11 _
  congr 1
  funext a
  apply Fin.ext
  match a with
  | ⟨0, _⟩ => show win0_0.index t 0 * 4000 + 1 * r.val = 4000 * t.val + r.val; rw [hi.1]; omega
  | ⟨1, _⟩ => show win0_0.index t 1 * 24 + 1 * q.val = q.val; rw [hi.2]; omega

theorem blk1 (t : Fin cfg0.N) (r : Fin 4000) (q : Fin 24) (h : 4000 * t.val + r.val < 160000) :
    (iblk0 V c 1 t : Vec Ideal S4000x24 .f32) (ix2 r q)
      = (V c main_v13 : Vec Ideal S160000x24 .f32) (ix2 ⟨4000 * t.val + r.val, h⟩ q) := by
  have hi := idx1 t
  unfold iblk0
  rw [View.read_apply]
  show V c main_v13 _ = V c main_v13 _
  congr 1
  funext a
  apply Fin.ext
  match a with
  | ⟨0, _⟩ => show win0_1.index t 0 * 4000 + 1 * r.val = 4000 * t.val + r.val; rw [hi.1]; omega
  | ⟨1, _⟩ => show win0_1.index t 1 * 24 + 1 * q.val = q.val; rw [hi.2]; omega

theorem blk2 (t : Fin cfg0.N) (r : Fin 4000) (q : Fin 12) (h : 4000 * t.val + r.val < 160000) :
    (iblk0 V c 2 t : Vec Ideal S4000x12 .f32) (ix2 r q)
      = (V c main_v7 : Vec Ideal S160000x12 .f32) (ix2 ⟨4000 * t.val + r.val, h⟩ q) := by
  have hi := idx2 t
  unfold iblk0
  rw [View.read_apply]
  show V c main_v7 _ = V c main_v7 _
  congr 1
  funext a
  apply Fin.ext
  match a with
  | ⟨0, _⟩ => show win0_2.index t 0 * 4000 + 1 * r.val = 4000 * t.val + r.val; rw [hi.1]; omega
  | ⟨1, _⟩ => show win0_2.index t 1 * 12 + 1 * q.val = q.val; rw [hi.2]; omega

theorem blk3 (t : Fin cfg0.N) (r : Fin 4000) (q : Fin 128) (h : 4000 * t.val + r.val < 160000) :
    (iblk0 V c 3 t : Vec Ideal S4000x128 .f32) (ix2 r q)
      = (V c main_v12 : Vec Ideal S160000x128 .f32) (ix2 ⟨4000 * t.val + r.val, h⟩ q) := by
  have hi := idx3 t
  unfold iblk0
  rw [View.read_apply]
  show V c main_v12 _ = V c main_v12 _
  congr 1
  funext a
  apply Fin.ext
  match a with
  | ⟨0, _⟩ => show win0_3.index t 0 * 4000 + 1 * r.val = 4000 * t.val + r.val; rw [hi.1]; omega
  | ⟨1, _⟩ => show win0_3.index t 1 * 128 + 1 * q.val = q.val; rw [hi.2]; omega

theorem blk4 (t : Fin cfg0.N) (r : Fin 4000) (q : Fin 128) (h : 4000 * t.val + r.val < 160000) :
    (iblk0 V c 4 t : Vec Ideal S4000x128 .f32) (ix2 r q)
      = (V c main_v14 : Vec Ideal S160000x128 .f32) (ix2 ⟨4000 * t.val + r.val, h⟩ q) := by
  have hi := idx4 t
  unfold iblk0
  rw [View.read_apply]
  show V c main_v14 _ = V c main_v14 _
  congr 1
  funext a
  apply Fin.ext
  match a with
  | ⟨0, _⟩ => show win0_4.index t 0 * 4000 + 1 * r.val = 4000 * t.val + r.val; rw [hi.1]; omega
  | ⟨1, _⟩ => show win0_4.index t 1 * 128 + 1 * q.val = q.val; rw [hi.2]; omega

theorem blk5 (t : Fin cfg0.N) (r : Fin 4000) (q : Fin 16) (h : 4000 * t.val + r.val < 160000) :
    (iblk0 V c 5 t : Vec Ideal S4000x16 .f32) (ix2 r q)
      = (V c main_arg4 : Vec Ideal S160000x16 .f32) (ix2 ⟨4000 * t.val + r.val, h⟩ q) := by
  have hi := idx5 t
  unfold iblk0
  rw [View.read_apply]
  show V c main_arg4 _ = V c main_arg4 _
  congr 1
  funext a
  apply Fin.ext
  match a with
  | ⟨0, _⟩ => show win0_5.index t 0 * 4000 + 1 * r.val = 4000 * t.val + r.val; rw [hi.1]; omega
  | ⟨1, _⟩ => show win0_5.index t 1 * 16 + 1 * q.val = q.val; rw [hi.2]; omega

theorem blk6 (t : Fin cfg0.N) : (iblk0 V c 6 t : Vec Ideal S400x128 .bf16) = V c main_v16 := by
  have hi := idx6 t
  funext y
  unfold iblk0
  rw [View.read_apply]
  show V c main_v16 _ = V c main_v16 y
  congr 1
  funext a
  apply Fin.ext
  match a with
  | ⟨0, _⟩ => show win0_6.index t 0 * 400 + 1 * (y 0).val = (y 0).val; rw [hi.1]; omega
  | ⟨1, _⟩ => show win0_6.index t 1 * 128 + 1 * (y 1).val = (y 1).val; rw [hi.2]; omega

theorem blk7 (t : Fin cfg0.N) : (iblk0 V c 7 t : Vec Ideal S128x128 .bf16) = V c main_v18 := by
  have hi := idx7 t
  funext y
  unfold iblk0
  rw [View.read_apply]
  show V c main_v18 _ = V c main_v18 y
  congr 1
  funext a
  apply Fin.ext
  match a with
  | ⟨0, _⟩ => show win0_7.index t 0 * 128 + 1 * (y 0).val = (y 0).val; rw [hi.1]; omega
  | ⟨1, _⟩ => show win0_7.index t 1 * 128 + 1 * (y 1).val = (y 1).val; rw [hi.2]; omega

theorem blk8 (t : Fin cfg0.N) : (iblk0 V c 8 t : Vec Ideal S128x128 .bf16) = V c main_v20 := by
  have hi := idx8 t
  funext y
  unfold iblk0
  rw [View.read_apply]
  show V c main_v20 _ = V c main_v20 y
  congr 1
  funext a
  apply Fin.ext
  match a with
  | ⟨0, _⟩ => show win0_8.index t 0 * 128 + 1 * (y 0).val = (y 0).val; rw [hi.1]; omega
  | ⟨1, _⟩ => show win0_8.index t 1 * 128 + 1 * (y 1).val = (y 1).val; rw [hi.2]; omega

theorem blk9 (t : Fin cfg0.N) : (iblk0 V c 9 t : Vec Ideal S16x128 .bf16) = V c main_v22 := by
  have hi := idx9 t
  funext y
  unfold iblk0
  rw [View.read_apply]
  show V c main_v22 _ = V c main_v22 y
  congr 1
  funext a
  apply Fin.ext
  match a with
  | ⟨0, _⟩ => show win0_9.index t 0 * 16 + 1 * (y 0).val = (y 0).val; rw [hi.1]; omega
  | ⟨1, _⟩ => show win0_9.index t 1 * 128 + 1 * (y 1).val = (y 1).val; rw [hi.2]; omega

theorem blk11 (t : Fin cfg0.N) : (iblk0 V c 11 t : Vec Ideal S128x128 .bf16) = V c main_v23 := by
  have hi := idx11 t
  funext y
  unfold iblk0
  rw [View.read_apply]
  show V c main_v23 _ = V c main_v23 y
  congr 1
  funext a
  apply Fin.ext
  match a with
  | ⟨0, _⟩ => show win0_11.index t 0 * 128 + 1 * (y 0).val = (y 0).val; rw [hi.1]; omega
  | ⟨1, _⟩ => show win0_11.index t 1 * 128 + 1 * (y 1).val = (y 1).val; rw [hi.2]; omega

theorem blk13 (t : Fin cfg0.N) : (iblk0 V c 13 t : Vec Ideal S128x160 .bf16) = V c main_v25 := by
  have hi := idx13 t
  funext y
  unfold iblk0
  rw [View.read_apply]
  show V c main_v25 _ = V c main_v25 y
  congr 1
  funext a
  apply Fin.ext
  match a with
  | ⟨0, _⟩ => show win0_13.index t 0 * 128 + 1 * (y 0).val = (y 0).val; rw [hi.1]; omega
  | ⟨1, _⟩ => show win0_13.index t 1 * 160 + 1 * (y 1).val = (y 1).val; rw [hi.2]; omega

theorem blk14 (t : Fin cfg0.N) : (iblk0 V c 14 t : Vec Ideal S128x128 .bf16) = V c main_v27 := by
  have hi := idx14 t
  funext y
  unfold iblk0
  rw [View.read_apply]
  show V c main_v27 _ = V c main_v27 y
  congr 1
  funext a
  apply Fin.ext
  match a with
  | ⟨0, _⟩ => show win0_14.index t 0 * 128 + 1 * (y 0).val = (y 0).val; rw [hi.1]; omega
  | ⟨1, _⟩ => show win0_14.index t 1 * 128 + 1 * (y 1).val = (y 1).val; rw [hi.2]; omega

theorem blk10 (t : Fin cfg0.N) : (iblk0 V c 10 t : Vec Ideal S128 .f32) = V c main_arg6 := by
  have hi := idx10 t
  funext y
  unfold iblk0
  rw [View.read_apply]
  show V c main_arg6 _ = V c main_arg6 y
  congr 1
  funext a
  apply Fin.ext
  match a with
  | ⟨0, _⟩ => show win0_10.index t 0 * 128 + 1 * (y 0).val = (y 0).val; rw [hi]; omega

theorem blk12 (t : Fin cfg0.N) : (iblk0 V c 12 t : Vec Ideal S128 .f32) = V c main_arg8 := by
  have hi := idx12 t
  funext y
  unfold iblk0
  rw [View.read_apply]
  show V c main_arg8 _ = V c main_arg8 y
  congr 1
  funext a
  apply Fin.ext
  match a with
  | ⟨0, _⟩ => show win0_12.index t 0 * 128 + 1 * (y 0).val = (y 0).val; rw [hi]; omega

theorem blk15 (t : Fin cfg0.N) : (iblk0 V c 15 t : Vec Ideal S160 .f32) = V c main_v28 := by
  have hi := idx15 t
  funext y
  unfold iblk0
  rw [View.read_apply]
  show V c main_v28 _ = V c main_v28 y
  congr 1
  funext a
  apply Fin.ext
  match a with
  | ⟨0, _⟩ => show win0_15.index t 0 * 160 + 1 * (y 0).val = (y 0).val; rw [hi]; omega

theorem blk16 (t : Fin cfg0.N) : (iblk0 V c 16 t : Vec Ideal S128 .f32) = V c main_v29 := by
  have hi := idx16 t
  funext y
  unfold iblk0
  rw [View.read_apply]
  show V c main_v29 _ = V c main_v29 y
  congr 1
  funext a
  apply Fin.ext
  match a with
  | ⟨0, _⟩ => show win0_16.index t 0 * 128 + 1 * (y 0).val = (y 0).val; rw [hi]; omega

end Blocks

/-! ## One row of the stored block -/

/-- The packed row of edge `e`: its equivariant message (24 numbers, row-major), then its scalar message. -/
def row (e : Fin 160000) (j : Fin 152) : EReal :=
  if h : j.val < 24 then msgF m c src dst e ⟨j.val / 8, by omega⟩ ⟨j.val % 8, by omega⟩
  else msgS m c src dst e ⟨j.val - 24, by omega⟩

/-- The array whose row `e` is the packed row of edge `e`. -/
def msgArr : Vec Ideal S160000x152 .f32 := fun i => row m c src dst (i 0) (i 1)

/-- ROW `r` OF THE STORED BLOCK, when row `r` of the six per-edge blocks holds edge `e`'s data and the weight blocks
    hold the row and column ranges of the weight arguments: the body's row is the packed message in four partial sums
    and two column blocks, which is the edge function of the specification (a finite sum cut into stretches). -/
theorem row_of_blocks (x0 x1 : Vec Ideal S4000x24 .f32) (x2 : Vec Ideal S4000x12 .f32) (x3 x4 : Vec Ideal S4000x128 .f32)
    (x5 : Vec Ideal S4000x16 .f32) (x6 : Vec Ideal S400x128 .bf16) (x7 x8 : Vec Ideal S128x128 .bf16)
    (x9 : Vec Ideal S16x128 .bf16) (x10 : Vec Ideal S128 .f32) (x11 : Vec Ideal S128x128 .bf16) (x12 : Vec Ideal S128 .f32)
    (x13 : Vec Ideal S128x160 .bf16) (x14 : Vec Ideal S128x128 .bf16) (x15 : Vec Ideal S160 .f32) (x16 : Vec Ideal S128 .f32)
    (r : Fin 4000) (e : Fin 160000)
    (h0 : ∀ (i : Fin 3) (k : Fin 8), x0 (ix2 r ⟨8 * i.val + k.val, by omega⟩) = A m c main_arg0 (ix3 (src e) i k))
    (h1 : ∀ (i : Fin 3) (k : Fin 8), x1 (ix2 r ⟨8 * i.val + k.val, by omega⟩) = A m c main_arg0 (ix3 (dst e) i k))
    (h2 : ∀ (i : Fin 3) (k : Fin 4), x2 (ix2 r ⟨4 * i.val + k.val, by omega⟩) = A m c main_arg3 (ix3 e i k))
    (h3 : ∀ q : Fin 128, x3 (ix2 r q) = A m c main_arg1 (ix2 (src e) q))
    (h4 : ∀ q : Fin 128, x4 (ix2 r q) = A m c main_arg1 (ix2 (dst e) q))
    (h5 : ∀ q : Fin 16, x5 (ix2 r q) = A m c main_arg4 (ix2 e q))
    (h6 : ∀ (q : Fin 400) (j : Fin 128), x6 (ix2 q j) = A m c main_arg5 (ix2 ⟨q.val, by omega⟩ j))
    (h7 : ∀ (q : Fin 128) (j : Fin 128), x7 (ix2 q j) = A m c main_arg5 (ix2 ⟨400 + q.val, by omega⟩ j))
    (h8 : ∀ (q : Fin 128) (j : Fin 128), x8 (ix2 q j) = A m c main_arg5 (ix2 ⟨528 + q.val, by omega⟩ j))
    (h9 : ∀ (q : Fin 16) (j : Fin 128), x9 (ix2 q j) = A m c main_arg5 (ix2 ⟨656 + q.val, by omega⟩ j))
    (h10 : ∀ j : Fin 128, x10 (ix1 j) = A m c main_arg6 (ix1 j))
    (h11 : ∀ q j : Fin 128, x11 (ix2 q j) = A m c main_arg7 (ix2 q j))
    (h12 : ∀ j : Fin 128, x12 (ix1 j) = A m c main_arg8 (ix1 j))
    (h13 : ∀ (q : Fin 128) (j : Fin 160), x13 (ix2 q j) = A m c main_arg9 (ix2 q ⟨j.val, by omega⟩))
    (h14 : ∀ (q : Fin 128) (j : Fin 128), x14 (ix2 q j) = A m c main_arg9 (ix2 q ⟨160 + j.val, by omega⟩))
    (h15 : ∀ j : Fin 160, x15 (ix1 j) = A m c main_arg10 (ix1 ⟨j.val, by omega⟩))
    (h16 : ∀ j : Fin 128, x16 (ix1 j) = A m c main_arg10 (ix1 ⟨160 + j.val, by omega⟩))
    (j : Fin 152) :
    out0_17 (F := Ideal) x0 x1 x2 x3 x4 x5 x6 x7 x8 x9 x10 x11 x12 x13 x14 x15 x16 (ix2 r j) = row m c src dst e j := by
  rw [Cert.KEdge.out_apply]
  simp only [h0, h1, h2, h3, h4, h5, h6, h7, h8, h9, h10, h11, h12, h13, h14, h15, h16]
  exact Cert.Spec.partsMsg_eq _ _ _ _ _ _ (fun q j => A m c main_arg5 (ix2 q j)) (fun j => A m c main_arg6 (ix1 j))
    (fun q j => A m c main_arg7 (ix2 q j)) (fun j => A m c main_arg8 (ix1 j)) (fun q j => A m c main_arg9 (ix2 q j))
    (fun j => A m c main_arg10 (ix1 j)) j

/-! ## From the blocks to the array -/

/-- An index of the array is in point `t`'s block iff each coordinate is in the block's range on its axis. -/
theorem mem_blk (t : Fin cfg0.N) (i : S160000x152.Idx) :
    i ∈ ((cfg0.win 17).blk t).view.set ↔ ∀ a : Fin 2, win0_17.index t a * S4000x152.size a ≤ (i a).val ∧ (i a).val < win0_17.index t a * S4000x152.size a + S4000x152.size a := by
  show i ∈ ((View.whole main_v30).slice (win0_17.rect t)).set ↔ _
  rw [View.set_slice_whole, Rect.mem_set_unit]
  exact Iff.rfl

/-- THE BLOCKS TILE THE ARRAY: row `e` lies in the block of point `e / 4000`, and every point writes its block back. -/
theorem cover (i : S160000x152.Idx) :
    ∃ t : Fin cfg0.N, (cfg0.win 17).flush t = true ∧ i ∈ ((cfg0.win 17).blk t).view.set := by
  have hi0 : (i 0).val < 160000 := (i 0).isLt
  have hi1 : (i 1).val < 152 := (i 1).isLt
  have hN : (i 0).val / 4000 < cfg0.N := by rw [show cfg0.N = 40 from N_0]; omega
  refine ⟨⟨(i 0).val / 4000, hN⟩, flush0_17 _, ?_⟩
  rw [mem_blk]
  obtain ⟨e0, e1⟩ := idx17 ⟨(i 0).val / 4000, hN⟩
  intro a
  match a with
  | ⟨0, _⟩ =>
    show win0_17.index ⟨(i 0).val / 4000, hN⟩ (0 : Fin 2) * 4000 ≤ (i 0).val
      ∧ (i 0).val < win0_17.index ⟨(i 0).val / 4000, hN⟩ (0 : Fin 2) * 4000 + 4000
    rw [e0]
    show (i 0).val / 4000 * 4000 ≤ (i 0).val ∧ (i 0).val < (i 0).val / 4000 * 4000 + 4000
    omega
  | ⟨1, _⟩ =>
    show win0_17.index ⟨(i 0).val / 4000, hN⟩ (1 : Fin 2) * 152 ≤ (i 1).val
      ∧ (i 1).val < win0_17.index ⟨(i 0).val / 4000, hN⟩ (1 : Fin 2) * 152 + 152
    rw [e1]
    omega

/-- WHAT POINT `t` WRITES BACK is block `t` of the array of packed rows: element `(r, j)` of the block sits at row
    `4000 t + r` of the array; row `r` of each per-edge input block is row `4000 t + r` of its array, which the host
    program before the region filled with that edge's data; each weight block is its whole array. -/
theorem flushed_eq (hsrc : SrcOk m c src) (hdst : DstOk m c dst) (t : Fin cfg0.N) :
    (dat0 (V8 m ρ) c).flushed 17 t = ((cfg0.win 17).blk t).view.read (Elt Ideal) (msgArr m c src dst) := by
  show (cfg0.win 17).cut (grid0.coords t) ((dat0 (V8 m ρ) c).after 17 t) = _
  rw [after0_17]
  funext y
  obtain ⟨r, j, rfl⟩ : ∃ (r : Fin 4000) (j : Fin 152), y = ix2 r j := ⟨y 0, y 1, eq_ix2 y⟩
  have ht := t_lt t
  have hr : 4000 * t.val + r.val < 160000 := by have := r.isLt; omega
  show out0_17 (F := Ideal) (iblk0 (V8 m ρ) c 0 t) (iblk0 (V8 m ρ) c 1 t) (iblk0 (V8 m ρ) c 2 t) (iblk0 (V8 m ρ) c 3 t) (iblk0 (V8 m ρ) c 4 t) (iblk0 (V8 m ρ) c 5 t) (iblk0 (V8 m ρ) c 6 t) (iblk0 (V8 m ρ) c 7 t) (iblk0 (V8 m ρ) c 8 t) (iblk0 (V8 m ρ) c 9 t) (iblk0 (V8 m ρ) c 10 t) (iblk0 (V8 m ρ) c 11 t) (iblk0 (V8 m ρ) c 12 t) (iblk0 (V8 m ρ) c 13 t) (iblk0 (V8 m ρ) c 14 t) (iblk0 (V8 m ρ) c 15 t) (iblk0 (V8 m ρ) c 16 t) (ix2 r j)
    = msgArr m c src dst (((cfg0.win 17).blk t).view.emb (ix2 r j))
  have hemb : ((cfg0.win 17).blk t).view.emb (ix2 r j) = (ix2 ⟨4000 * t.val + r.val, hr⟩ j : S160000x152.Idx) := by
    obtain ⟨e0, e1⟩ := idx17 t
    funext a
    apply Fin.ext
    match a with
    | ⟨0, _⟩ => show win0_17.index t 0 * 4000 + 1 * r.val = 4000 * t.val + r.val; rw [e0]; omega
    | ⟨1, _⟩ => show win0_17.index t 1 * 152 + 1 * j.val = j.val; rw [e1]; omega
  rw [hemb]
  show _ = row m c src dst ⟨4000 * t.val + r.val, hr⟩ j
  exact row_of_blocks m c src dst (iblk0 (V8 m ρ) c 0 t) (iblk0 (V8 m ρ) c 1 t) (iblk0 (V8 m ρ) c 2 t) (iblk0 (V8 m ρ) c 3 t) (iblk0 (V8 m ρ) c 4 t) (iblk0 (V8 m ρ) c 5 t) (iblk0 (V8 m ρ) c 6 t) (iblk0 (V8 m ρ) c 7 t) (iblk0 (V8 m ρ) c 8 t) (iblk0 (V8 m ρ) c 9 t) (iblk0 (V8 m ρ) c 10 t) (iblk0 (V8 m ρ) c 11 t) (iblk0 (V8 m ρ) c 12 t) (iblk0 (V8 m ρ) c 13 t) (iblk0 (V8 m ρ) c 14 t) (iblk0 (V8 m ρ) c 15 t) (iblk0 (V8 m ρ) c 16 t) r ⟨4000 * t.val + r.val, hr⟩
    (fun i k => (blk0 c (V8 m ρ) t r ⟨8 * i.val + k.val, by omega⟩ hr).trans (Cert.KHost0.v11 m ρ c src hsrc ⟨4000 * t.val + r.val, hr⟩ i k))
    (fun i k => (blk1 c (V8 m ρ) t r ⟨8 * i.val + k.val, by omega⟩ hr).trans (Cert.KHost0.v13 m ρ c dst hdst ⟨4000 * t.val + r.val, hr⟩ i k))
    (fun i k => (blk2 c (V8 m ρ) t r ⟨4 * i.val + k.val, by omega⟩ hr).trans (Cert.KHost0.v7 m ρ c ⟨4000 * t.val + r.val, hr⟩ i k))
    (fun q => (blk3 c (V8 m ρ) t r q hr).trans (Cert.KHost0.v12 m ρ c src hsrc ⟨4000 * t.val + r.val, hr⟩ q))
    (fun q => (blk4 c (V8 m ρ) t r q hr).trans (Cert.KHost0.v14 m ρ c dst hdst ⟨4000 * t.val + r.val, hr⟩ q))
    (fun q => (blk5 c (V8 m ρ) t r q hr).trans (congrFun (Cert.KHost0.arg4 m ρ c) (ix2 ⟨4000 * t.val + r.val, hr⟩ q)))
    (fun q j => (congrFun (blk6 c (V8 m ρ) t) (ix2 q j)).trans (Cert.KHost0.v16 m ρ c q j))
    (fun q j => (congrFun (blk7 c (V8 m ρ) t) (ix2 q j)).trans (Cert.KHost0.v18 m ρ c q j))
    (fun q j => (congrFun (blk8 c (V8 m ρ) t) (ix2 q j)).trans (Cert.KHost0.v20 m ρ c q j))
    (fun q j => (congrFun (blk9 c (V8 m ρ) t) (ix2 q j)).trans (Cert.KHost0.v22 m ρ c q j))
    (fun j => (congrFun (blk10 c (V8 m ρ) t) (ix1 j)).trans (congrFun (Cert.KHost0.arg6 m ρ c) (ix1 j)))
    (fun q j => (congrFun (blk11 c (V8 m ρ) t) (ix2 q j)).trans (Cert.KHost0.v23 m ρ c q j))
    (fun j => (congrFun (blk12 c (V8 m ρ) t) (ix1 j)).trans (congrFun (Cert.KHost0.arg8 m ρ c) (ix1 j)))
    (fun q j => (congrFun (blk13 c (V8 m ρ) t) (ix2 q j)).trans (Cert.KHost0.v25 m ρ c q j))
    (fun q j => (congrFun (blk14 c (V8 m ρ) t) (ix2 q j)).trans (Cert.KHost0.v27 m ρ c q j))
    (fun j => (congrFun (blk15 c (V8 m ρ) t) (ix1 j)).trans (Cert.KHost0.v28 m ρ c j))
    (fun j => (congrFun (blk16 c (V8 m ρ) t) (ix1 j)).trans (Cert.KHost0.v29 m ρ c j))
    j

/-- THE ARRAY THE REGION LEAVES is the array of packed rows: every point writes its block of it, and the blocks cover it. -/
theorem final (hsrc : SrcOk m c src) (hdst : DstOk m c dst) :
    (dat0 (V8 m ρ) c).arrAt 17 cfg0.N = msgArr m c src dst :=
  (dat0 (V8 m ρ) c).arrAt_eq_of_cover 17 (msgArr m c src dst) (fun t _ => flushed_eq m ρ c src dst hsrc hdst t) cover

/-- THE MESSAGE ARRAY AFTER THE FIRST REGION, at row `e` and column `j`. -/
theorem msg_apply (hsrc : SrcOk m c src) (hdst : DstOk m c dst) (e : Fin 160000) (j : Fin 152) :
    W9 (F := Ideal) m ρ c (Proc.devRef .tc main_v30) (ix2 e j)
      = if h : j.val < 24 then msgF m c src dst e ⟨j.val / 8, by omega⟩ ⟨j.val % 8, by omega⟩
        else msgS m c src dst e ⟨j.val - 24, by omega⟩ := by
  -- the output window's array is the buffer the statement reads
  have h17 : W9 (F := Ideal) m ρ c (Proc.devRef .tc main_v30) = (dat0 (V8 m ρ) c).arrAt 17 cfg0.N := W9_arr m ρ c 17
  rw [h17, final m ρ c src dst hsrc hdst]
  rfl

end Cert.KMsg

end
-- ==== Proof.KHost1.lean ====
/-
  The arrays the node kernel's windows stage, as the second region finds them.

  Between the regions the host program adds the message rows into their source nodes (a scatter-add into zeros by
  the clamped source indices: at the ideal instance the exact sum over the edges whose index is that node), counts
  each node's edges the same way (a scatter-add of ones), divides every row by the larger of its count and one, and
  cuts the quotient into its 24 spatial and 128 scalar columns: the averaged messages of Spec.lean. The node's own
  spatial rows are the first argument flattened to 24 columns; the node weights change float format (the identity at
  the ideal instance). Nothing the first region or this stretch writes is an argument.
-/
import proofs.«408349_j8770323218950_3_alg».proof.Proof.KArgs
import proofs.«408349_j8770323218950_3_alg».proof.Proof.KHost0
import proofs.«408349_j8770323218950_3_alg».proof.Proof.KMsg
import proofs.«408349_j8770323218950_3_alg».proof.Proof.LibIndex
import proofs.«408349_j8770323218950_3_alg».proof.Proof.LibKeepdims

set_option maxRecDepth 16384

noncomputable section

namespace Cert.KHost1

open Cert.KernelIdeal Cert.KernelIdeal.Gen Idealize.ShloMosaic Idealize.ShloMosaic.TcCoe Idealize.SL.Sem
open Idealize.ShloMosaic.ValueIdx

open Cert.KArgs

variable (m : (ℓ : Loc nD τ sig) → Buf (Elt Ideal) ℓ) (ρ : Dev nD → PrngReg) (c : Dev nD)
  (src dst : Fin 160000 → Fin 10000)

/-! ## Buffers that pass through the stretches and the first region unwritten -/

/-- No operation of a literal stretch writes the buffer: each operation writes its one result, another reference. -/
local macro "unwritten" : tactic =>
  `(tactic| exact List.forall_iff_forall_mem.mp (by
      simp only [hostOps0, hostOps0_1, hostOps0_2, hostOps0_3, hostOps0_4, hostOps0_5, hostOps0_6, hostOps0_7, hostOps1,
        List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- A buffer that none of the first four stretches writes holds, after them, what it held at launch. -/
theorem launch_W4 (b : Ref sig .tc)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes)
    (h3 : ∀ op ∈ (hostOps0_3 : List (HloOp τ sig (Elt Ideal))), (Proc.devRef .tc b : DevRef τ sig) ∉ op.writes) :
    W4 (F := Ideal) m ρ c (Proc.devRef .tc b) = A m c b :=
  calc W4 (F := Ideal) m ρ c (Proc.devRef .tc b)
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = A m c b := rfl

/-- A buffer that none of the four stretches before the first region's entry writes enters the region as the fourth
    stretch found it. -/
theorem W8_eq_W4 (b : Ref sig .tc)
    (h4 : ∀ op ∈ (hostOps0_4 : List (HloOp τ sig (Elt Ideal))), (Proc.devRef .tc b : DevRef τ sig) ∉ op.writes)
    (h5 : ∀ op ∈ (hostOps0_5 : List (HloOp τ sig (Elt Ideal))), (Proc.devRef .tc b : DevRef τ sig) ∉ op.writes)
    (h6 : ∀ op ∈ (hostOps0_6 : List (HloOp τ sig (Elt Ideal))), (Proc.devRef .tc b : DevRef τ sig) ∉ op.writes)
    (h7 : ∀ op ∈ (hostOps0_7 : List (HloOp τ sig (Elt Ideal))), (Proc.devRef .tc b : DevRef τ sig) ∉ op.writes) :
    W8 (F := Ideal) m ρ c (Proc.devRef .tc b) = W4 (F := Ideal) m ρ c (Proc.devRef .tc b) :=
  calc W8 (F := Ideal) m ρ c (Proc.devRef .tc b)
    _ = W7 m ρ c (Proc.devRef .tc b) := StableHlo.after_of_forall_not_mem _ _ h7
    _ = W6 m ρ c (Proc.devRef .tc b) := StableHlo.after_of_forall_not_mem _ _ h6
    _ = W5 m ρ c (Proc.devRef .tc b) := StableHlo.after_of_forall_not_mem _ _ h5
    _ = W4 m ρ c (Proc.devRef .tc b) := StableHlo.after_of_forall_not_mem _ _ h4

/-- A buffer that the first region does not stage and the stretch after it does not write enters the second region
    as it entered the first. -/
theorem W10_eq_W8 (b : Ref sig .tc) (hw : ∀ w, Pipeline.arrRef spec0 w ≠ b)
    (h : ∀ op ∈ (hostOps1 : List (HloOp τ sig (Elt Ideal))), (Proc.devRef .tc b : DevRef τ sig) ∉ op.writes) :
    W10 (F := Ideal) m ρ c (Proc.devRef .tc b) = W8 (F := Ideal) m ρ c (Proc.devRef .tc b) :=
  (StableHlo.after_of_forall_not_mem _ _ h).trans (W9_of_ne m ρ c b hw)

theorem W8_arg1 : W8 (F := Ideal) m ρ c (Proc.devRef .tc main_arg1) = A m c main_arg1 :=
  (W8_eq_W4 m ρ c main_arg1 (by unwritten) (by unwritten) (by unwritten) (by unwritten)).trans
    (launch_W4 m ρ c main_arg1 (by unwritten) (by unwritten) (by unwritten) (by unwritten))
theorem W8_arg11 : W8 (F := Ideal) m ρ c (Proc.devRef .tc main_arg11) = A m c main_arg11 :=
  (W8_eq_W4 m ρ c main_arg11 (by unwritten) (by unwritten) (by unwritten) (by unwritten)).trans
    (launch_W4 m ρ c main_arg11 (by unwritten) (by unwritten) (by unwritten) (by unwritten))
theorem W8_arg12 : W8 (F := Ideal) m ρ c (Proc.devRef .tc main_arg12) = A m c main_arg12 :=
  (W8_eq_W4 m ρ c main_arg12 (by unwritten) (by unwritten) (by unwritten) (by unwritten)).trans
    (launch_W4 m ρ c main_arg12 (by unwritten) (by unwritten) (by unwritten) (by unwritten))
theorem W8_arg13 : W8 (F := Ideal) m ρ c (Proc.devRef .tc main_arg13) = A m c main_arg13 :=
  (W8_eq_W4 m ρ c main_arg13 (by unwritten) (by unwritten) (by unwritten) (by unwritten)).trans
    (launch_W4 m ρ c main_arg13 (by unwritten) (by unwritten) (by unwritten) (by unwritten))
theorem W8_arg14 : W8 (F := Ideal) m ρ c (Proc.devRef .tc main_arg14) = A m c main_arg14 :=
  (W8_eq_W4 m ρ c main_arg14 (by unwritten) (by unwritten) (by unwritten) (by unwritten)).trans
    (launch_W4 m ρ c main_arg14 (by unwritten) (by unwritten) (by unwritten) (by unwritten))
theorem W8_arg15 : W8 (F := Ideal) m ρ c (Proc.devRef .tc main_arg15) = A m c main_arg15 :=
  (W8_eq_W4 m ρ c main_arg15 (by unwritten) (by unwritten) (by unwritten) (by unwritten)).trans
    (launch_W4 m ρ c main_arg15 (by unwritten) (by unwritten) (by unwritten) (by unwritten))
theorem W8_arg16 : W8 (F := Ideal) m ρ c (Proc.devRef .tc main_arg16) = A m c main_arg16 :=
  (W8_eq_W4 m ρ c main_arg16 (by unwritten) (by unwritten) (by unwritten) (by unwritten)).trans
    (launch_W4 m ρ c main_arg16 (by unwritten) (by unwritten) (by unwritten) (by unwritten))

/-! ## The node's spatial rows, flattened before the first region -/

/-- The stretch between the regions does not write the flattened rows. -/
theorem W10_v6 : W10 (F := Ideal) m ρ c (Proc.devRef .tc main_v6) = W9 m ρ c (Proc.devRef .tc main_v6) := by
  show StableHlo.after hostOps1 (W9 m ρ c) (Proc.devRef .tc main_v6) = _
  after_results

/-- The three stretches after the flattening do not write the flattened rows. -/
theorem W8_v6 : W8 (F := Ideal) m ρ c (Proc.devRef .tc main_v6) = W7 m ρ c (Proc.devRef .tc main_v6) := by
  show StableHlo.after hostOps0_7 (W7 m ρ c) (Proc.devRef .tc main_v6) = _
  after_results
theorem W7_v6 : W7 (F := Ideal) m ρ c (Proc.devRef .tc main_v6) = W6 m ρ c (Proc.devRef .tc main_v6) := by
  show StableHlo.after hostOps0_6 (W6 m ρ c) (Proc.devRef .tc main_v6) = _
  after_results
theorem W6_v6 : W6 (F := Ideal) m ρ c (Proc.devRef .tc main_v6) = W5 m ρ c (Proc.devRef .tc main_v6) := by
  show StableHlo.after hostOps0_5 (W5 m ρ c) (Proc.devRef .tc main_v6) = _
  after_results

/-- The flattening is a reshape of the first argument, which is still as launched: none of the four stretches
    before it writes an argument. -/
theorem W5_v6 : W5 (F := Ideal) m ρ c (Proc.devRef .tc main_v6)
    = fun j => shapeCast S10000x24 (A m c main_arg0) shapeCasts_S10000x3x8_S10000x24 j := by
  show StableHlo.after hostOps0_4 (W4 m ρ c) (Proc.devRef .tc main_v6) = _
  after_results
  rfl

/-! ## The scatter-mean of the host program, over a variable index vector and update matrix -/

section Mean
variable (idx : IVec ⟨1, ![160000]⟩ 32) (upd : FVec Ideal ⟨2, ![160000, 152]⟩ .f32)

/-- The index vector as a column reads, in row `e`, the vector's entry `e`. -/
theorem idx_col (e : Fin 160000) :
    broadcastInDim S160000x1 ![0] bcast_S160000_S160000x1_0 idx (ix2 e (0 : Fin 1)) = idx (ix1 e) :=
  broadcastInDim_apply _ _ idx _ _ (fun a => by
    match a with
    | ⟨0, _⟩ => rfl)

/-- Adding the update rows into zeros by indices that name the nodes `src e` is the sum, started from the zero
    word, over the edges whose source is the row. -/
theorem scatter_rows (hidx : ∀ e : Fin 160000, (idx (ix1 e)).toInt = ((src e).val : Int)) (n : Fin 10000) (j : Fin 152) :
    Host.scatterAdd (F := Ideal) scatter_S10000x152_S160000x1_S160000x152_1_0_0_1
        (broadcastInDim S10000x152 ![] bcast_S_S10000x152 (constant (F := Ideal) S_ .f32 0x00000000#32))
        (broadcastInDim S160000x1 ![0] bcast_S160000_S160000x1_0 idx) upd (ix2 n j)
      = Cert.Spec.segSum src (fun e => upd (ix2 e j)) n := by
  refine (Cert.LibIndex.scatterAdd_row_apply_of _ rfl rfl rfl rfl _ _ _ n j).trans ?_
  unfold Cert.Spec.segSum
  refine congrArg₂ (· + ·) rfl (Finset.sum_congr rfl fun e _ => ?_)
  rw [idx_col idx e, hidx e]
  exact if_congr (by rw [Nat.cast_inj, Fin.val_inj]) rfl rfl

/-- Adding ones into zeros the same way counts the edges whose source is the node. -/
theorem scatter_ones (hidx : ∀ e : Fin 160000, (idx (ix1 e)).toInt = ((src e).val : Int)) (n : Fin 10000) :
    Host.scatterAdd (F := Ideal) scatter_S10000_S160000x1_S160000_n_0_0_1
        (broadcastInDim S10000 ![] bcast_S_S10000 (constant (F := Ideal) S_ .f32 0x00000000#32))
        (broadcastInDim S160000x1 ![0] bcast_S160000_S160000x1_0 idx)
        (broadcastInDim S160000 ![] bcast_S_S160000 (constant (F := Ideal) S_ .f32 0x3F800000#32)) (ix1 n)
      = Cert.Spec.segCnt src n := by
  refine (Cert.LibIndex.scatterAdd_vec_apply_of _ rfl rfl rfl rfl _ _ _ n).trans ?_
  unfold Cert.Spec.segCnt Cert.Spec.segSum
  refine congrArg₂ (· + ·) rfl (Finset.sum_congr rfl fun e _ => ?_)
  rw [idx_col idx e, hidx e]
  exact if_congr (by rw [Nat.cast_inj, Fin.val_inj]) rfl rfl

end Mean

/-- The host quotient at an index is the quotient of the elements. -/
theorem hostDivf_apply {s : Shape} {φ : FTy} (a b : FVec Ideal s φ) (i : s.Idx) :
    Host.divf (F := Ideal) a b i = Ideal.div (a i) (b i) := rfl

section Mean2
variable (idx : IVec ⟨1, ![160000]⟩ 32) (upd : FVec Ideal ⟨2, ![160000, 152]⟩ .f32)

/-- The quotient of the row sums by the larger of the count and one, spread over the columns, is the average. -/
theorem mean_rows (hidx : ∀ e : Fin 160000, (idx (ix1 e)).toInt = ((src e).val : Int)) (n : Fin 10000) (j : Fin 152) :
    Host.divf (F := Ideal)
        (Host.scatterAdd (F := Ideal) scatter_S10000x152_S160000x1_S160000x152_1_0_0_1
          (broadcastInDim S10000x152 ![] bcast_S_S10000x152 (constant (F := Ideal) S_ .f32 0x00000000#32))
          (broadcastInDim S160000x1 ![0] bcast_S160000_S160000x1_0 idx) upd)
        (broadcastInDim S10000x152 ![0, 1] bcast_S10000x1_S10000x152_0_1
          (shapeCast S10000x1
            (maximumf
              (Host.scatterAdd (F := Ideal) scatter_S10000_S160000x1_S160000_n_0_0_1
                (broadcastInDim S10000 ![] bcast_S_S10000 (constant (F := Ideal) S_ .f32 0x00000000#32))
                (broadcastInDim S160000x1 ![0] bcast_S160000_S160000x1_0 idx)
                (broadcastInDim S160000 ![] bcast_S_S160000 (constant (F := Ideal) S_ .f32 0x3F800000#32)))
              (broadcastInDim S10000 ![] bcast_S_S10000 (constant (F := Ideal) S_ .f32 0x3F800000#32)))
            shapeCasts_S10000_S10000x1))
        (ix2 n j)
      = Cert.Spec.segMean src (fun e => upd (ix2 e j)) n := by
  refine (hostDivf_apply _ _ _).trans ?_
  unfold Cert.Spec.segMean
  refine congrArg₂ Ideal.div (scatter_rows src idx upd hidx n j) ?_
  refine (broadcastInDim_apply _ _ _ (ix2 n j) (ix2 n (0 : Fin 1)) (fun a => by
    match a with
    | ⟨0, _⟩ => rfl
    | ⟨1, _⟩ => rfl)).trans ?_
  refine (shapeCast_a_a1_apply _ _ n 0).trans ?_
  refine (maximumf_apply _ _ _).trans ?_
  exact congrArg₂ max (scatter_ones src idx hidx n) rfl

end Mean2

/-- The clamped source indices still name the nodes after the first region, which does not stage them. -/
theorem v2_after (hsrc : SrcOk m c src) (e : Fin 160000) :
    (W9 (F := Ideal) m ρ c (Proc.devRef .tc main_v2) (ix1 e)).toInt = ((src e).val : Int) := by
  rw [W9_of_ne m ρ c main_v2 (by decide)]
  exact Cert.KHost0.v2 m ρ c src hsrc e

/-- Column `8 i + k` of the message array is the equivariant message's entry `(i, k)`. -/
theorem msg_spatial (hsrc : SrcOk m c src) (hdst : DstOk m c dst) (e : Fin 160000) (i : Fin 3) (k : Fin 8) :
    W9 (F := Ideal) m ρ c (Proc.devRef .tc main_v30) (ix2 e ⟨8 * i.val + k.val, by omega⟩) = msgF m c src dst e i k := by
  refine (Cert.KMsg.msg_apply m ρ c src dst hsrc hdst e ⟨8 * i.val + k.val, by omega⟩).trans ?_
  refine (dif_pos (show 8 * i.val + k.val < 24 by omega)).trans ?_
  exact congrArg₂ (msgF m c src dst e)
    (Fin.ext (show (8 * i.val + k.val) / 8 = i.val by omega)) (Fin.ext (show (8 * i.val + k.val) % 8 = k.val by omega))

/-- Column `24 + j` of the message array is the scalar message's entry `j`. -/
theorem msg_scalar (hsrc : SrcOk m c src) (hdst : DstOk m c dst) (e : Fin 160000) (j : Fin 128) :
    W9 (F := Ideal) m ρ c (Proc.devRef .tc main_v30) (ix2 e ⟨24 + j.val, by omega⟩) = msgS m c src dst e j := by
  refine (Cert.KMsg.msg_apply m ρ c src dst hsrc hdst e ⟨24 + j.val, by omega⟩).trans ?_
  refine (dif_neg (show ¬ 24 + j.val < 24 by omega)).trans ?_
  exact congrArg (msgS m c src dst e) (Fin.ext (show 24 + j.val - 24 = j.val by omega))

/-! ## The ten arrays -/

/-- Window 0: the node's spatial rows, flat: column `8 i + k`. -/
theorem v6 (n : Fin 10000) (i : Fin 3) (k : Fin 8) :
    W10 (F := Ideal) m ρ c (Proc.devRef .tc main_v6) (ix2 n ⟨8 * i.val + k.val, by omega⟩) = A m c main_arg0 (ix3 n i k) := by
  rw [W10_v6, W9_of_ne m ρ c main_v6 (by decide), W8_v6, W7_v6, W6_v6, W5_v6]
  -- a reshape keeps the row-major position: (3 n + i) 8 + k = 24 n + (8 i + k)
  refine shapeCast_apply _ _ _ (ix3 n i k) ?_
  rw [Shape.rowMajor_val_three, Shape.rowMajor_val_two]
  show (n.val * 3 + i.val) * 8 + k.val = n.val * 24 + (8 * i.val + k.val)
  omega
/-- Window 1: the averaged equivariant message, flat: column `8 i + k`. -/
theorem v43 (hsrc : SrcOk m c src) (hdst : DstOk m c dst) (n : Fin 10000) (i : Fin 3) (k : Fin 8) :
    W10 (F := Ideal) m ρ c (Proc.devRef .tc main_v43) (ix2 n ⟨8 * i.val + k.val, by omega⟩) = aggF m c src dst n i k := by
  have h := mean_rows src (W9 (F := Ideal) m ρ c (Proc.devRef .tc main_v2)) (W9 (F := Ideal) m ρ c (Proc.devRef .tc main_v30))
    (v2_after m ρ c src hsrc) n ⟨8 * i.val + k.val, by omega⟩
  show StableHlo.after hostOps1 (W9 m ρ c) (Proc.devRef .tc main_v43) (ix2 n ⟨8 * i.val + k.val, by omega⟩) = _
  after_results
  refine (slice2_axis1_apply (n0 := 10000) (n1 := 152) (m := 24) 0 _ _ n ⟨8 * i.val + k.val, by omega⟩
    ⟨8 * i.val + k.val, by omega⟩ (Nat.zero_add _).symm).trans ?_
  refine h.trans ?_
  show _ = Cert.Spec.segMean src (fun e => msgF m c src dst e i k) n
  exact congrArg (fun f => Cert.Spec.segMean src f n) (funext fun e => msg_spatial m ρ c src dst hsrc hdst e i k)

/-- Window 2: the node's scalars, as launched. -/
theorem arg1 : W10 (F := Ideal) m ρ c (Proc.devRef .tc main_arg1) = A m c main_arg1 :=
  (W10_eq_W8 m ρ c main_arg1 (by decide) (by unwritten)).trans (W8_arg1 m ρ c)
/-- Window 3: the averaged scalar message. -/
theorem v44 (hsrc : SrcOk m c src) (hdst : DstOk m c dst) (n : Fin 10000) (j : Fin 128) :
    W10 (F := Ideal) m ρ c (Proc.devRef .tc main_v44) (ix2 n j) = aggS m c src dst n j := by
  have h := mean_rows src (W9 (F := Ideal) m ρ c (Proc.devRef .tc main_v2)) (W9 (F := Ideal) m ρ c (Proc.devRef .tc main_v30))
    (v2_after m ρ c src hsrc) n ⟨24 + j.val, by omega⟩
  show StableHlo.after hostOps1 (W9 m ρ c) (Proc.devRef .tc main_v44) (ix2 n j) = _
  after_results
  refine (slice2_axis1_apply (n0 := 10000) (n1 := 152) (m := 128) 24 _ _ n j ⟨24 + j.val, by omega⟩ rfl).trans ?_
  refine h.trans ?_
  show _ = Cert.Spec.segMean src (fun e => msgS m c src dst e j) n
  exact congrArg (fun f => Cert.Spec.segMean src f n) (funext fun e => msg_scalar m ρ c src dst hsrc hdst e j)
/-- Windows 4 to 9: the node weights and biases. -/
theorem v45 (q : Fin 512) (j : Fin 128) :
    W10 (F := Ideal) m ρ c (Proc.devRef .tc main_v45) (ix2 q j) = A m c main_arg11 (ix2 q j) := by
  show StableHlo.after hostOps1 (W9 m ρ c) (Proc.devRef .tc main_v45) (ix2 q j) = _
  after_results
  show W9 (F := Ideal) m ρ c (Proc.devRef .tc main_arg11) (ix2 q j) = _
  rw [W9_of_ne m ρ c main_arg11 (by decide), W8_arg11]
theorem arg12 : W10 (F := Ideal) m ρ c (Proc.devRef .tc main_arg12) = A m c main_arg12 :=
  (W10_eq_W8 m ρ c main_arg12 (by decide) (by unwritten)).trans (W8_arg12 m ρ c)
theorem v46 (q j : Fin 128) :
    W10 (F := Ideal) m ρ c (Proc.devRef .tc main_v46) (ix2 q j) = A m c main_arg13 (ix2 q j) := by
  show StableHlo.after hostOps1 (W9 m ρ c) (Proc.devRef .tc main_v46) (ix2 q j) = _
  after_results
  show W9 (F := Ideal) m ρ c (Proc.devRef .tc main_arg13) (ix2 q j) = _
  rw [W9_of_ne m ρ c main_arg13 (by decide), W8_arg13]
theorem arg14 : W10 (F := Ideal) m ρ c (Proc.devRef .tc main_arg14) = A m c main_arg14 :=
  (W10_eq_W8 m ρ c main_arg14 (by decide) (by unwritten)).trans (W8_arg14 m ρ c)
theorem v47 (q : Fin 128) (j : Fin 256) :
    W10 (F := Ideal) m ρ c (Proc.devRef .tc main_v47) (ix2 q j) = A m c main_arg15 (ix2 q j) := by
  show StableHlo.after hostOps1 (W9 m ρ c) (Proc.devRef .tc main_v47) (ix2 q j) = _
  after_results
  show W9 (F := Ideal) m ρ c (Proc.devRef .tc main_arg15) (ix2 q j) = _
  rw [W9_of_ne m ρ c main_arg15 (by decide), W8_arg15]
theorem arg16 : W10 (F := Ideal) m ρ c (Proc.devRef .tc main_arg16) = A m c main_arg16 :=
  (W10_eq_W8 m ρ c main_arg16 (by decide) (by unwritten)).trans (W8_arg16 m ρ c)

end Cert.KHost1

end
-- ==== Proof.KNode.lean ====
/-
  The node kernel's body, one row at a time.

  The body loads the whole blocks of its ten input windows and stores a [2000, 24] and a [2000, 128] block. Row `r`
  of each depends on row `r` of the four per-node blocks and on the whole weight blocks, and is the node function of
  Spec.lean: the spatial rows `[f | mean message]` read out of the flat rows (column `8 i + k`), their Gram matrix
  flattened and divided by the guarded norm, followed by the node's scalars and its mean scalar message, three affine
  layers with `silu` after the first two, the first 128 outputs re-contracted with the spatial rows (stored row-major,
  column `8 i + k`), the last 128 stored as they are.
-/
import proofs.«408349_j8770323218950_3_alg».proof.Proof.KRun
import proofs.«408349_j8770323218950_3_alg».proof.Proof.Spec
import proofs.«408349_j8770323218950_3_alg».proof.Proof.LibBatchNT
import proofs.«408349_j8770323218950_3_alg».proof.Proof.LibDot
import proofs.«408349_j8770323218950_3_alg».proof.Proof.LibKeepdims

noncomputable section

namespace Cert.KNode

open Cert.KernelIdeal Cert.KernelIdeal.Gen Idealize.ShloMosaic Idealize.ShloMosaic.TcCoe Idealize.SL.Sem
open Idealize.ShloMosaic.ValueIdx

/-- AN AFFINE LAYER of the body, at row r and output j: the product of the (format-changed) input with the weight block
    into the zero accumulator is the sum over the input width, and the bias row is read at j. -/
theorem layer_apply {K N : Nat} (d : DotDims ⟨2, ![2000, K]⟩ ⟨2, ![K, N]⟩ ⟨2, ![2000, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![2000, K]⟩ .f32) (W : FVec Ideal ⟨2, ![K, N]⟩ .bf16) (b : FVec Ideal ⟨1, ![N]⟩ .f32)
    (hb : FTy.bits .bf16 < FTy.bits .f32)
    (hW : (⟨2, ![K, N]⟩ : Shape).ShapeCasts ⟨2, ![K, N]⟩)
    (hc : (⟨1, ![N]⟩ : Shape).ShapeCasts ⟨2, ![1, N]⟩)
    (hbc : (⟨2, ![1, N]⟩ : Shape).Broadcasts ⟨2, ![2000, N]⟩)
    (r : Fin 2000) (j : Fin N) :
    addf (matmul d none (truncf .bf16 x hb) (shapeCast ⟨2, ![K, N]⟩ W hW) (constant ⟨2, ![2000, N]⟩ .f32 0x00000000#32))
        (broadcastTo ⟨2, ![2000, N]⟩ (shapeCast ⟨2, ![1, N]⟩ b hc) hbc) (ix2 r j)
      = Cert.Spec.lin (fun q => x (ix2 r q)) (fun q j => W (ix2 q j)) (fun j => b (ix1 j)) j := by
  rw [addf_apply, Cert.LibDot.matmul_zero_apply d h1 h2 h3 h4 h5 h6, broadcastTo_1b_ab_apply, shapeCast_a_1a_apply,
    shapeCast_self]
  rfl

/-- A flat row of 24 numbers read as three spatial rows of 8: entry (i, k) is column 8 i + k. -/
theorem rows_apply (v : FVec Ideal ⟨2, ![2000, 24]⟩ .f32) (h0 : (⟨2, ![2000, 24]⟩ : Shape).ShapeCasts ⟨2, ![2000, 24]⟩)
    (h1 : (⟨2, ![2000, 24]⟩ : Shape).ShapeCasts ⟨3, ![2000, 3, 8]⟩) (r : Fin 2000) (i : Fin 3) (k : Fin 8) :
    shapeCast ⟨3, ![2000, 3, 8]⟩ (shapeCast ⟨2, ![2000, 24]⟩ v h0) h1 (ix3 r i k) = v (ix2 r ⟨8 * i.val + k.val, by omega⟩) := by
  rw [shapeCast_self]
  refine shapeCast_apply v h1 _ _ ?_
  rw [Shape.rowMajor_val_two, Shape.rowMajor_val_three]
  show r.val * 24 + (8 * i.val + k.val) = (r.val * 3 + i.val) * 8 + k.val
  omega

/-- THE SPATIAL ROWS T = [f | mean message] of row r: the two flat rows side by side along the feature axis. -/
theorem cat_apply (v0 v3 : Vec Ideal S2000x24 .f32) (r : Fin 2000) (i : Fin 3) (d : Fin 16) :
    k1_pay4 v0 v3 (ix3 r i d)
      = Cert.Spec.cat2 (fun i k => v0 (ix2 r ⟨8 * i.val + k.val, by omega⟩)) (fun i k => v3 (ix2 r ⟨8 * i.val + k.val, by omega⟩)) i d := by
  unfold k1_pay4 Cert.Spec.cat2
  by_cases h : d.val < 8
  · rw [dif_pos h]
    refine (concatenate_pair_apply_left (s₁ := ⟨3, ![2000, 3, 8]⟩) (s₂ := ⟨3, ![2000, 3, 8]⟩) 2 _ _ _ (ix3 r i d) rfl (ix3 r i (⟨d.val, h⟩ : Fin 8)) (fun b => ?_)).trans ?_
    · match b with
      | ⟨0, _⟩ => rfl
      | ⟨1, _⟩ => rfl
      | ⟨2, _⟩ => rfl
    · exact rows_apply v0 _ _ r i ⟨d.val, h⟩
  · rw [dif_neg h]
    refine (concatenate_pair_apply_right (s₁ := ⟨3, ![2000, 3, 8]⟩) (s₂ := ⟨3, ![2000, 3, 8]⟩) 2 _ _ _ (ix3 r i d) rfl rfl (ix3 r i (⟨d.val - 8, by omega⟩ : Fin 8)) (fun b hb => ?_) ?_).trans ?_
    · match b with
      | ⟨0, _⟩ => rfl
      | ⟨1, _⟩ => rfl
      | ⟨2, _⟩ => exact absurd rfl hb
    · show d.val - 8 + 8 = d.val
      omega
    · exact rows_apply v3 _ _ r i ⟨d.val - 8, by omega⟩

/-- THE GRAM MATRIX of the three spatial rows, flattened: entry p of the flat row is the product of columns p / 16 and
    p % 16 of T summed over the three rows. -/
theorem gram_apply (T : FVec Ideal ⟨3, ![2000, 3, 16]⟩ .f32)
    (htr : (⟨3, ![2000, 3, 16]⟩ : Shape).Transposes [0, 2, 1] ⟨3, ![2000, 16, 3]⟩)
    (d : DotDims ⟨3, ![2000, 16, 3]⟩ ⟨3, ![2000, 16, 3]⟩ ⟨3, ![2000, 16, 16]⟩)
    (h1 : d.lhsContracting = [2]) (h2 : d.rhsContracting = [2]) (h3 : d.lhsNonContracting = [1])
    (h4 : d.rhsNonContracting = [1]) (h5 : d.lhsBatch = [0]) (h6 : d.rhsBatch = [0])
    (hc : (⟨3, ![2000, 16, 16]⟩ : Shape).ShapeCasts ⟨2, ![2000, 256]⟩) (r : Fin 2000) (p : Fin 256) :
    shapeCast ⟨2, ![2000, 256]⟩
        (matmul d none (transpose ⟨3, ![2000, 16, 3]⟩ [0, 2, 1] T htr) (transpose ⟨3, ![2000, 16, 3]⟩ [0, 2, 1] T htr)
          (constant (F := Ideal) ⟨3, ![2000, 16, 16]⟩ .f32 0x00000000#32)) hc (ix2 r p)
      = Cert.Spec.gramFlat16 (fun i d => T (ix3 r i d)) p := by
  refine (shapeCast_apply _ hc (ix2 r p) (ix3 r (⟨p.val / 16, by omega⟩ : Fin 16) (⟨p.val % 16, by omega⟩ : Fin 16)) ?_).trans ?_
  · rw [Shape.rowMajor_val_three, Shape.rowMajor_val_two]
    show (r.val * 16 + p.val / 16) * 16 + p.val % 16 = r.val * 256 + p.val
    omega
  · rw [Cert.LibBatchNT.matmul_zero_apply d h1 h2 h3 h4 h5 h6]
    unfold Cert.Spec.gramFlat16 Cert.Spec.gram
    refine Finset.sum_congr rfl fun k _ => ?_
    rw [transpose_ix3_021_apply, transpose_ix3_021_apply]

/-- THE UNIT VECTOR: a flat row divided by the larger of its Euclidean norm (the root of the lane sum of its squares) and
    the guard word. -/
theorem unit_apply (g : FVec Ideal ⟨2, ![2000, 256]⟩ .f32)
    (hred : (⟨2, ![2000, 256]⟩ : Shape).Reduces [1] ⟨1, ![2000]⟩) (hφ : FKind.Formats .f32)
    (hacc : (0x00000000#32 : BitVec 32) = FKind.add.neutral .f32 hφ)
    (hc : (⟨1, ![2000]⟩ : Shape).ShapeCasts ⟨2, ![2000, 1]⟩)
    (hbc : (⟨2, ![2000, 1]⟩ : Shape).Broadcasts ⟨2, ![2000, 256]⟩) (r : Fin 2000) (p : Fin 256) :
    divf g (broadcastTo ⟨2, ![2000, 256]⟩
        (maximumf (sqrt (shapeCast ⟨2, ![2000, 1]⟩
            (multiReduction (F := Ideal) .add [1] ⟨1, ![2000]⟩ (mulf g g) 0x00000000#32 hred hφ hacc) hc))
          (broadcast ⟨2, ![2000, 1]⟩ (Scalar.ofBits (F := Ideal) .f32 0x2B8CBCCC#32))) hbc) (ix2 r p)
      = Cert.Spec.unitize (fun q => g (ix2 r q)) p := by
  rw [divf_apply, broadcastTo_a1_ab_apply, maximumf_apply]
  show Ideal.div (g (ix2 r p)) (max (Ideal.sqrt (shapeCast ⟨2, ![2000, 1]⟩
      (multiReduction (F := Ideal) .add [1] ⟨1, ![2000]⟩ (mulf g g) 0x00000000#32 hred hφ hacc) hc (ix2 r (0 : Fin 1)))) Cert.Spec.guard) = _
  rw [shapeCast_a_a1_apply, multiReduction_add_cols_apply]
  rfl

/-- THE INPUT OF THE FIRST LAYER: [unit Gram | scalars | mean scalar message] along the feature axis, widths 256, 128,
    128, read at column q in the piece whose span holds q. -/
theorem input_apply (u : FVec Ideal ⟨2, ![2000, 256]⟩ .f32) (s sc : FVec Ideal ⟨2, ![2000, 128]⟩ .f32)
    (h0 : (⟨2, ![2000, 128]⟩ : Shape).ShapeCasts ⟨2, ![2000, 128]⟩)
    (hcat : Shape.Concatenates [⟨2, ![2000, 256]⟩, ⟨2, ![2000, 128]⟩, ⟨2, ![2000, 128]⟩] ⟨2, ![2000, 512]⟩ 1)
    (r : Fin 2000) (q : Fin 512) :
    concatenate ⟨2, ![2000, 512]⟩ 1
        [⟨⟨2, ![2000, 256]⟩, u⟩, ⟨⟨2, ![2000, 128]⟩, s⟩, ⟨⟨2, ![2000, 128]⟩, shapeCast ⟨2, ![2000, 128]⟩ sc h0⟩] hcat (ix2 r q)
      = Cert.Spec.nodeIn (fun p => u (ix2 r p)) (fun p => s (ix2 r p)) (fun p => sc (ix2 r p)) q := by
  unfold Cert.Spec.nodeIn
  by_cases ha : q.val < 256
  · rw [dif_pos ha]
    refine concatenate_apply_piece 1 _ _ (ix2 r q) 0 (by show (0 : Nat) < 3; omega) ⟨2, ![2000, 256]⟩ u rfl rfl 0 rfl
      (ix2 r (⟨q.val, ha⟩ : Fin 256)) (fun b hb => ?_) ?_
    · match b with
      | ⟨0, _⟩ => rfl
      | ⟨1, _⟩ => exact absurd rfl hb
    · show 0 + q.val = q.val
      omega
  · rw [dif_neg ha]
    by_cases hb : q.val < 384
    · rw [dif_pos hb]
      refine concatenate_apply_piece 1 _ _ (ix2 r q) 1 (by show (1 : Nat) < 3; omega) ⟨2, ![2000, 128]⟩ s rfl rfl 256 rfl
        (ix2 r (⟨q.val - 256, by omega⟩ : Fin 128)) (fun b hb => ?_) ?_
      · match b with
        | ⟨0, _⟩ => rfl
        | ⟨1, _⟩ => exact absurd rfl hb
      · show 256 + (q.val - 256) = q.val
        omega
    · rw [dif_neg hb]
      refine (concatenate_apply_piece 1 _ _ (ix2 r q) 2 (by show (2 : Nat) < 3; omega) ⟨2, ![2000, 128]⟩ (shapeCast ⟨2, ![2000, 128]⟩ sc h0) rfl rfl 384 rfl
        (ix2 r (⟨q.val - 384, by omega⟩ : Fin 128)) (fun b hb => ?_) ?_).trans ?_
      · match b with
        | ⟨0, _⟩ => rfl
        | ⟨1, _⟩ => exact absurd rfl hb
      · show 384 + (q.val - 384) = q.val
        omega
      · rw [shapeCast_self]

/-- A HIDDEN LAYER: the affine layer followed by x times the logistic of x. -/
theorem silu_layer_apply {K N : Nat} (d : DotDims ⟨2, ![2000, K]⟩ ⟨2, ![K, N]⟩ ⟨2, ![2000, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![2000, K]⟩ .f32) (W : FVec Ideal ⟨2, ![K, N]⟩ .bf16) (b : FVec Ideal ⟨1, ![N]⟩ .f32)
    (hb : FTy.bits .bf16 < FTy.bits .f32)
    (hW : (⟨2, ![K, N]⟩ : Shape).ShapeCasts ⟨2, ![K, N]⟩)
    (hc : (⟨1, ![N]⟩ : Shape).ShapeCasts ⟨2, ![1, N]⟩)
    (hbc : (⟨2, ![1, N]⟩ : Shape).Broadcasts ⟨2, ![2000, N]⟩)
    (r : Fin 2000) (j : Fin N) :
    mulf (addf (matmul d none (truncf .bf16 x hb) (shapeCast ⟨2, ![K, N]⟩ W hW) (constant ⟨2, ![2000, N]⟩ .f32 0x00000000#32))
        (broadcastTo ⟨2, ![2000, N]⟩ (shapeCast ⟨2, ![1, N]⟩ b hc) hbc))
      (logistic (addf (matmul d none (truncf .bf16 x hb) (shapeCast ⟨2, ![K, N]⟩ W hW) (constant ⟨2, ![2000, N]⟩ .f32 0x00000000#32))
        (broadcastTo ⟨2, ![2000, N]⟩ (shapeCast ⟨2, ![1, N]⟩ b hc) hbc))) (ix2 r j)
      = Cert.Spec.silu (Cert.Spec.lin (fun q => x (ix2 r q)) (fun q j => W (ix2 q j)) (fun j => b (ix1 j)) j) :=
  congrArg Cert.Spec.silu (layer_apply d h1 h2 h3 h4 h5 h6 x W b hb hW hc hbc r j)

/-- THE SECOND HIDDEN LAYER BEFORE ITS silu, at row r and output j: the second affine layer of the first hidden layer of
    the node's input row. -/
theorem pay5_apply (v0 v3 : Vec Ideal S2000x24 .f32) (v18 v19 : Vec Ideal S2000x128 .f32) (v23 : Vec Ideal S512x128 .bf16)
    (v26 : Vec Ideal S128 .f32) (v33 : Vec Ideal S128x128 .bf16) (v36 : Vec Ideal S128 .f32) (r : Fin 2000) (j : Fin 128) :
    k1_pay5 v0 v3 v18 v19 v23 v26 v33 v36 (ix2 r j)
      = Cert.Spec.lin (Cert.Spec.nodeH1 (fun i k => v0 (ix2 r ⟨8 * i.val + k.val, by omega⟩)) (fun i k => v3 (ix2 r ⟨8 * i.val + k.val, by omega⟩))
          (fun q => v18 (ix2 r q)) (fun q => v19 (ix2 r q)) (fun q j => v23 (ix2 q j)) (fun j => v26 (ix1 j)))
          (fun q j => v33 (ix2 q j)) (fun j => v36 (ix1 j)) j := by
  refine (layer_apply dot_S2000x128_S128x128_S2000x128_1_0_0_1_n_n rfl rfl rfl rfl rfl rfl _ v33 v36 _ _ _ _ r j).trans ?_
  refine congrArg (fun x => Cert.Spec.lin x _ _ j) (funext fun q => ?_)
  refine (silu_layer_apply dot_S2000x512_S512x128_S2000x128_1_0_0_1_n_n rfl rfl rfl rfl rfl rfl _ v23 v26 _ _ _ _ r q).trans ?_
  unfold Cert.Spec.nodeH1
  refine congrArg (fun x => Cert.Spec.silu (Cert.Spec.lin x _ _ q)) (funext fun p => ?_)
  refine (input_apply _ v18 v19 _ _ r p).trans ?_
  refine congrArg (fun x => Cert.Spec.nodeIn x _ _ p) (funext fun p1 => ?_)
  unfold Cert.Spec.nodeU
  refine (unit_apply _ _ _ _ _ _ r p1).trans ?_
  refine congrArg (fun x => Cert.Spec.unitize x p1) (funext fun p2 => ?_)
  refine (gram_apply (k1_pay4 v0 v3) _ dot_S2000x16x3_S2000x16x3_S2000x16x16_2_2_1_1_0_0 rfl rfl rfl rfl rfl rfl _ r p2).trans ?_
  exact congrArg (fun x => Cert.Spec.gramFlat16 x p2) (funext fun i => funext fun d => cat_apply v0 v3 r i d)

/-- THE 256 OUTPUTS of the network at row r: the third affine layer of the silu of the second hidden layer. -/
theorem pay1_apply (v39 : FVec Ideal S2000x128 .f32) (v43 : Vec Ideal S128x256 .bf16) (v46 : Vec Ideal S256 .f32) (r : Fin 2000) (j : Fin 256) :
    k1_pay1 v39 v43 v46 (ix2 r j)
      = Cert.Spec.lin (fun q => Cert.Spec.silu (v39 (ix2 r q))) (fun q j => v43 (ix2 q j)) (fun j => v46 (ix1 j)) j :=
  layer_apply dot_S2000x128_S128x256_S2000x256_1_0_0_1_n_n rfl rfl rfl rfl rfl rfl (mulf v39 (logistic v39)) v43 v46 _ _ _ _ r j

/-- THE SECOND STORED BLOCK is columns 128 to 255 of the outputs. -/
theorem pay2_apply (v39 : FVec Ideal S2000x128 .f32) (v43 : Vec Ideal S128x256 .bf16) (v46 : Vec Ideal S256 .f32) (r : Fin 2000) (j : Fin 128) :
    k1_pay2 v39 v43 v46 (ix2 r j) = k1_pay1 v39 v43 v46 (ix2 r (⟨128 + j.val, by omega⟩ : Fin 256)) := by
  unfold k1_pay2
  exact slice2_axis1_apply 128 _ _ r j ⟨128 + j.val, by omega⟩ rfl

/-- THE FIRST STORED BLOCK: columns 0 to 127 of the outputs read as a 16 by 8 matrix, contracted with the spatial rows
    over the 16 features, stored row-major (column 8 i + k holds entry (i, k)). -/
theorem pay3_apply (v6 : FVec Ideal S2000x3x16 .f32) (v39 : FVec Ideal S2000x128 .f32) (v43 : Vec Ideal S128x256 .bf16)
    (v46 : Vec Ideal S256 .f32) (r : Fin 2000) (j : Fin 24) :
    k1_pay3 v6 v39 v43 v46 (ix2 r j)
      = ∑ d : Fin 16, v6 (ix3 r (⟨j.val / 8, by omega⟩ : Fin 3) d)
          * k1_pay1 v39 v43 v46 (ix2 r (⟨8 * d.val + j.val % 8, by omega⟩ : Fin 256)) := by
  unfold k1_pay3
  refine (shapeCast_apply _ _ (ix2 r j) (ix3 r (⟨j.val / 8, by omega⟩ : Fin 3) (⟨j.val % 8, by omega⟩ : Fin 8)) ?_).trans ?_
  · rw [Shape.rowMajor_val_three, Shape.rowMajor_val_two]
    show (r.val * 3 + j.val / 8) * 8 + j.val % 8 = r.val * 24 + j.val
    omega
  · refine (Cert.LibBatchNT.matmul_zero_apply dot_S2000x3x16_S2000x8x16_S2000x3x8_2_2_1_1_0_0 rfl rfl rfl rfl rfl rfl none _ _ r _ _).trans ?_
    refine Finset.sum_congr rfl fun d _ => congrArg (fun y => v6 (ix3 r (⟨j.val / 8, by omega⟩ : Fin 3) d) * y) ?_
    refine (transpose_ix3_021_apply _ _ r (⟨j.val % 8, by omega⟩ : Fin 8) d).trans ?_
    refine (shapeCast_apply _ _ (ix3 r d (⟨j.val % 8, by omega⟩ : Fin 8)) (ix2 r (⟨8 * d.val + j.val % 8, by omega⟩ : Fin 128)) ?_).trans ?_
    · rw [Shape.rowMajor_val_two, Shape.rowMajor_val_three]
      show r.val * 128 + (8 * d.val + j.val % 8) = (r.val * 16 + d.val) * 8 + j.val % 8
      omega
    · exact slice2_axis1_apply 0 _ _ r (⟨8 * d.val + j.val % 8, by omega⟩ : Fin 128) (⟨8 * d.val + j.val % 8, by omega⟩ : Fin 256) (Nat.zero_add _).symm

/-- The zero offsets of a whole block of rank 2, and of rank 1. -/
theorem off2 : (![0, 0] : Fin 2 → Nat) = fun _ => 0 := funext fun a => by
  match a with
  | ⟨0, _⟩ => rfl
  | ⟨1, _⟩ => rfl
theorem off1 : (![0] : Fin 1 → Nat) = fun _ => 0 := funext fun a => by
  match a with
  | ⟨0, _⟩ => rfl

/-- THE 256 OUTPUTS of the network over the body's blocks, at row r and output j: the node's outputs. -/
theorem outC_apply (x0 x1 : Vec Ideal S2000x24 .f32) (x2 x3 : Vec Ideal S2000x128 .f32) (x4 : Vec Ideal S512x128 .bf16)
    (x5 : Vec Ideal S128 .f32) (x6 : Vec Ideal S128x128 .bf16) (x7 : Vec Ideal S128 .f32) (x8 : Vec Ideal S128x256 .bf16)
    (x9 : Vec Ideal S256 .f32) (r : Fin 2000) (j : Fin 256) :
    k1_pay1 (k1_pay5 x0 x1 x2 x3 x4 x5 x6 x7) x8 x9 (ix2 r j)
      = Cert.Spec.nodeC (fun i k => x0 (ix2 r ⟨8 * i.val + k.val, by omega⟩)) (fun i k => x1 (ix2 r ⟨8 * i.val + k.val, by omega⟩))
          (fun q => x2 (ix2 r q)) (fun q => x3 (ix2 r q)) (fun q j => x4 (ix2 q j)) (fun j => x5 (ix1 j)) (fun q j => x6 (ix2 q j))
          (fun j => x7 (ix1 j)) (fun q j => x8 (ix2 q j)) (fun j => x9 (ix1 j)) j := by
  refine (pay1_apply _ x8 x9 r j).trans ?_
  unfold Cert.Spec.nodeC Cert.Spec.nodeH2
  exact congrArg (fun x => Cert.Spec.lin x _ _ j)
    (funext fun q => congrArg Cert.Spec.silu (pay5_apply x0 x1 x2 x3 x4 x5 x6 x7 r q))

/-- ROW `r`, COLUMN `j` OF THE FIRST STORED BLOCK is entry `(j / 8, j % 8)` of the node's first result. -/
theorem outF_apply (x0 x1 : Vec Ideal S2000x24 .f32) (x2 x3 : Vec Ideal S2000x128 .f32) (x4 : Vec Ideal S512x128 .bf16)
    (x5 : Vec Ideal S128 .f32) (x6 : Vec Ideal S128x128 .bf16) (x7 : Vec Ideal S128 .f32) (x8 : Vec Ideal S128x256 .bf16)
    (x9 : Vec Ideal S256 .f32) (r : Fin 2000) (j : Fin 24) :
    out1_10 (F := Ideal) x0 x1 x2 x3 x4 x5 x6 x7 x8 x9 (ix2 r j)
      = Cert.Spec.nodeF (fun i k => x0 (ix2 r ⟨8 * i.val + k.val, by omega⟩)) (fun i k => x1 (ix2 r ⟨8 * i.val + k.val, by omega⟩))
          (fun q => x2 (ix2 r q)) (fun q => x3 (ix2 r q)) (fun q j => x4 (ix2 q j)) (fun j => x5 (ix1 j)) (fun q j => x6 (ix2 q j))
          (fun j => x7 (ix1 j)) (fun q j => x8 (ix2 q j)) (fun j => x9 (ix1 j)) ⟨j.val / 8, by omega⟩ ⟨j.val % 8, by omega⟩ := by
  unfold out1_10
  rw [View.canon_unit_zero off2]
  simp only [View.ld_unit_zero (S := S2000x24) off2, View.ld_unit_zero (S := S2000x128) off2,
    View.ld_unit_zero (S := S512x128) off2, View.ld_unit_zero (S := S128x128) off2,
    View.ld_unit_zero (S := S128x256) off2, View.ld_unit_zero (S := S128) off1, View.ld_unit_zero (S := S256) off1]
  refine (pay3_apply _ _ x8 x9 r j).trans ?_
  unfold Cert.Spec.nodeF
  refine Finset.sum_congr rfl fun d _ => ?_
  rw [cat_apply x0 x1 r _ d, outC_apply x0 x1 x2 x3 x4 x5 x6 x7 x8 x9 r _]

/-- ROW `r`, COLUMN `j` OF THE SECOND STORED BLOCK is entry `j` of the node's second result. -/
theorem outS_apply (x0 x1 : Vec Ideal S2000x24 .f32) (x2 x3 : Vec Ideal S2000x128 .f32) (x4 : Vec Ideal S512x128 .bf16)
    (x5 : Vec Ideal S128 .f32) (x6 : Vec Ideal S128x128 .bf16) (x7 : Vec Ideal S128 .f32) (x8 : Vec Ideal S128x256 .bf16)
    (x9 : Vec Ideal S256 .f32) (r : Fin 2000) (j : Fin 128) :
    out1_11 (F := Ideal) x0 x1 x2 x3 x4 x5 x6 x7 x8 x9 (ix2 r j)
      = Cert.Spec.nodeS (fun i k => x0 (ix2 r ⟨8 * i.val + k.val, by omega⟩)) (fun i k => x1 (ix2 r ⟨8 * i.val + k.val, by omega⟩))
          (fun q => x2 (ix2 r q)) (fun q => x3 (ix2 r q)) (fun q j => x4 (ix2 q j)) (fun j => x5 (ix1 j)) (fun q j => x6 (ix2 q j))
          (fun j => x7 (ix1 j)) (fun q j => x8 (ix2 q j)) (fun j => x9 (ix1 j)) j := by
  unfold out1_11
  rw [View.canon_unit_zero off2]
  simp only [View.ld_unit_zero (S := S2000x24) off2, View.ld_unit_zero (S := S2000x128) off2,
    View.ld_unit_zero (S := S512x128) off2, View.ld_unit_zero (S := S128x128) off2,
    View.ld_unit_zero (S := S128x256) off2, View.ld_unit_zero (S := S128) off1, View.ld_unit_zero (S := S256) off1]
  refine (pay2_apply _ x8 x9 r j).trans ?_
  unfold Cert.Spec.nodeS
  exact outC_apply x0 x1 x2 x3 x4 x5 x6 x7 x8 x9 r _

end Cert.KNode

end
-- ==== Proof.KFinal.lean ====
/-
  The two results of the kernel's program.

  The second region's two output windows each write block `t` (rows `2000 t` to `2000 t + 1999`, all columns) at
  grid point `t`, and the five blocks tile each array; an input window's block at point `t` is the same rows of its
  array (the weight windows: the whole array). With the body's rows (KNode) and the arrays as the region finds them
  (KHost1), row `n` of the first output array is the node's first result flat (column `8 i + k`) and row `n` of the
  second its second result. The host program's last operation un-flattens the first: `[10000, 24]` to `[10000, 3, 8]`.
-/
import proofs.«408349_j8770323218950_3_alg».proof.Proof.KArgs
import proofs.«408349_j8770323218950_3_alg».proof.Proof.KHost1
import proofs.«408349_j8770323218950_3_alg».proof.Proof.KNode

noncomputable section

namespace Cert.KFinal

open Cert.KernelIdeal Cert.KernelIdeal.Gen Idealize.ShloMosaic Idealize.ShloMosaic.TcCoe Idealize.SL.Sem
open Idealize.ShloMosaic.ValueIdx

open Cert.KArgs

variable (m : (ℓ : Loc nD τ sig) → Buf (Elt Ideal) ℓ) (ρ : Dev nD → PrngReg) (c : Dev nD)
  (src dst : Fin 160000 → Fin 10000)

/-! ## The second region's index maps, decided over its five grid points -/

/-- Every grid point is below five. -/
theorem point_lt (t : Fin cfg1.N) : t.val < 5 := by
  have := t.isLt; have h : cfg1.N = 5 := N_1; omega

/-- The per-node windows (inputs 0 to 3 and both outputs) sit at block `(t, 0)` at point `t`. -/
theorem idx1_0 (t : Fin cfg1.N) : win1_0.index t 0 = t.val ∧ win1_0.index t 1 = 0 := by
  rcases fin_N1 t with rfl | rfl | rfl | rfl | rfl <;> decide
theorem idx1_1 (t : Fin cfg1.N) : win1_1.index t 0 = t.val ∧ win1_1.index t 1 = 0 := by
  rcases fin_N1 t with rfl | rfl | rfl | rfl | rfl <;> decide
theorem idx1_2 (t : Fin cfg1.N) : win1_2.index t 0 = t.val ∧ win1_2.index t 1 = 0 := by
  rcases fin_N1 t with rfl | rfl | rfl | rfl | rfl <;> decide
theorem idx1_3 (t : Fin cfg1.N) : win1_3.index t 0 = t.val ∧ win1_3.index t 1 = 0 := by
  rcases fin_N1 t with rfl | rfl | rfl | rfl | rfl <;> decide
theorem idx1_10 (t : Fin cfg1.N) : win1_10.index t 0 = t.val ∧ win1_10.index t 1 = 0 := by
  rcases fin_N1 t with rfl | rfl | rfl | rfl | rfl <;> decide
theorem idx1_11 (t : Fin cfg1.N) : win1_11.index t 0 = t.val ∧ win1_11.index t 1 = 0 := by
  rcases fin_N1 t with rfl | rfl | rfl | rfl | rfl <;> decide
/-- The weight windows sit at block zero at every point: each stages its whole array. -/
theorem idx1_4 (t : Fin cfg1.N) : win1_4.index t 0 = 0 ∧ win1_4.index t 1 = 0 := by
  rcases fin_N1 t with rfl | rfl | rfl | rfl | rfl <;> decide
theorem idx1_5 (t : Fin cfg1.N) : win1_5.index t 0 = 0 := by
  rcases fin_N1 t with rfl | rfl | rfl | rfl | rfl <;> decide
theorem idx1_6 (t : Fin cfg1.N) : win1_6.index t 0 = 0 ∧ win1_6.index t 1 = 0 := by
  rcases fin_N1 t with rfl | rfl | rfl | rfl | rfl <;> decide
theorem idx1_7 (t : Fin cfg1.N) : win1_7.index t 0 = 0 := by
  rcases fin_N1 t with rfl | rfl | rfl | rfl | rfl <;> decide
theorem idx1_8 (t : Fin cfg1.N) : win1_8.index t 0 = 0 ∧ win1_8.index t 1 = 0 := by
  rcases fin_N1 t with rfl | rfl | rfl | rfl | rfl <;> decide
theorem idx1_9 (t : Fin cfg1.N) : win1_9.index t 0 = 0 := by
  rcases fin_N1 t with rfl | rfl | rfl | rfl | rfl <;> decide

/-! ## An input window's block at a point, read at an element of its array

Row `r` of block `t` of a per-node window is row `2000 t + r` of its array (an element of a block sits at block
index times block size plus its coordinate in the block); a weight window's block is its array. -/

section Blocks
variable (V : (c : Dev nD) → (b : Ref sig .tc) → Buf (Elt Ideal) ((c : Thread nD τ).loc b))

theorem blk0_apply (t : Fin cfg1.N) (r : Fin 2000) (q : Fin 24) :
    (iblk1 V c 0 t : Vec Ideal S2000x24 .f32) (ix2 r q)
      = (V c main_v6 : S10000x24.Idx → EReal) (ix2 ⟨2000 * t.val + r.val, by have := point_lt t; omega⟩ q) := by
  obtain ⟨e0, e1⟩ := idx1_0 t
  unfold iblk1
  rw [View.read_apply]
  show V c main_v6 _ = V c main_v6 _
  congr 1
  funext a
  apply Fin.ext
  match a with
  | ⟨0, _⟩ => show win1_0.index t 0 * 2000 + 1 * r.val = 2000 * t.val + r.val; rw [e0]; omega
  | ⟨1, _⟩ => show win1_0.index t 1 * 24 + 1 * q.val = q.val; rw [e1]; omega

theorem blk1_apply (t : Fin cfg1.N) (r : Fin 2000) (q : Fin 24) :
    (iblk1 V c 1 t : Vec Ideal S2000x24 .f32) (ix2 r q)
      = (V c main_v43 : S10000x24.Idx → EReal) (ix2 ⟨2000 * t.val + r.val, by have := point_lt t; omega⟩ q) := by
  obtain ⟨e0, e1⟩ := idx1_1 t
  unfold iblk1
  rw [View.read_apply]
  show V c main_v43 _ = V c main_v43 _
  congr 1
  funext a
  apply Fin.ext
  match a with
  | ⟨0, _⟩ => show win1_1.index t 0 * 2000 + 1 * r.val = 2000 * t.val + r.val; rw [e0]; omega
  | ⟨1, _⟩ => show win1_1.index t 1 * 24 + 1 * q.val = q.val; rw [e1]; omega

theorem blk2_apply (t : Fin cfg1.N) (r : Fin 2000) (q : Fin 128) :
    (iblk1 V c 2 t : Vec Ideal S2000x128 .f32) (ix2 r q)
      = (V c main_arg1 : S10000x128.Idx → EReal) (ix2 ⟨2000 * t.val + r.val, by have := point_lt t; omega⟩ q) := by
  obtain ⟨e0, e1⟩ := idx1_2 t
  unfold iblk1
  rw [View.read_apply]
  show V c main_arg1 _ = V c main_arg1 _
  congr 1
  funext a
  apply Fin.ext
  match a with
  | ⟨0, _⟩ => show win1_2.index t 0 * 2000 + 1 * r.val = 2000 * t.val + r.val; rw [e0]; omega
  | ⟨1, _⟩ => show win1_2.index t 1 * 128 + 1 * q.val = q.val; rw [e1]; omega

theorem blk3_apply (t : Fin cfg1.N) (r : Fin 2000) (q : Fin 128) :
    (iblk1 V c 3 t : Vec Ideal S2000x128 .f32) (ix2 r q)
      = (V c main_v44 : S10000x128.Idx → EReal) (ix2 ⟨2000 * t.val + r.val, by have := point_lt t; omega⟩ q) := by
  obtain ⟨e0, e1⟩ := idx1_3 t
  unfold iblk1
  rw [View.read_apply]
  show V c main_v44 _ = V c main_v44 _
  congr 1
  funext a
  apply Fin.ext
  match a with
  | ⟨0, _⟩ => show win1_3.index t 0 * 2000 + 1 * r.val = 2000 * t.val + r.val; rw [e0]; omega
  | ⟨1, _⟩ => show win1_3.index t 1 * 128 + 1 * q.val = q.val; rw [e1]; omega

theorem blk4_apply (t : Fin cfg1.N) (q : Fin 512) (j : Fin 128) :
    (iblk1 V c 4 t : Vec Ideal S512x128 .bf16) (ix2 q j) = (V c main_v45 : S512x128.Idx → EReal) (ix2 q j) := by
  obtain ⟨e0, e1⟩ := idx1_4 t
  unfold iblk1
  rw [View.read_apply]
  show V c main_v45 _ = V c main_v45 _
  congr 1
  funext a
  apply Fin.ext
  match a with
  | ⟨0, _⟩ => show win1_4.index t 0 * 512 + 1 * q.val = q.val; rw [e0]; omega
  | ⟨1, _⟩ => show win1_4.index t 1 * 128 + 1 * j.val = j.val; rw [e1]; omega

theorem blk5_apply (t : Fin cfg1.N) (j : Fin 128) :
    (iblk1 V c 5 t : Vec Ideal S128 .f32) (ix1 j) = (V c main_arg12 : S128.Idx → EReal) (ix1 j) := by
  have e0 := idx1_5 t
  unfold iblk1
  rw [View.read_apply]
  show V c main_arg12 _ = V c main_arg12 _
  congr 1
  funext a
  apply Fin.ext
  match a with
  | ⟨0, _⟩ => show win1_5.index t 0 * 128 + 1 * j.val = j.val; rw [e0]; omega

theorem blk6_apply (t : Fin cfg1.N) (q j : Fin 128) :
    (iblk1 V c 6 t : Vec Ideal S128x128 .bf16) (ix2 q j) = (V c main_v46 : S128x128.Idx → EReal) (ix2 q j) := by
  obtain ⟨e0, e1⟩ := idx1_6 t
  unfold iblk1
  rw [View.read_apply]
  show V c main_v46 _ = V c main_v46 _
  congr 1
  funext a
  apply Fin.ext
  match a with
  | ⟨0, _⟩ => show win1_6.index t 0 * 128 + 1 * q.val = q.val; rw [e0]; omega
  | ⟨1, _⟩ => show win1_6.index t 1 * 128 + 1 * j.val = j.val; rw [e1]; omega

theorem blk7_apply (t : Fin cfg1.N) (j : Fin 128) :
    (iblk1 V c 7 t : Vec Ideal S128 .f32) (ix1 j) = (V c main_arg14 : S128.Idx → EReal) (ix1 j) := by
  have e0 := idx1_7 t
  unfold iblk1
  rw [View.read_apply]
  show V c main_arg14 _ = V c main_arg14 _
  congr 1
  funext a
  apply Fin.ext
  match a with
  | ⟨0, _⟩ => show win1_7.index t 0 * 128 + 1 * j.val = j.val; rw [e0]; omega

theorem blk8_apply (t : Fin cfg1.N) (q : Fin 128) (j : Fin 256) :
    (iblk1 V c 8 t : Vec Ideal S128x256 .bf16) (ix2 q j) = (V c main_v47 : S128x256.Idx → EReal) (ix2 q j) := by
  obtain ⟨e0, e1⟩ := idx1_8 t
  unfold iblk1
  rw [View.read_apply]
  show V c main_v47 _ = V c main_v47 _
  congr 1
  funext a
  apply Fin.ext
  match a with
  | ⟨0, _⟩ => show win1_8.index t 0 * 128 + 1 * q.val = q.val; rw [e0]; omega
  | ⟨1, _⟩ => show win1_8.index t 1 * 256 + 1 * j.val = j.val; rw [e1]; omega

theorem blk9_apply (t : Fin cfg1.N) (j : Fin 256) :
    (iblk1 V c 9 t : Vec Ideal S256 .f32) (ix1 j) = (V c main_arg16 : S256.Idx → EReal) (ix1 j) := by
  have e0 := idx1_9 t
  unfold iblk1
  rw [View.read_apply]
  show V c main_arg16 _ = V c main_arg16 _
  congr 1
  funext a
  apply Fin.ext
  match a with
  | ⟨0, _⟩ => show win1_9.index t 0 * 256 + 1 * j.val = j.val; rw [e0]; omega

end Blocks

/-! ## One row of what a point stores

When row `r` of the four per-node blocks is node `n`'s flat spatial rows, its averaged messages and its scalars,
and the weight blocks are the node weights, row `r` of the two stored blocks is the node function at `n`: the
specification's two results at node `n`, the first flat (column `q` is entry `(q / 8, q % 8)`). -/

theorem rowF (x0 x1 : Vec Ideal S2000x24 .f32) (x2 x3 : Vec Ideal S2000x128 .f32) (x4 : Vec Ideal S512x128 .bf16)
    (x5 : Vec Ideal S128 .f32) (x6 : Vec Ideal S128x128 .bf16) (x7 : Vec Ideal S128 .f32) (x8 : Vec Ideal S128x256 .bf16)
    (x9 : Vec Ideal S256 .f32) (n : Fin 10000) (r : Fin 2000) (q : Fin 24)
    (h0 : ∀ (i : Fin 3) (k : Fin 8), x0 (ix2 r ⟨8 * i.val + k.val, by omega⟩) = A m c main_arg0 (ix3 n i k))
    (h1 : ∀ (i : Fin 3) (k : Fin 8), x1 (ix2 r ⟨8 * i.val + k.val, by omega⟩) = aggF m c src dst n i k)
    (h2 : ∀ p : Fin 128, x2 (ix2 r p) = A m c main_arg1 (ix2 n p))
    (h3 : ∀ p : Fin 128, x3 (ix2 r p) = aggS m c src dst n p)
    (h4 : ∀ (p : Fin 512) (j : Fin 128), x4 (ix2 p j) = A m c main_arg11 (ix2 p j))
    (h5 : ∀ j : Fin 128, x5 (ix1 j) = A m c main_arg12 (ix1 j))
    (h6 : ∀ (p j : Fin 128), x6 (ix2 p j) = A m c main_arg13 (ix2 p j))
    (h7 : ∀ j : Fin 128, x7 (ix1 j) = A m c main_arg14 (ix1 j))
    (h8 : ∀ (p : Fin 128) (j : Fin 256), x8 (ix2 p j) = A m c main_arg15 (ix2 p j))
    (h9 : ∀ j : Fin 256, x9 (ix1 j) = A m c main_arg16 (ix1 j)) :
    out1_10 (F := Ideal) x0 x1 x2 x3 x4 x5 x6 x7 x8 x9 (ix2 r q)
      = outF m c src dst (ix3 n ⟨q.val / 8, by omega⟩ ⟨q.val % 8, by omega⟩) := by
  rw [Cert.KNode.outF_apply]
  simp only [h0, h1, h2, h3, h4, h5, h6, h7, h8, h9]
  rfl

theorem rowS (x0 x1 : Vec Ideal S2000x24 .f32) (x2 x3 : Vec Ideal S2000x128 .f32) (x4 : Vec Ideal S512x128 .bf16)
    (x5 : Vec Ideal S128 .f32) (x6 : Vec Ideal S128x128 .bf16) (x7 : Vec Ideal S128 .f32) (x8 : Vec Ideal S128x256 .bf16)
    (x9 : Vec Ideal S256 .f32) (n : Fin 10000) (r : Fin 2000) (q : Fin 128)
    (h0 : ∀ (i : Fin 3) (k : Fin 8), x0 (ix2 r ⟨8 * i.val + k.val, by omega⟩) = A m c main_arg0 (ix3 n i k))
    (h1 : ∀ (i : Fin 3) (k : Fin 8), x1 (ix2 r ⟨8 * i.val + k.val, by omega⟩) = aggF m c src dst n i k)
    (h2 : ∀ p : Fin 128, x2 (ix2 r p) = A m c main_arg1 (ix2 n p))
    (h3 : ∀ p : Fin 128, x3 (ix2 r p) = aggS m c src dst n p)
    (h4 : ∀ (p : Fin 512) (j : Fin 128), x4 (ix2 p j) = A m c main_arg11 (ix2 p j))
    (h5 : ∀ j : Fin 128, x5 (ix1 j) = A m c main_arg12 (ix1 j))
    (h6 : ∀ (p j : Fin 128), x6 (ix2 p j) = A m c main_arg13 (ix2 p j))
    (h7 : ∀ j : Fin 128, x7 (ix1 j) = A m c main_arg14 (ix1 j))
    (h8 : ∀ (p : Fin 128) (j : Fin 256), x8 (ix2 p j) = A m c main_arg15 (ix2 p j))
    (h9 : ∀ j : Fin 256, x9 (ix1 j) = A m c main_arg16 (ix1 j)) :
    out1_11 (F := Ideal) x0 x1 x2 x3 x4 x5 x6 x7 x8 x9 (ix2 r q) = outS m c src dst (ix2 n q) := by
  rw [Cert.KNode.outS_apply]
  simp only [h0, h1, h2, h3, h4, h5, h6, h7, h8, h9]
  rfl

/-! ## What a point writes back is its block of the result -/

/-- The first output array the blocks tile: the specification's first result, flat (column `q` is `(q / 8, q % 8)`). -/
def flatF : S10000x24.Idx → EReal := fun y =>
  outF m c src dst (ix3 (y 0) ⟨(y 1).val / 8, by have := idx2_lt1 y; omega⟩ ⟨(y 1).val % 8, by have := idx2_lt1 y; omega⟩)

theorem flushedF_eq (hsrc : SrcOk m c src) (hdst : DstOk m c dst) (t : Fin cfg1.N) :
    (dat1 (V10 m ρ) c).flushed 10 t = ((cfg1.win 10).blk t).view.read (Elt Ideal) (flatF m c src dst) := by
  show (cfg1.win 10).cut (grid1.coords t) ((dat1 (V10 m ρ) c).after 10 t) = _
  rw [after1_10]
  funext y
  obtain ⟨r, q, rfl⟩ : ∃ (r : Fin 2000) (q : Fin 24), y = ix2 r q := ⟨y 0, y 1, eq_ix2 y⟩
  have hn : 2000 * t.val + r.val < 10000 := by have := point_lt t; omega
  obtain ⟨e0, e1⟩ := idx1_10 t
  have hemb : ((cfg1.win 10).blk t).view.emb (ix2 r q) = (ix2 ⟨2000 * t.val + r.val, hn⟩ q : S10000x24.Idx) := by
    funext a
    apply Fin.ext
    match a with
    | ⟨0, _⟩ => show win1_10.index t 0 * 2000 + 1 * r.val = 2000 * t.val + r.val; rw [e0]; omega
    | ⟨1, _⟩ => show win1_10.index t 1 * 24 + 1 * q.val = q.val; rw [e1]; omega
  rw [View.read_apply]
  show out1_10 (F := Ideal) (iblk1 (V10 m ρ) c 0 t) (iblk1 (V10 m ρ) c 1 t) (iblk1 (V10 m ρ) c 2 t) (iblk1 (V10 m ρ) c 3 t)
      (iblk1 (V10 m ρ) c 4 t) (iblk1 (V10 m ρ) c 5 t) (iblk1 (V10 m ρ) c 6 t) (iblk1 (V10 m ρ) c 7 t)
      (iblk1 (V10 m ρ) c 8 t) (iblk1 (V10 m ρ) c 9 t) (ix2 r q)
    = flatF m c src dst (((cfg1.win 10).blk t).view.emb (ix2 r q))
  rw [hemb]
  exact rowF m c src dst (iblk1 (V10 m ρ) c 0 t) (iblk1 (V10 m ρ) c 1 t) (iblk1 (V10 m ρ) c 2 t) (iblk1 (V10 m ρ) c 3 t)
    (iblk1 (V10 m ρ) c 4 t) (iblk1 (V10 m ρ) c 5 t) (iblk1 (V10 m ρ) c 6 t) (iblk1 (V10 m ρ) c 7 t)
    (iblk1 (V10 m ρ) c 8 t) (iblk1 (V10 m ρ) c 9 t) ⟨2000 * t.val + r.val, hn⟩ r q
    (fun i k => (blk0_apply c (V10 m ρ) t r ⟨8 * i.val + k.val, by omega⟩).trans (Cert.KHost1.v6 m ρ c ⟨2000 * t.val + r.val, hn⟩ i k))
    (fun i k => (blk1_apply c (V10 m ρ) t r ⟨8 * i.val + k.val, by omega⟩).trans
      (Cert.KHost1.v43 m ρ c src dst hsrc hdst ⟨2000 * t.val + r.val, hn⟩ i k))
    (fun p => (blk2_apply c (V10 m ρ) t r p).trans (congrFun (Cert.KHost1.arg1 m ρ c) (ix2 ⟨2000 * t.val + r.val, hn⟩ p)))
    (fun p => (blk3_apply c (V10 m ρ) t r p).trans (Cert.KHost1.v44 m ρ c src dst hsrc hdst ⟨2000 * t.val + r.val, hn⟩ p))
    (fun p j => (blk4_apply c (V10 m ρ) t p j).trans (Cert.KHost1.v45 m ρ c p j))
    (fun j => (blk5_apply c (V10 m ρ) t j).trans (congrFun (Cert.KHost1.arg12 m ρ c) (ix1 j)))
    (fun p j => (blk6_apply c (V10 m ρ) t p j).trans (Cert.KHost1.v46 m ρ c p j))
    (fun j => (blk7_apply c (V10 m ρ) t j).trans (congrFun (Cert.KHost1.arg14 m ρ c) (ix1 j)))
    (fun p j => (blk8_apply c (V10 m ρ) t p j).trans (Cert.KHost1.v47 m ρ c p j))
    (fun j => (blk9_apply c (V10 m ρ) t j).trans (congrFun (Cert.KHost1.arg16 m ρ c) (ix1 j)))

theorem flushedS_eq (hsrc : SrcOk m c src) (hdst : DstOk m c dst) (t : Fin cfg1.N) :
    (dat1 (V10 m ρ) c).flushed 11 t = ((cfg1.win 11).blk t).view.read (Elt Ideal) (outS m c src dst) := by
  show (cfg1.win 11).cut (grid1.coords t) ((dat1 (V10 m ρ) c).after 11 t) = _
  rw [after1_11]
  funext y
  obtain ⟨r, q, rfl⟩ : ∃ (r : Fin 2000) (q : Fin 128), y = ix2 r q := ⟨y 0, y 1, eq_ix2 y⟩
  have hn : 2000 * t.val + r.val < 10000 := by have := point_lt t; omega
  obtain ⟨e0, e1⟩ := idx1_11 t
  have hemb : ((cfg1.win 11).blk t).view.emb (ix2 r q) = (ix2 ⟨2000 * t.val + r.val, hn⟩ q : S10000x128.Idx) := by
    funext a
    apply Fin.ext
    match a with
    | ⟨0, _⟩ => show win1_11.index t 0 * 2000 + 1 * r.val = 2000 * t.val + r.val; rw [e0]; omega
    | ⟨1, _⟩ => show win1_11.index t 1 * 128 + 1 * q.val = q.val; rw [e1]; omega
  rw [View.read_apply]
  show out1_11 (F := Ideal) (iblk1 (V10 m ρ) c 0 t) (iblk1 (V10 m ρ) c 1 t) (iblk1 (V10 m ρ) c 2 t) (iblk1 (V10 m ρ) c 3 t)
      (iblk1 (V10 m ρ) c 4 t) (iblk1 (V10 m ρ) c 5 t) (iblk1 (V10 m ρ) c 6 t) (iblk1 (V10 m ρ) c 7 t)
      (iblk1 (V10 m ρ) c 8 t) (iblk1 (V10 m ρ) c 9 t) (ix2 r q)
    = outS m c src dst (((cfg1.win 11).blk t).view.emb (ix2 r q))
  rw [hemb]
  exact rowS m c src dst (iblk1 (V10 m ρ) c 0 t) (iblk1 (V10 m ρ) c 1 t) (iblk1 (V10 m ρ) c 2 t) (iblk1 (V10 m ρ) c 3 t)
    (iblk1 (V10 m ρ) c 4 t) (iblk1 (V10 m ρ) c 5 t) (iblk1 (V10 m ρ) c 6 t) (iblk1 (V10 m ρ) c 7 t)
    (iblk1 (V10 m ρ) c 8 t) (iblk1 (V10 m ρ) c 9 t) ⟨2000 * t.val + r.val, hn⟩ r q
    (fun i k => (blk0_apply c (V10 m ρ) t r ⟨8 * i.val + k.val, by omega⟩).trans (Cert.KHost1.v6 m ρ c ⟨2000 * t.val + r.val, hn⟩ i k))
    (fun i k => (blk1_apply c (V10 m ρ) t r ⟨8 * i.val + k.val, by omega⟩).trans
      (Cert.KHost1.v43 m ρ c src dst hsrc hdst ⟨2000 * t.val + r.val, hn⟩ i k))
    (fun p => (blk2_apply c (V10 m ρ) t r p).trans (congrFun (Cert.KHost1.arg1 m ρ c) (ix2 ⟨2000 * t.val + r.val, hn⟩ p)))
    (fun p => (blk3_apply c (V10 m ρ) t r p).trans (Cert.KHost1.v44 m ρ c src dst hsrc hdst ⟨2000 * t.val + r.val, hn⟩ p))
    (fun p j => (blk4_apply c (V10 m ρ) t p j).trans (Cert.KHost1.v45 m ρ c p j))
    (fun j => (blk5_apply c (V10 m ρ) t j).trans (congrFun (Cert.KHost1.arg12 m ρ c) (ix1 j)))
    (fun p j => (blk6_apply c (V10 m ρ) t p j).trans (Cert.KHost1.v46 m ρ c p j))
    (fun j => (blk7_apply c (V10 m ρ) t j).trans (congrFun (Cert.KHost1.arg14 m ρ c) (ix1 j)))
    (fun p j => (blk8_apply c (V10 m ρ) t p j).trans (Cert.KHost1.v47 m ρ c p j))
    (fun j => (blk9_apply c (V10 m ρ) t j).trans (congrFun (Cert.KHost1.arg16 m ρ c) (ix1 j)))

/-! ## The five blocks tile each output array -/

/-- An index of the first output array is in point `t`'s block iff each coordinate is in the block's range. -/
theorem mem_blk10 (t : Fin cfg1.N) (i : S10000x24.Idx) :
    i ∈ ((cfg1.win 10).blk t).view.set ↔ ∀ a : Fin 2, win1_10.index t a * S2000x24.size a ≤ (i a).val
      ∧ (i a).val < win1_10.index t a * S2000x24.size a + S2000x24.size a := by
  show i ∈ ((View.whole main_v48_0).slice (win1_10.rect t)).set ↔ _
  rw [View.set_slice_whole, Rect.mem_set_unit]
  exact Iff.rfl

theorem mem_blk11 (t : Fin cfg1.N) (i : S10000x128.Idx) :
    i ∈ ((cfg1.win 11).blk t).view.set ↔ ∀ a : Fin 2, win1_11.index t a * S2000x128.size a ≤ (i a).val
      ∧ (i a).val < win1_11.index t a * S2000x128.size a + S2000x128.size a := by
  show i ∈ ((View.whole main_v48_1).slice (win1_11.rect t)).set ↔ _
  rw [View.set_slice_whole, Rect.mem_set_unit]
  exact Iff.rfl

/-- Row `n` of the first output array lies in the block of point `n / 2000`, which is written back. -/
theorem coverF (i : S10000x24.Idx) :
    ∃ t : Fin cfg1.N, (cfg1.win 10).flush t = true ∧ i ∈ ((cfg1.win 10).blk t).view.set := by
  have hi0 : (i 0).val < 10000 := idx2_lt0 i
  have hi1 : (i 1).val < 24 := idx2_lt1 i
  have hN : cfg1.N = 5 := N_1
  have ht : (i 0).val / 2000 < cfg1.N := by rw [hN]; omega
  obtain ⟨e0, e1⟩ := idx1_10 ⟨(i 0).val / 2000, ht⟩
  refine ⟨⟨(i 0).val / 2000, ht⟩, flush1_10 _, ?_⟩
  rw [mem_blk10]
  intro a
  match a with
  | ⟨0, _⟩ =>
    show win1_10.index ⟨(i 0).val / 2000, ht⟩ 0 * 2000 ≤ (i 0).val
      ∧ (i 0).val < win1_10.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_10.index ⟨(i 0).val / 2000, ht⟩ 1 * 24 ≤ (i 1).val
      ∧ (i 1).val < win1_10.index ⟨(i 0).val / 2000, ht⟩ 1 * 24 + 24
    rw [e1]; omega

theorem coverS (i : S10000x128.Idx) :
    ∃ t : Fin cfg1.N, (cfg1.win 11).flush t = true ∧ i ∈ ((cfg1.win 11).blk t).view.set := by
  have hi0 : (i 0).val < 10000 := idx2_lt0 i
  have hi1 : (i 1).val < 128 := idx2_lt1 i
  have hN : cfg1.N = 5 := N_1
  have ht : (i 0).val / 2000 < cfg1.N := by rw [hN]; omega
  obtain ⟨e0, e1⟩ := idx1_11 ⟨(i 0).val / 2000, ht⟩
  refine ⟨⟨(i 0).val / 2000, ht⟩, flush1_11 _, ?_⟩
  rw [mem_blk11]
  intro a
  match a with
  | ⟨0, _⟩ =>
    show win1_11.index ⟨(i 0).val / 2000, ht⟩ 0 * 2000 ≤ (i 0).val
      ∧ (i 0).val < win1_11.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_11.index ⟨(i 0).val / 2000, ht⟩ 1 * 128 ≤ (i 1).val
      ∧ (i 1).val < win1_11.index ⟨(i 0).val / 2000, ht⟩ 1 * 128 + 128
    rw [e1]; omega

/-! ## The two output arrays after the second region -/

/-- The first output array ends holding the first result, flat. -/
theorem arrF (hsrc : SrcOk m c src) (hdst : DstOk m c dst) :
    (dat1 (V10 m ρ) c).arrAt 10 cfg1.N = flatF m c src dst :=
  (dat1 (V10 m ρ) c).arrAt_eq_of_cover 10 (flatF m c src dst)
    (fun t _ => flushedF_eq m ρ c src dst hsrc hdst t) coverF

/-- The second output array ends holding the second result. -/
theorem arrS (hsrc : SrcOk m c src) (hdst : DstOk m c dst) :
    (dat1 (V10 m ρ) c).arrAt 11 cfg1.N = outS m c src dst :=
  (dat1 (V10 m ρ) c).arrAt_eq_of_cover 11 (outS m c src dst)
    (fun t _ => flushedS_eq m ρ c src dst hsrc hdst t) coverS

/-! ## The program's two result buffers -/

/-- THE FIRST RESULT BUFFER at the end of the program. -/
theorem outF_eq (hsrc : SrcOk m c src) (hdst : DstOk m c dst) :
    W12 (F := Ideal) m ρ c (Proc.devRef .tc main_v49) = outF m c src dst := by
  show StableHlo.after hostOps2 (W11 m ρ c) (Proc.devRef .tc main_v49) = _
  after_results
  have hv : W11 m ρ c (Proc.devRef .tc main_v48_0) = flatF m c src dst :=
    (W11_arr m ρ c 10).trans (arrF m ρ c src dst hsrc hdst)
  rw [hv]
  funext y
  obtain ⟨n, i, k, rfl⟩ : ∃ (n : Fin 10000) (i : Fin 3) (k : Fin 8), y = ix3 n i k := ⟨y 0, y 1, y 2, eq_ix3 y⟩
  show shapeCast S10000x3x8 (flatF m c src dst) shapeCasts_S10000x24_S10000x3x8 (ix3 n i k) = _
  refine (shapeCast_apply (flatF m c src dst) shapeCasts_S10000x24_S10000x3x8 (ix3 n i k)
    (ix2 n ⟨8 * i.val + k.val, by omega⟩) (by
      rw [Shape.rowMajor_val_two, Shape.rowMajor_val_three]
      show n.val * 24 + (8 * i.val + k.val) = (n.val * 3 + i.val) * 8 + k.val
      omega)).trans ?_
  show outF m c src dst (ix3 n ⟨(8 * i.val + k.val) / 8, _⟩ ⟨(8 * i.val + k.val) % 8, _⟩) = outF m c src dst (ix3 n i k)
  congr 1
  funext a
  match a with
  | ⟨0, _⟩ => rfl
  | ⟨1, _⟩ => exact Fin.ext (by show (8 * i.val + k.val) / 8 = i.val; omega)
  | ⟨2, _⟩ => exact Fin.ext (by show (8 * i.val + k.val) % 8 = k.val; omega)
/-- THE SECOND RESULT BUFFER at the end of the program. -/
theorem outS_eq (hsrc : SrcOk m c src) (hdst : DstOk m c dst) :
    W12 (F := Ideal) m ρ c (Proc.devRef .tc main_v48_1) = outS m c src dst := by
  show StableHlo.after hostOps2 (W11 m ρ c) (Proc.devRef .tc main_v48_1) = _
  after_results
  exact (W11_arr m ρ c 11).trans (arrS m ρ c src dst hsrc hdst)

end Cert.KFinal

end
-- ==== Proof.LibSlab.lean ====
/-
  A host gather of whole slabs of a rank-3 array, read at an index.

  The operand is an array `[N, A, B]`, the start indices are `[R, 1]` (one slab number per result slab) and the result
  is `[R, A, B]`: result slab `k` is the operand's slab whose number is the start index `idx[k, 0]`, read signed and
  clamped into `[0, N − 1]`. Read at one element `(k, a, b)` the result is element `(a, b)` of that slab. A lookup of
  per-node `[A, B]` tables at the ends of edges has this shape.
-/
import Idealize.ShloMosaic.PureOps.Ideal
import Idealize.ShloMosaic.Lib.ValueIdx

namespace Cert.LibSlab

open Idealize.ShloMosaic Idealize.ShloMosaic.ValueIdx

section SlabGather
variable {α : Type}

/-- The dimension numbers of a gather of whole slabs: operand `[N, A, B]`, start indices `[R, 1]` (one slab number
    per result slab), result `[R, A, B]`; axis 0 of the operand is collapsed and indexed, axes 1 and 2 of the result
    are the offset axes and read the operand's axes 1 and 2, the slice is one whole slab. The conditions `wf` are
    decided on a program's literal shapes. -/
abbrev slabGatherDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER READ AT `(k, a, b)`: element `(a, b)` of the operand's slab whose number is the start index
    `idx[k, 0]`, read signed and clamped into `[0, N − 1]`. -/
theorem gather_slab_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (k : Fin R) (a : Fin A) (b : Fin B) :
    Host.gather (slabGatherDims N A B R wf) x idx (ix3 k a b)
      = x (ix3 ⟨min (idx (ix2 k (0 : Fin 1))).toInt.toNat (N - 1), by omega⟩ a b) := by
  -- the start on axis 0: the clamped start index; on the axes 1 and 2 (not in the start index map): zero
  have hst0 : (slabGatherDims N A B R wf).start (ix3 k a b) idx (0 : Fin 3)
      = min (idx (ix2 k (0 : Fin 1))).toInt.toNat (N - 1) := by
    unfold GatherDims.start
    rw [dif_pos (show (0 : Fin 3) ∈ (slabGatherDims N A B R wf).startIndexMap from List.mem_singleton.mpr rfl)]
    have hsi : (slabGatherDims N A B R wf).siIdx (ix3 k a b)
        ⟨List.idxOf (0 : Fin 3) (slabGatherDims N A B R wf).startIndexMap,
          List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl
  have hst1 : (slabGatherDims N A B R wf).start (ix3 k a b) idx (1 : Fin 3) = 0 := by
    unfold GatherDims.start
    exact dif_neg (show (1 : Fin 3) ∉ ([0] : List (Fin 3)) from by decide)
  have hst2 : (slabGatherDims N A B R wf).start (ix3 k a b) idx (2 : Fin 3) = 0 := by
    unfold GatherDims.start
    exact dif_neg (show (2 : Fin 3) ∉ ([0] : List (Fin 3)) from by decide)
  -- the offset coordinate: zero on the collapsed axis 0, the result's coordinates on the axes 1 and 2
  have hoff0 : (slabGatherDims N A B R wf).offCoord (ix3 k a b) (0 : Fin 3) = 0 :=
    GatherDims.offCoord_eq_zero _ _ _ (fun h => ((GatherDims.mem_sKept _ _).mp h).1 (List.mem_singleton.mpr rfl))
  have hoff1 : (slabGatherDims N A B R wf).offCoord (ix3 k a b) (1 : Fin 3) = a.val := by
    unfold GatherDims.offCoord
    rw [dif_pos ((GatherDims.mem_sKept (slabGatherDims N A B R wf) (1 : Fin 3)).mpr
      ⟨(show (1 : Fin 3) ∉ ([0] : List (Fin 3)) from by decide), List.not_mem_nil⟩)]
    rfl
  have hoff2 : (slabGatherDims N A B R wf).offCoord (ix3 k a b) (2 : Fin 3) = b.val := by
    unfold GatherDims.offCoord
    rw [dif_pos ((GatherDims.mem_sKept (slabGatherDims N A B R wf) (2 : Fin 3)).mpr
      ⟨(show (2 : Fin 3) ∉ ([0] : List (Fin 3)) from by decide), List.not_mem_nil⟩)]
    rfl
  unfold Host.gather
  congr 1
  funext c
  refine Fin.ext ?_
  match c with
  | ⟨0, _⟩ =>
    show (slabGatherDims N A B R wf).start (ix3 k a b) idx (0 : Fin 3)
      + (slabGatherDims N A B R wf).batchCoord (ix3 k a b) (0 : Fin 3)
      + (slabGatherDims N A B R wf).offCoord (ix3 k a b) (0 : Fin 3) = min (idx (ix2 k (0 : Fin 1))).toInt.toNat (N - 1)
    rw [GatherDims.batchCoord_eq_zero _ _ _ List.not_mem_nil, hst0, hoff0]
    rfl
  | ⟨1, _⟩ =>
    show (slabGatherDims N A B R wf).start (ix3 k a b) idx (1 : Fin 3)
      + (slabGatherDims N A B R wf).batchCoord (ix3 k a b) (1 : Fin 3)
      + (slabGatherDims N A B R wf).offCoord (ix3 k a b) (1 : Fin 3) = a.val
    rw [GatherDims.batchCoord_eq_zero _ _ _ List.not_mem_nil, hst1, hoff1]
    omega
  | ⟨2, _⟩ =>
    show (slabGatherDims N A B R wf).start (ix3 k a b) idx (2 : Fin 3)
      + (slabGatherDims N A B R wf).batchCoord (ix3 k a b) (2 : Fin 3)
      + (slabGatherDims N A B R wf).offCoord (ix3 k a b) (2 : Fin 3) = b.val
    rw [GatherDims.batchCoord_eq_zero _ _ _ List.not_mem_nil, hst2, hoff2]
    omega

/-- The same for any dimension numbers whose fields are those of a gather of slabs (a printed record's are, each by
    `rfl`). -/
theorem gather_slab_apply_of {N A B R w : Nat} (hN : 0 < N)
    (d : GatherDims ⟨3, ![N, A, B]⟩ ⟨2, ![R, 1]⟩ ⟨3, ![R, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨2, ![R, 1]⟩ w) (k : Fin R) (a : Fin A) (b : Fin B) :
    Host.gather d x idx (ix3 k a b)
      = x (ix3 ⟨min (idx (ix2 k (0 : Fin 1))).toInt.toNat (N - 1), by omega⟩ a b) := by
  obtain ⟨od, cd, ob, sb, sm, iv, ss, wf⟩ := d
  dsimp only at h1 h2 h3 h4 h5 h6 h7
  subst h1 h2 h3 h4 h5 h6 h7
  exact gather_slab_apply hN wf x idx k a b

end SlabGather

end Cert.LibSlab
-- ==== Proof.LibBatchDot.lean ====
/-
  A batched matrix product read at an entry.

  For dimension numbers with one batch axis (axis 0 of both operands), contracting axis 2 of a `B × M × K` left
  operand with axis 1 of a `B × K × N` right operand, the contraction index is one coordinate `k : Fin K`: entry
  `(b, a, n)` of a host program's `dot_general` at the ideal instance is `∑ k, l[b, a, k] · r[b, k, n]`.
-/
import Idealize.ShloMosaic.PureOps.Ideal
import Idealize.ShloMosaic.PureOps.Ideal.Laws
import Idealize.ShloMosaic.Lib.ValueIdx

noncomputable section

open scoped BigOperators

namespace Cert.LibBatchDot

open Idealize.ShloMosaic Idealize.ShloMosaic.ValueIdx

/-- The sum over the contraction index of a batched `B × M × K` by `B × K × N` product, as a sum over `Fin K`:
    the left operand is read at `(b, a, k)` and the right operand at `(b, k, n)`. -/
theorem batch_sum {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    {α : Type} [AddCommMonoid α] (f : (⟨3, ![B, M, K]⟩ : Shape).Idx → (⟨3, ![B, K, N]⟩ : Shape).Idx → α)
    (b : Fin B) (a : Fin M) (n : Fin N) :
    ∑ k : d.contr.Idx, f (d.lhsIdx (ix3 b a n) k) (d.rhsIdx (ix3 b a n) k)
      = ∑ k : Fin K, f (ix3 b a k) (ix3 b k n) := by
  obtain ⟨lc, rc, ln, rn, lb, rb, wf⟩ := d
  dsimp only at h1 h2 h3 h4 h5 h6
  subst h1 h2 h3 h4 h5 h6
  have hr : (DotDims.mk [2] [1] [1] [2] [0] [0] wf :
      DotDims ⟨3, ![B, M, K]⟩ ⟨3, ![B, K, N]⟩ ⟨3, ![B, M, N]⟩).contr.rank = 1 := rfl
  have hs : (DotDims.mk [2] [1] [1] [2] [0] [0] wf :
      DotDims ⟨3, ![B, M, K]⟩ ⟨3, ![B, K, N]⟩ ⟨3, ![B, M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
    | ⟨2, _⟩ => exact Fin.ext rfl
  · funext c
    match c with
    | ⟨0, _⟩ => exact Fin.ext rfl
    | ⟨1, _⟩ => exact Fin.ext rfl
    | ⟨2, _⟩ => exact Fin.ext rfl

/-- A host program's batched `dot_general`, at the ideal instance, at entry `(b, a, n)`. -/
theorem batch_dotGeneral_apply {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0]) {φ₁ φ₂ : FTy}
    (prec : Option ContractPrecision) (l : FVec Ideal ⟨3, ![B, M, K]⟩ φ₁) (r : FVec Ideal ⟨3, ![B, K, N]⟩ φ₂)
    (b : Fin B) (a : Fin M) (n : Fin N) :
    Host.dotGeneral d prec l r (ix3 b a n) = ∑ k : Fin K, l (ix3 b a k) * r (ix3 b k n) := by
  show FloatOps.dotGeneral d prec .single l r (ix3 b a n) = _
  rw [Ideal.dotGeneral_apply]
  exact batch_sum d h1 h2 h3 h4 h5 h6 (fun i j => l i * r j) b a n

end Cert.LibBatchDot

end
-- ==== Proof.REdge.lean ====
/-
  The reference's two messages, one edge at a time.

  The reference takes each endpoint's spatial slab and scalar row out of the node arrays (a negative index wrapped
  by the number of nodes, then the gather's clamp: both the identity on words that name nodes), joins
  `[f(src) | f(dst) | edge_f]` along the feature axis and `[s(src) | s(dst) | edge_s]`, forms the Gram matrix over the
  spatial axis (a batched product, at the ideal instance a sum over the three spatial rows), flattens it, divides by
  the larger of its norm (the square root of a sum of squares started from zero) and the guard, joins it with the
  scalars and applies three affine layers (each a product, a sum over the inputs, plus a bias row broadcast down the
  edges) with `silu` as `x · 1 / (1 + e^(-x))` after the first two; the first 160 outputs, un-flattened to 20 × 8, are
  contracted with the spatial rows (a batched product, a sum over the 20 features) and the last 128 are cut off. Read
  at edge `e` these are the edge function of Spec.lean at `e`'s rows.
-/
import proofs.«408349_j8770323218950_3_alg».proof.Proof.RefRead
import proofs.«408349_j8770323218950_3_alg».proof.Proof.Spec
import proofs.«408349_j8770323218950_3_alg».proof.Proof.LibIndex
import proofs.«408349_j8770323218950_3_alg».proof.Proof.LibSlab
import proofs.«408349_j8770323218950_3_alg».proof.Proof.LibBatchDot
import proofs.«408349_j8770323218950_3_alg».proof.Proof.LibDot
import Idealize.ShloMosaic.Lib.ValueLayout
import Idealize.ShloMosaic.Lib.Pipeline.Value
import Idealize.ShloMosaic.PureOps.Ideal.Laws

noncomputable section

namespace Cert.REdge

open Cert.ReferenceIdeal Cert.ReferenceIdeal.Gen Cert.ReferenceIdeal.Read Idealize.ShloMosaic Idealize.ShloMosaic.TcCoe
open Idealize.SL.Sem Idealize.ShloMosaic.ValueIdx

variable (x0 : (⟨S10000x3x8, .f32⟩ : BufTy).Contents (Elt Ideal)) (x1 : (⟨S10000x128, .f32⟩ : BufTy).Contents (Elt Ideal))
  (x2 : (⟨S2x160000, .i32⟩ : BufTy).Contents (Elt Ideal)) (x3 : (⟨S160000x3x4, .f32⟩ : BufTy).Contents (Elt Ideal))
  (x4 : (⟨S160000x16, .f32⟩ : BufTy).Contents (Elt Ideal)) (x5 : (⟨S672x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x288, .f32⟩ : BufTy).Contents (Elt Ideal))
  (x10 : (⟨S288, .f32⟩ : BufTy).Contents (Elt Ideal))
  (src dst : Fin 160000 → Fin 10000)

/-! ## Words and constants -/

/-- The word of one is the number one. -/
theorem ofBits_one_f32 : Ideal.ofBits .f32 0x3F800000#32 = 1 := by
  simp [Ideal.ofBits, Ideal.ieee, -EReal.coe_mul]; norm_num

/-- A word that names a node is not negative, so the wrap of negative indices by the number of nodes leaves it. -/
theorem wrap_id (x : BitVec 32) (h : 0 ≤ x.toInt) :
    Scalar.select (IntOp.cmpi .slt x 0#32) (IntOp.addi x 10000#32) x = x := by
  have h0 : IntOp.cmpi .slt x 0#32 = 0#1 := by
    unfold IntOp.cmpi
    have hs : x.slt 0#32 = false := by
      simp only [BitVec.slt, BitVec.toInt_zero, decide_eq_false_iff_not]; omega
    rw [hs]; rfl
  rw [h0, select_zero]

/-- x · 1 / (1 + e^(-x)), with the ones as words, is silu. -/
theorem silu_words (x : EReal) :
    x * Ideal.div (Ideal.ofBits .f32 0x3F800000#32) (Ideal.ofBits .f32 0x3F800000#32 + Ideal.exp (-x)) = Cert.Spec.silu x := by
  rw [ofBits_one_f32]; rfl

/-! ## Joins read at an index -/

/-- [a | b | c] along the last axis of a rank-3 array, widths 8, 8, 4. -/
theorem cat_f_apply {α : Type} (a b : (⟨3, ![160000, 3, 8]⟩ : Shape).Idx → α) (c : (⟨3, ![160000, 3, 4]⟩ : Shape).Idx → α)
    (h : Shape.Concatenates [(⟨3, ![160000, 3, 8]⟩ : Shape), ⟨3, ![160000, 3, 8]⟩, ⟨3, ![160000, 3, 4]⟩] ⟨3, ![160000, 3, 20]⟩ 2)
    (e : Fin 160000) (i : Fin 3) (d : Fin 20) :
    concatenate (⟨3, ![160000, 3, 20]⟩ : Shape) 2 [⟨⟨3, ![160000, 3, 8]⟩, a⟩, ⟨⟨3, ![160000, 3, 8]⟩, b⟩, ⟨⟨3, ![160000, 3, 4]⟩, c⟩] h (ix3 e i d)
      = if h0 : d.val < 8 then a (ix3 e i ⟨d.val, h0⟩)
        else if h1 : d.val < 16 then b (ix3 e i ⟨d.val - 8, by omega⟩) else c (ix3 e i ⟨d.val - 16, by omega⟩) := by
  split
  · next h0 =>
    exact concatenate_apply_piece (t := ⟨3, ![160000, 3, 20]⟩) (2 : Fin 3) [⟨⟨3, ![160000, 3, 8]⟩, a⟩, ⟨⟨3, ![160000, 3, 8]⟩, b⟩, ⟨⟨3, ![160000, 3, 4]⟩, c⟩] h (ix3 e i d) 0 (by show 0 < 3; omega) _ a rfl rfl 0 rfl (ix3 e i ⟨d.val, h0⟩)
      (fun q hq => by
        match q with
        | ⟨0, _⟩ => rfl
        | ⟨1, _⟩ => rfl
        | ⟨2, _⟩ => exact absurd (Fin.ext rfl) hq)
      (by show 0 + d.val = d.val; omega)
  · next h0 =>
    split
    · next h1 =>
      exact concatenate_apply_piece (t := ⟨3, ![160000, 3, 20]⟩) (2 : Fin 3) [⟨⟨3, ![160000, 3, 8]⟩, a⟩, ⟨⟨3, ![160000, 3, 8]⟩, b⟩, ⟨⟨3, ![160000, 3, 4]⟩, c⟩] h (ix3 e i d) 1 (by show 1 < 3; omega) _ b rfl rfl 8 rfl (ix3 e i ⟨d.val - 8, by omega⟩)
        (fun q hq => by
          match q with
          | ⟨0, _⟩ => rfl
          | ⟨1, _⟩ => rfl
          | ⟨2, _⟩ => exact absurd (Fin.ext rfl) hq)
        (by show 8 + (d.val - 8) = d.val; omega)
    · next h1 =>
      exact concatenate_apply_piece (t := ⟨3, ![160000, 3, 20]⟩) (2 : Fin 3) [⟨⟨3, ![160000, 3, 8]⟩, a⟩, ⟨⟨3, ![160000, 3, 8]⟩, b⟩, ⟨⟨3, ![160000, 3, 4]⟩, c⟩] h (ix3 e i d) 2 (by show 2 < 3; omega) _ c rfl rfl 16 rfl (ix3 e i ⟨d.val - 16, by omega⟩)
        (fun q hq => by
          match q with
          | ⟨0, _⟩ => rfl
          | ⟨1, _⟩ => rfl
          | ⟨2, _⟩ => exact absurd (Fin.ext rfl) hq)
        (by show 16 + (d.val - 16) = d.val; omega)

/-- [a | b | c] along the columns of a matrix, widths 128, 128, 16. -/
theorem cat_s_apply {α : Type} (a b : (⟨2, ![160000, 128]⟩ : Shape).Idx → α) (c : (⟨2, ![160000, 16]⟩ : Shape).Idx → α)
    (h : Shape.Concatenates [(⟨2, ![160000, 128]⟩ : Shape), ⟨2, ![160000, 128]⟩, ⟨2, ![160000, 16]⟩] ⟨2, ![160000, 272]⟩ 1)
    (e : Fin 160000) (p : Fin 272) :
    concatenate (⟨2, ![160000, 272]⟩ : Shape) 1 [⟨⟨2, ![160000, 128]⟩, a⟩, ⟨⟨2, ![160000, 128]⟩, b⟩, ⟨⟨2, ![160000, 16]⟩, c⟩] h (ix2 e p)
      = if h0 : p.val < 128 then a (ix2 e ⟨p.val, h0⟩)
        else if h1 : p.val < 256 then b (ix2 e ⟨p.val - 128, by omega⟩) else c (ix2 e ⟨p.val - 256, by omega⟩) := by
  split
  · next h0 =>
    exact concatenate_apply_piece (t := ⟨2, ![160000, 272]⟩) (1 : Fin 2) [⟨⟨2, ![160000, 128]⟩, a⟩, ⟨⟨2, ![160000, 128]⟩, b⟩, ⟨⟨2, ![160000, 16]⟩, c⟩] h (ix2 e p) 0 (by show 0 < 3; omega) _ a rfl rfl 0 rfl (ix2 e ⟨p.val, h0⟩)
      (fun q hq => by
        match q with
        | ⟨0, _⟩ => rfl
        | ⟨1, _⟩ => exact absurd (Fin.ext rfl) hq)
      (by show 0 + p.val = p.val; omega)
  · next h0 =>
    split
    · next h1 =>
      exact concatenate_apply_piece (t := ⟨2, ![160000, 272]⟩) (1 : Fin 2) [⟨⟨2, ![160000, 128]⟩, a⟩, ⟨⟨2, ![160000, 128]⟩, b⟩, ⟨⟨2, ![160000, 16]⟩, c⟩] h (ix2 e p) 1 (by show 1 < 3; omega) _ b rfl rfl 128 rfl (ix2 e ⟨p.val - 128, by omega⟩)
        (fun q hq => by
          match q with
          | ⟨0, _⟩ => rfl
          | ⟨1, _⟩ => exact absurd (Fin.ext rfl) hq)
        (by show 128 + (p.val - 128) = p.val; omega)
    · next h1 =>
      exact concatenate_apply_piece (t := ⟨2, ![160000, 272]⟩) (1 : Fin 2) [⟨⟨2, ![160000, 128]⟩, a⟩, ⟨⟨2, ![160000, 128]⟩, b⟩, ⟨⟨2, ![160000, 16]⟩, c⟩] h (ix2 e p) 2 (by show 2 < 3; omega) _ c rfl rfl 256 rfl (ix2 e ⟨p.val - 256, by omega⟩)
        (fun q hq => by
          match q with
          | ⟨0, _⟩ => rfl
          | ⟨1, _⟩ => exact absurd (Fin.ext rfl) hq)
        (by show 256 + (p.val - 256) = p.val; omega)

/-- [a | b] along the columns of a matrix, widths 400, 272. -/
theorem cat_in_apply {α : Type} (a : (⟨2, ![160000, 400]⟩ : Shape).Idx → α) (b : (⟨2, ![160000, 272]⟩ : Shape).Idx → α)
    (h : Shape.Concatenates [(⟨2, ![160000, 400]⟩ : Shape), ⟨2, ![160000, 272]⟩] ⟨2, ![160000, 672]⟩ 1)
    (e : Fin 160000) (q : Fin 672) :
    concatenate (⟨2, ![160000, 672]⟩ : Shape) 1 [⟨⟨2, ![160000, 400]⟩, a⟩, ⟨⟨2, ![160000, 272]⟩, b⟩] h (ix2 e q)
      = if h0 : q.val < 400 then a (ix2 e ⟨q.val, h0⟩) else b (ix2 e ⟨q.val - 400, by omega⟩) := by
  split
  · next h0 =>
    exact concatenate_apply_piece (t := ⟨2, ![160000, 672]⟩) (1 : Fin 2) [⟨⟨2, ![160000, 400]⟩, a⟩, ⟨⟨2, ![160000, 272]⟩, b⟩] h (ix2 e q) 0 (by show 0 < 2; omega) _ a rfl rfl 0 rfl (ix2 e ⟨q.val, h0⟩)
      (fun r hr => by
        match r with
        | ⟨0, _⟩ => rfl
        | ⟨1, _⟩ => exact absurd (Fin.ext rfl) hr)
      (by show 0 + q.val = q.val; omega)
  · next h0 =>
    exact concatenate_apply_piece (t := ⟨2, ![160000, 672]⟩) (1 : Fin 2) [⟨⟨2, ![160000, 400]⟩, a⟩, ⟨⟨2, ![160000, 272]⟩, b⟩] h (ix2 e q) 1 (by show 1 < 2; omega) _ b rfl rfl 400 rfl (ix2 e ⟨q.val - 400, by omega⟩)
      (fun r hr => by
        match r with
        | ⟨0, _⟩ => rfl
        | ⟨1, _⟩ => exact absurd (Fin.ext rfl) hr)
      (by show 400 + (q.val - 400) = q.val; omega)

/-! ## The two rows of the index argument, and the wrapped indices -/

/-- Row 0 of the index argument at edge e. -/
theorem v1_at (e : Fin 160000) : val_main_v1 (F := Ideal) x2 (ix1 e) = x2 (ix2 (0 : Fin 2) e) := by
  rw [val_main_v1_apply, val_main_v0_apply]
  exact congrArg x2 (funext fun a => Fin.ext (by
    match a with
    | ⟨0, _⟩ => rfl
    | ⟨1, _⟩ => show e.val % 160000 = e.val; exact Nat.mod_eq_of_lt e.isLt))

/-- Row 1 of the index argument at edge e. -/
theorem v3_at (e : Fin 160000) : val_main_v3 (F := Ideal) x2 (ix1 e) = x2 (ix2 (1 : Fin 2) e) := by
  rw [val_main_v3_apply, val_main_v2_apply]
  exact congrArg x2 (funext fun a => Fin.ext (by
    match a with
    | ⟨0, _⟩ => rfl
    | ⟨1, _⟩ => show e.val % 160000 = e.val; exact Nat.mod_eq_of_lt e.isLt))

/-- The wrapped source index (first use) is the source word. -/
theorem v9_at (hsrc : ∀ e : Fin 160000, (x2 (ix2 (0 : Fin 2) e)).toInt = ((src e).val : Int)) (e : Fin 160000) :
    val_main_v9 (F := Ideal) x2 (ix2 e (0 : Fin 1)) = x2 (ix2 (0 : Fin 2) e) := by
  have hi : idx_main_v9 (ix2 e (0 : Fin 1)) = ix1 e := funext fun a => Fin.ext (by match a with | ⟨0, _⟩ => rfl)
  rw [val_main_v9_apply, hi, val_main_v8_apply, val_main_v5_apply, val_main_v7_apply, val_main_v4_apply, val_main_v6_apply,
    val_main_c_apply, val_main_c_0_apply, v1_at]
  exact wrap_id _ (by rw [hsrc e]; exact Int.natCast_nonneg _)

/-- The wrapped destination index (first use) is the destination word. -/
theorem v16_at (hdst : ∀ e : Fin 160000, (x2 (ix2 (1 : Fin 2) e)).toInt = ((dst e).val : Int)) (e : Fin 160000) :
    val_main_v16 (F := Ideal) x2 (ix2 e (0 : Fin 1)) = x2 (ix2 (1 : Fin 2) e) := by
  have hi : idx_main_v16 (ix2 e (0 : Fin 1)) = ix1 e := funext fun a => Fin.ext (by match a with | ⟨0, _⟩ => rfl)
  rw [val_main_v16_apply, hi, val_main_v15_apply, val_main_v12_apply, val_main_v14_apply, val_main_v11_apply, val_main_v13_apply,
    val_main_c_1_apply, val_main_c_2_apply, v3_at]
  exact wrap_id _ (by rw [hdst e]; exact Int.natCast_nonneg _)

/-- The wrapped source index (second use) is the source word. -/
theorem v24_at (hsrc : ∀ e : Fin 160000, (x2 (ix2 (0 : Fin 2) e)).toInt = ((src e).val : Int)) (e : Fin 160000) :
    val_main_v24 (F := Ideal) x2 (ix2 e (0 : Fin 1)) = x2 (ix2 (0 : Fin 2) e) := by
  have hi : idx_main_v24 (ix2 e (0 : Fin 1)) = ix1 e := funext fun a => Fin.ext (by match a with | ⟨0, _⟩ => rfl)
  rw [val_main_v24_apply, hi, val_main_v23_apply, val_main_v20_apply, val_main_v22_apply, val_main_v19_apply, val_main_v21_apply,
    val_main_c_3_apply, val_main_c_4_apply, v1_at]
  exact wrap_id _ (by rw [hsrc e]; exact Int.natCast_nonneg _)

/-- The wrapped destination index (second use) is the destination word. -/
theorem v31_at (hdst : ∀ e : Fin 160000, (x2 (ix2 (1 : Fin 2) e)).toInt = ((dst e).val : Int)) (e : Fin 160000) :
    val_main_v31 (F := Ideal) x2 (ix2 e (0 : Fin 1)) = x2 (ix2 (1 : Fin 2) e) := by
  have hi : idx_main_v31 (ix2 e (0 : Fin 1)) = ix1 e := funext fun a => Fin.ext (by match a with | ⟨0, _⟩ => rfl)
  rw [val_main_v31_apply, hi, val_main_v30_apply, val_main_v27_apply, val_main_v29_apply, val_main_v26_apply, val_main_v28_apply,
    val_main_c_5_apply, val_main_c_6_apply, v3_at]
  exact wrap_id _ (by rw [hdst e]; exact Int.natCast_nonneg _)

/-- A node's word, read signed and clamped to the last node, is the node's number. -/
theorem clamp_node (w : BitVec 32) (n : Fin 10000) (h : w.toInt = (n.val : Int)) :
    min w.toInt.toNat (10000 - 1) = n.val := by
  rw [h, Int.toNat_natCast]
  exact Nat.min_eq_left (by have := n.isLt; omega)

/-! ## The gathers -/

/-- The source's spatial slab. -/
theorem v10_at (hsrc : ∀ e : Fin 160000, (x2 (ix2 (0 : Fin 2) e)).toInt = ((src e).val : Int))
    (e : Fin 160000) (i : Fin 3) (k : Fin 8) :
    val_main_v10 (F := Ideal) x0 x2 (ix3 e i k) = x0 (ix3 (src e) i k) := by
  unfold val_main_v10
  refine (Cert.LibSlab.gather_slab_apply_of (hN := by decide) _ rfl rfl rfl rfl rfl rfl rfl x0
    (val_main_v9 (F := Ideal) x2) e i k).trans ?_
  refine congrArg x0 (funext fun a => Fin.ext ?_)
  match a with
  | ⟨0, _⟩ =>
    show min (val_main_v9 (F := Ideal) x2 (ix2 e (0 : Fin 1))).toInt.toNat (10000 - 1) = (src e).val
    rw [v9_at x2 src hsrc e]
    exact clamp_node _ _ (hsrc e)
  | ⟨1, _⟩ => rfl
  | ⟨2, _⟩ => rfl

/-- The destination's spatial slab. -/
theorem v17_at (hdst : ∀ e : Fin 160000, (x2 (ix2 (1 : Fin 2) e)).toInt = ((dst e).val : Int))
    (e : Fin 160000) (i : Fin 3) (k : Fin 8) :
    val_main_v17 (F := Ideal) x0 x2 (ix3 e i k) = x0 (ix3 (dst e) i k) := by
  unfold val_main_v17
  refine (Cert.LibSlab.gather_slab_apply_of (hN := by decide) _ rfl rfl rfl rfl rfl rfl rfl x0
    (val_main_v16 (F := Ideal) x2) e i k).trans ?_
  refine congrArg x0 (funext fun a => Fin.ext ?_)
  match a with
  | ⟨0, _⟩ =>
    show min (val_main_v16 (F := Ideal) x2 (ix2 e (0 : Fin 1))).toInt.toNat (10000 - 1) = (dst e).val
    rw [v16_at x2 dst hdst e]
    exact clamp_node _ _ (hdst e)
  | ⟨1, _⟩ => rfl
  | ⟨2, _⟩ => rfl

/-- The source's scalar row. -/
theorem v25_at (hsrc : ∀ e : Fin 160000, (x2 (ix2 (0 : Fin 2) e)).toInt = ((src e).val : Int))
    (e : Fin 160000) (j : Fin 128) :
    val_main_v25 (F := Ideal) x1 x2 (ix2 e j) = x1 (ix2 (src e) j) := by
  unfold val_main_v25
  refine (Cert.LibIndex.gather_row_apply_of (hN := by decide) _ rfl rfl rfl rfl rfl rfl rfl x1
    (val_main_v24 (F := Ideal) x2) e j).trans ?_
  refine congrArg x1 (funext fun a => Fin.ext ?_)
  match a with
  | ⟨0, _⟩ =>
    show min (val_main_v24 (F := Ideal) x2 (ix2 e (0 : Fin 1))).toInt.toNat (10000 - 1) = (src e).val
    rw [v24_at x2 src hsrc e]
    exact clamp_node _ _ (hsrc e)
  | ⟨1, _⟩ => rfl

/-- The destination's scalar row. -/
theorem v32_at (hdst : ∀ e : Fin 160000, (x2 (ix2 (1 : Fin 2) e)).toInt = ((dst e).val : Int))
    (e : Fin 160000) (j : Fin 128) :
    val_main_v32 (F := Ideal) x1 x2 (ix2 e j) = x1 (ix2 (dst e) j) := by
  unfold val_main_v32
  refine (Cert.LibIndex.gather_row_apply_of (hN := by decide) _ rfl rfl rfl rfl rfl rfl rfl x1
    (val_main_v31 (F := Ideal) x2) e j).trans ?_
  refine congrArg x1 (funext fun a => Fin.ext ?_)
  match a with
  | ⟨0, _⟩ =>
    show min (val_main_v31 (F := Ideal) x2 (ix2 e (0 : Fin 1))).toInt.toNat (10000 - 1) = (dst e).val
    rw [v31_at x2 dst hdst e]
    exact clamp_node _ _ (hdst e)
  | ⟨1, _⟩ => rfl

/-! ## The rows of edge e, named as Spec.lean names them -/

/-- The source's and the destination's three spatial rows, and the edge's own. -/
abbrev fS (e : Fin 160000) : Fin 3 → Fin 8 → EReal := Cert.Spec.fRow x0 (src e)
abbrev fD (e : Fin 160000) : Fin 3 → Fin 8 → EReal := Cert.Spec.fRow x0 (dst e)
abbrev fE (e : Fin 160000) : Fin 3 → Fin 4 → EReal := fun i k => x3 (ix3 e i k)
/-- The source's and the destination's scalar rows, and the edge's own. -/
abbrev sS (e : Fin 160000) : Fin 128 → EReal := Cert.Spec.sRow x1 (src e)
abbrev sD (e : Fin 160000) : Fin 128 → EReal := Cert.Spec.sRow x1 (dst e)
abbrev sE (e : Fin 160000) : Fin 16 → EReal := fun j => x4 (ix2 e j)
/-- The three layers' weights and biases by coordinates. -/
abbrev W1 : Fin 672 → Fin 128 → EReal := fun q j => x5 (ix2 q j)
abbrev B1 : Fin 128 → EReal := fun j => x6 (ix1 j)
abbrev W2 : Fin 128 → Fin 128 → EReal := fun q j => x7 (ix2 q j)
abbrev B2 : Fin 128 → EReal := fun j => x8 (ix1 j)
abbrev W3 : Fin 128 → Fin 288 → EReal := fun q j => x9 (ix2 q j)
abbrev B3 : Fin 288 → EReal := fun j => x10 (ix1 j)
/-- X = [f(src) | f(dst) | edge_f] at edge e. -/
abbrev X (e : Fin 160000) : Fin 3 → Fin 20 → EReal := Cert.Spec.cat3 (fS x0 src e) (fD x0 dst e) (fE x3 e)
/-- The flattened Gram matrix of X. -/
abbrev G (e : Fin 160000) : Fin 400 → EReal := Cert.Spec.gramFlat20 (X x0 x3 src dst e)
/-- The unit Gram vector. -/
abbrev Uv (e : Fin 160000) : Fin 400 → EReal := Cert.Spec.edgeU (fS x0 src e) (fD x0 dst e) (fE x3 e)
/-- The network's 672 inputs. -/
abbrev Inp (e : Fin 160000) : Fin 672 → EReal :=
  Cert.Spec.edgeIn (Uv x0 x3 src dst e) (sS x1 src e) (sD x1 dst e) (sE x4 e)
/-- The two hidden layers and the 288 outputs. -/
abbrev H1 (e : Fin 160000) : Fin 128 → EReal :=
  Cert.Spec.edgeH1 (fS x0 src e) (fD x0 dst e) (fE x3 e) (sS x1 src e) (sD x1 dst e) (sE x4 e) (W1 x5) (B1 x6)
abbrev H2 (e : Fin 160000) : Fin 128 → EReal :=
  Cert.Spec.edgeH2 (fS x0 src e) (fD x0 dst e) (fE x3 e) (sS x1 src e) (sD x1 dst e) (sE x4 e) (W1 x5) (B1 x6) (W2 x7) (B2 x8)
abbrev Cv (e : Fin 160000) : Fin 288 → EReal :=
  Cert.Spec.edgeC (fS x0 src e) (fD x0 dst e) (fE x3 e) (sS x1 src e) (sD x1 dst e) (sE x4 e) (W1 x5) (B1 x6) (W2 x7) (B2 x8)
    (W3 x9) (B3 x10)

/-! ## The joined rows -/

/-- The joined spatial rows are X. -/
theorem v18_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (i : Fin 3) (d : Fin 20) :
    val_main_v18 (F := Ideal) x0 x2 x3 (ix3 e i d) = X x0 x3 src dst e i d := by
  unfold val_main_v18
  rw [cat_f_apply]
  unfold X Cert.Spec.cat3
  by_cases h0 : d.val < 8
  · simp only [h0, ↓reduceDIte]
    exact v10_at x0 x2 src hsrc e i ⟨d.val, h0⟩
  · by_cases h1 : d.val < 16
    · simp only [h0, h1, ↓reduceDIte]
      exact v17_at x0 x2 dst hdst e i ⟨d.val - 8, by omega⟩
    · simp only [h0, h1, ↓reduceDIte]

/-- The joined scalar rows. -/
theorem v33_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (p : Fin 272) :
    val_main_v33 (F := Ideal) x1 x2 x4 (ix2 e p)
      = if h0 : p.val < 128 then sS x1 src e ⟨p.val, h0⟩
        else if h1 : p.val < 256 then sD x1 dst e ⟨p.val - 128, by omega⟩ else sE x4 e ⟨p.val - 256, by omega⟩ := by
  unfold val_main_v33
  rw [cat_s_apply]
  by_cases h0 : p.val < 128
  · simp only [h0, ↓reduceDIte]
    exact v25_at x1 x2 src hsrc e ⟨p.val, h0⟩
  · by_cases h1 : p.val < 256
    · simp only [h0, h1, ↓reduceDIte]
      exact v32_at x1 x2 dst hdst e ⟨p.val - 128, by omega⟩
    · simp only [h0, h1, ↓reduceDIte]

/-! ## The Gram matrix, flattened and divided by its norm -/

/-- The batched product over the spatial axis is the Gram matrix of X. -/
theorem v34_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (d k : Fin 20) :
    val_main_v34 (F := Ideal) x0 x2 x3 (ix3 e d k) = Cert.Spec.gram (X x0 x3 src dst e) d k := by
  rw [val_main_v34_apply]
  unfold Cert.Spec.gram
  refine Finset.sum_congr rfl fun i _ => ?_
  have hl : lidx_main_v34 (ix3 e d k) i = ix3 e i d :=
    funext fun a => Fin.ext (by match a with | ⟨0, _⟩ => rfl | ⟨1, _⟩ => rfl | ⟨2, _⟩ => rfl)
  have hr : ridx_main_v34 (ix3 e d k) i = ix3 e i k :=
    funext fun a => Fin.ext (by match a with | ⟨0, _⟩ => rfl | ⟨1, _⟩ => rfl | ⟨2, _⟩ => rfl)
  rw [hl, hr, v18_at x0 x2 x3 src dst hsrc hdst, v18_at x0 x2 x3 src dst hsrc hdst]

/-- Flattened row-major. -/
theorem v35_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (p : Fin 400) :
    val_main_v35 (F := Ideal) x0 x2 x3 (ix2 e p) = G x0 x3 src dst e p := by
  have hi : idx_main_v35 (ix2 e p)
      = ix3 e (⟨p.val / 20, by have := p.isLt; omega⟩ : Fin 20) (⟨p.val % 20, by omega⟩ : Fin 20) :=
    funext fun a => Fin.ext (by
      match a with
      | ⟨0, _⟩ => show (e.val * 400 + p.val) / 400 = e.val; have := p.isLt; omega
      | ⟨1, _⟩ => show (e.val * 400 + p.val) / 20 % 20 = p.val / 20; have := p.isLt; omega
      | ⟨2, _⟩ => show (e.val * 400 + p.val) % 20 = p.val % 20; omega)
  rw [val_main_v35_apply, hi, v34_at x0 x2 x3 src dst hsrc hdst]
  rfl

/-- The sum of squares, started from the zero word. -/
theorem norm_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) :
    val_main_call0_v1 (F := Ideal) x0 x2 x3 (ix1 e) = ∑ q : Fin 400, G x0 x3 src dst e q * G x0 x3 src dst e q := by
  rw [val_main_call0_v1_apply, val_main_call0_cst_apply]
  simp only [Ideal.ofBits_def, Ideal.ofBits_zero_f32, zero_add]
  refine Finset.sum_congr rfl fun q _ => ?_
  have hi : idx_main_call0_v1 (ix1 e) q = ix2 e q :=
    funext fun a => Fin.ext (by match a with | ⟨0, _⟩ => rfl | ⟨1, _⟩ => rfl)
  rw [hi, val_main_call0_v0_apply, v35_at x0 x2 x3 src dst hsrc hdst]
  rfl

/-- The larger of the norm and the guard. -/
theorem v38_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) :
    val_main_v38 (F := Ideal) x0 x2 x3 (ix2 e (0 : Fin 1))
      = max (Ideal.sqrt (∑ q : Fin 400, G x0 x3 src dst e q * G x0 x3 src dst e q)) Cert.Spec.guard := by
  have hi : idx_main_call0_v2 (ix2 e (0 : Fin 1)) = ix1 e :=
    funext fun a => Fin.ext (by match a with | ⟨0, _⟩ => rfl)
  rw [val_main_v38_apply, val_main_v36_apply, val_main_call0_v2_apply, hi, norm_at x0 x2 x3 src dst hsrc hdst,
    val_main_v37_apply, val_main_cst_apply]
  rfl

/-- The unit Gram vector. -/
theorem v40_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (p : Fin 400) :
    val_main_v40 (F := Ideal) x0 x2 x3 (ix2 e p) = Uv x0 x3 src dst e p := by
  have hi : idx_main_v39 (ix2 e p) = ix2 e (0 : Fin 1) :=
    funext fun a => Fin.ext (by match a with | ⟨0, _⟩ => rfl | ⟨1, _⟩ => rfl)
  rw [val_main_v40_apply, val_main_v39_apply, hi, v38_at x0 x2 x3 src dst hsrc hdst, v35_at x0 x2 x3 src dst hsrc hdst]
  rfl

/-! ## The network's input and its three layers -/

/-- The 672 inputs: the unit Gram vector, then the three scalar rows. -/
theorem v41_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (q : Fin 672) :
    val_main_v41 (F := Ideal) x0 x1 x2 x3 x4 (ix2 e q) = Inp x0 x1 x3 x4 src dst e q := by
  unfold val_main_v41
  rw [cat_in_apply]
  unfold Inp Cert.Spec.edgeIn
  by_cases h0 : q.val < 400
  · simp only [h0, ↓reduceDIte]
    exact v40_at x0 x2 x3 src dst hsrc hdst e ⟨q.val, h0⟩
  · simp only [h0, ↓reduceDIte]
    rw [v33_at x1 x2 x4 src dst hsrc hdst]
    have hq := q.isLt
    by_cases h1 : q.val < 528
    · have h1' : q.val - 400 < 128 := by omega
      simp only [h1, h1', ↓reduceDIte]
    · by_cases h2 : q.val < 656
      · have h1' : ¬ q.val - 400 < 128 := by omega
        have h2' : q.val - 400 < 256 := by omega
        simp only [h1, h2, h1', h2', ↓reduceDIte]
        exact congrArg (sD x1 dst e) (Fin.ext (by show q.val - 400 - 128 = q.val - 528; omega))
      · have h1' : ¬ q.val - 400 < 128 := by omega
        have h2' : ¬ q.val - 400 < 256 := by omega
        simp only [h1, h2, h1', h2', ↓reduceDIte]
        exact congrArg (sE x4 e) (Fin.ext (by show q.val - 400 - 256 = q.val - 656; omega))

/-- The first affine layer. -/
theorem v45_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (j : Fin 128) :
    val_main_v45 (F := Ideal) x0 x1 x2 x3 x4 x5 x6 (ix2 e j)
      = Cert.Spec.lin (Inp x0 x1 x3 x4 src dst e) (W1 x5) (B1 x6) j := by
  rw [val_main_v45_apply, val_main_v42_apply, val_main_v44_apply, val_main_v43_apply]
  unfold Cert.Spec.lin
  refine congrArg₂ (· + ·) (Finset.sum_congr rfl fun q _ => ?_) ?_
  · have hl : lidx_main_v42 (ix2 e j) q = ix2 e q :=
      funext fun a => Fin.ext (by match a with | ⟨0, _⟩ => rfl | ⟨1, _⟩ => rfl)
    have hr : ridx_main_v42 (ix2 e j) q = ix2 q j :=
      funext fun a => Fin.ext (by match a with | ⟨0, _⟩ => rfl | ⟨1, _⟩ => rfl)
    rw [hl, hr, v41_at x0 x1 x2 x3 x4 src dst hsrc hdst]
  · exact congrArg x6 (funext fun a => Fin.ext (by match a with | ⟨0, _⟩ => rfl))

/-- The first hidden layer. -/
theorem v46_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (j : Fin 128) :
    val_main_v46 (F := Ideal) x0 x1 x2 x3 x4 x5 x6 (ix2 e j) = H1 x0 x1 x3 x4 x5 x6 src dst e j := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, v45_at x0 x1 x2 x3 x4 x5 x6 src dst hsrc hdst]
  simp only [Ideal.mulf_def, Ideal.hostDivf_def, Ideal.addf_def, Ideal.hostUnary_exp_def, Ideal.hostNegf_def, Ideal.negf_def,
    Ideal.ofBits_def]
  exact silu_words _

/-- The second affine layer. -/
theorem v50_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (j : Fin 128) :
    val_main_v50 (F := Ideal) x0 x1 x2 x3 x4 x5 x6 x7 x8 (ix2 e j)
      = Cert.Spec.lin (H1 x0 x1 x3 x4 x5 x6 src dst e) (W2 x7) (B2 x8) j := by
  rw [val_main_v50_apply, val_main_v47_apply, val_main_v49_apply, val_main_v48_apply]
  unfold Cert.Spec.lin
  refine congrArg₂ (· + ·) (Finset.sum_congr rfl fun q _ => ?_) ?_
  · have hl : lidx_main_v47 (ix2 e j) q = ix2 e q :=
      funext fun a => Fin.ext (by match a with | ⟨0, _⟩ => rfl | ⟨1, _⟩ => rfl)
    have hr : ridx_main_v47 (ix2 e j) q = ix2 q j :=
      funext fun a => Fin.ext (by match a with | ⟨0, _⟩ => rfl | ⟨1, _⟩ => rfl)
    rw [hl, hr, v46_at x0 x1 x2 x3 x4 x5 x6 src dst hsrc hdst]
  · exact congrArg x8 (funext fun a => Fin.ext (by match a with | ⟨0, _⟩ => rfl))

/-- The second hidden layer. -/
theorem v51_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (j : Fin 128) :
    val_main_v51 (F := Ideal) x0 x1 x2 x3 x4 x5 x6 x7 x8 (ix2 e j) = H2 x0 x1 x3 x4 x5 x6 x7 x8 src dst e j := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, v50_at x0 x1 x2 x3 x4 x5 x6 x7 x8 src dst hsrc hdst]
  simp only [Ideal.mulf_def, Ideal.hostDivf_def, Ideal.addf_def, Ideal.hostUnary_exp_def, Ideal.hostNegf_def, Ideal.negf_def,
    Ideal.ofBits_def]
  exact silu_words _

/-- The 288 outputs. -/
theorem v55_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (j : Fin 288) :
    val_main_v55 (F := Ideal) x0 x1 x2 x3 x4 x5 x6 x7 x8 x9 x10 (ix2 e j)
      = Cv x0 x1 x3 x4 x5 x6 x7 x8 x9 x10 src dst e j := by
  rw [val_main_v55_apply, val_main_v52_apply, val_main_v54_apply, val_main_v53_apply]
  unfold Cv Cert.Spec.edgeC Cert.Spec.lin
  refine congrArg₂ (· + ·) (Finset.sum_congr rfl fun q _ => ?_) ?_
  · have hl : lidx_main_v52 (ix2 e j) q = ix2 e q :=
      funext fun a => Fin.ext (by match a with | ⟨0, _⟩ => rfl | ⟨1, _⟩ => rfl)
    have hr : ridx_main_v52 (ix2 e j) q = ix2 q j :=
      funext fun a => Fin.ext (by match a with | ⟨0, _⟩ => rfl | ⟨1, _⟩ => rfl)
    rw [hl, hr, v51_at x0 x1 x2 x3 x4 x5 x6 x7 x8 src dst hsrc hdst]
  · exact congrArg x10 (funext fun a => Fin.ext (by match a with | ⟨0, _⟩ => rfl))

/-- The first 160 outputs as a 20 × 8 matrix. -/
theorem v58_at (hsrc : ∀ e : Fin 160000, (x2 (ix2 (0 : Fin 2) e)).toInt = ((src e).val : Int))
    (hdst : ∀ e : Fin 160000, (x2 (ix2 (1 : Fin 2) e)).toInt = ((dst e).val : Int))
    (e : Fin 160000) (d : Fin 20) (k : Fin 8) :
    val_main_v58 (F := Ideal) x0 x1 x2 x3 x4 x5 x6 x7 x8 x9 x10 (ix3 e d k)
      = Cv x0 x1 x3 x4 x5 x6 x7 x8 x9 x10 src dst e ⟨8 * d.val + k.val, by omega⟩ := by
  have hi : idx_main_v56 (idx_main_v58 (ix3 e d k)) = ix2 e (⟨8 * d.val + k.val, by omega⟩ : Fin 288) :=
    funext fun a => Fin.ext (by
      match a with
      | ⟨0, _⟩ =>
        show ((e.val * 20 + d.val) * 8 + k.val) / 160 = e.val
        have := d.isLt; have := k.isLt; omega
      | ⟨1, _⟩ =>
        show ((e.val * 20 + d.val) * 8 + k.val) % 160 = 8 * d.val + k.val
        have := d.isLt; have := k.isLt; omega)
  rw [val_main_v58_apply, val_main_v56_apply, hi, v55_at x0 x1 x2 x3 x4 x5 x6 x7 x8 x9 x10 src dst hsrc hdst]

/-- THE EQUIVARIANT MESSAGE the reference scatters, at edge `e`. -/
theorem v59_apply (hsrc : ∀ e : Fin 160000, (x2 (ix2 (0 : Fin 2) e)).toInt = ((src e).val : Int))
    (hdst : ∀ e : Fin 160000, (x2 (ix2 (1 : Fin 2) e)).toInt = ((dst e).val : Int)) (e : Fin 160000) (i : Fin 3) (k : Fin 8) :
    val_main_v59 (F := Ideal) x0 x1 x2 x3 x4 x5 x6 x7 x8 x9 x10 (ix3 e i k)
      = Cert.Spec.msgF x0 x1 src dst x3 x4 x5 x6 x7 x8 x9 x10 e i k := by
  rw [val_main_v59_apply]
  unfold Cert.Spec.msgF Cert.Spec.edgeF
  refine Finset.sum_congr rfl fun d _ => ?_
  have hl : lidx_main_v59 (ix3 e i k) d = ix3 e i d :=
    funext fun a => Fin.ext (by match a with | ⟨0, _⟩ => rfl | ⟨1, _⟩ => rfl | ⟨2, _⟩ => rfl)
  have hr : ridx_main_v59 (ix3 e i k) d = ix3 e d k :=
    funext fun a => Fin.ext (by match a with | ⟨0, _⟩ => rfl | ⟨1, _⟩ => rfl | ⟨2, _⟩ => rfl)
  rw [hl, hr, v18_at x0 x2 x3 src dst hsrc hdst, v58_at x0 x1 x2 x3 x4 x5 x6 x7 x8 x9 x10 src dst hsrc hdst]

/-- THE SCALAR MESSAGE the reference scatters, at edge `e`. -/
theorem v57_apply (hsrc : ∀ e : Fin 160000, (x2 (ix2 (0 : Fin 2) e)).toInt = ((src e).val : Int))
    (hdst : ∀ e : Fin 160000, (x2 (ix2 (1 : Fin 2) e)).toInt = ((dst e).val : Int)) (e : Fin 160000) (j : Fin 128) :
    val_main_v57 (F := Ideal) x0 x1 x2 x3 x4 x5 x6 x7 x8 x9 x10 (ix2 e j)
      = Cert.Spec.msgS x0 x1 src dst x3 x4 x5 x6 x7 x8 x9 x10 e j := by
  have hi : idx_main_v57 (ix2 e j) = ix2 e (⟨160 + j.val, by omega⟩ : Fin 288) :=
    funext fun a => Fin.ext (by match a with | ⟨0, _⟩ => rfl | ⟨1, _⟩ => rfl)
  rw [val_main_v57_apply, hi, v55_at x0 x1 x2 x3 x4 x5 x6 x7 x8 x9 x10 src dst hsrc hdst]
  rfl

end Cert.REdge

end
-- ==== Proof.LibScatter3.lean ====
/-
  A host scatter that adds whole slabs of a rank-3 array, read at an index.

  The operand is an array `[N, A, B]`, the scatter indices are `[R, 1]` (one slab number per update slab) and the
  updates are `[R, A, B]`: update slab `k` is added into the operand's slab whose number is `idx[k, 0]`. Read at one
  element at the ideal instance, where a float is an extended real, the result is the operand's element plus the
  exact sum of the same element of every update slab that lands on that slab. A segment sum of an `(R, A, B)` array
  has this shape.
-/
import Idealize.ShloMosaic.PureOps.Ideal
import Idealize.ShloMosaic.Lib.ValueIdx
import Mathlib.Algebra.BigOperators.Group.Finset.Basic

noncomputable section

open scoped BigOperators

namespace Cert.LibScatter3

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A double sum whose summand vanishes off the one pair `(a, b)` is the summand there. -/
theorem sum_sum_ite_pair {M : Type*} [AddCommMonoid M] {A B : Nat} (a : Fin A) (b : Fin B) (f : Fin A → Fin B → M) :
    ∑ a' : Fin A, ∑ b' : Fin B, (if a' = a ∧ b' = b then f a' b' else 0) = f a b := by
  rw [Finset.sum_eq_single a]
  · rw [Finset.sum_eq_single b]
    · exact if_pos ⟨rfl, rfl⟩
    · intro b' _ hb
      exact if_neg fun h => hb h.2
    · intro h
      exact absurd (Finset.mem_univ b) h
  · intro a' _ ha
    exact Finset.sum_eq_zero fun b' _ => if_neg fun h => ha h.1
  · intro h
    exact absurd (Finset.mem_univ a) h

/-! ## A scatter that adds slabs -/

/-- An axis is among a shape's kept axes exactly when it is not among the removed ones. -/
private theorem mem_kept {s : Shape} (axes : List (Fin s.rank)) (a : Fin s.rank) : a ∈ s.kept axes ↔ a ∉ axes := by
  simp [Shape.kept, List.mem_filter, List.mem_finRange]

/-- The dimension numbers of a scatter of whole slabs: operand `[N, A, B]`, scatter indices `[R, 1]` (one slab
    number per update slab), updates `[R, A, B]`; axis 0 of the operand is the inserted, indexed axis, axes 1 and 2
    of the updates are the window axes and go to the operand's axes 1 and 2. -/
abbrev slabScatterDims (N A B R : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

section Slab
variable {N A B R : Nat} (wf : ScatterDims.WF ⟨3, ![N, A, B]⟩ ⟨2, ![R, 1]⟩ ⟨3, ![R, A, B]⟩ [1, 2] [0] [0] 1)

/-- The window of update slab `k` starts, on the operand's axis 0, at the scatter index `idx[k, 0]` read signed. -/
theorem slabScatter_start0 {w : Nat} (idx : IVec ⟨2, ![R, 1]⟩ w) (k : Fin R) (a : Fin A) (b : Fin B) :
    (slabScatterDims N A B R wf).start (ix3 k a b) idx (0 : Fin 3) = (idx (ix2 k (0 : Fin 1))).toInt := by
  unfold ScatterDims.start
  rw [dif_pos (show (0 : Fin 3) ∈ (slabScatterDims N A B R wf).scatterDimsToOperandDims from List.mem_singleton.mpr rfl)]
  have hsi : (slabScatterDims N A B R wf).siIdx (ix3 k a b)
      ⟨List.idxOf (0 : Fin 3) (slabScatterDims N A B R wf).scatterDimsToOperandDims,
        List.idxOf_lt_length_iff.2 (List.mem_singleton.mpr rfl)⟩ = ix2 k (0 : Fin 1) := by
    funext c; refine Fin.ext ?_
    match c with
    | ⟨0, _⟩ => rfl
    | ⟨1, _⟩ => rfl
  rw [hsi]

/-- On an operand axis other than 0, which the scatter indices do not address, the window starts at zero. -/
theorem slabScatter_start_of_ne {w : Nat} (idx : IVec ⟨2, ![R, 1]⟩ w) (j : (⟨3, ![R, A, B]⟩ : Shape).Idx)
    (c : Fin 3) (hc : c ≠ 0) :
    (slabScatterDims N A B R wf).start j idx c = 0 := by
  unfold ScatterDims.start
  exact dif_neg fun h => hc (List.mem_singleton.mp h)

/-- The window coordinate on the inserted axis 0 is zero. -/
theorem slabScatter_window0 (j : (⟨3, ![R, A, B]⟩ : Shape).Idx) :
    (slabScatterDims N A B R wf).window j (0 : Fin 3) = 0 := by
  unfold ScatterDims.window
  exact dif_neg fun h => ((mem_kept _ _).mp h) (List.mem_singleton.mpr rfl)

/-- The window coordinate on axis 1 is the update's coordinate on its axis 1. -/
theorem slabScatter_window1 (j : (⟨3, ![R, A, B]⟩ : Shape).Idx) :
    (slabScatterDims N A B R wf).window j (1 : Fin 3) = (j 1).val := by
  have hk : (1 : Fin 3) ∈ (slabScatterDims N A B R wf).sKept :=
    (mem_kept _ _).mpr (show (1 : Fin 3) ∉ ([0] : List (Fin 3)) from by decide)
  unfold ScatterDims.window
  rw [dif_pos hk]
  rfl

/-- The window coordinate on axis 2 is the update's coordinate on its axis 2. -/
theorem slabScatter_window2 (j : (⟨3, ![R, A, B]⟩ : Shape).Idx) :
    (slabScatterDims N A B R wf).window j (2 : Fin 3) = (j 2).val := by
  have hk : (2 : Fin 3) ∈ (slabScatterDims N A B R wf).sKept :=
    (mem_kept _ _).mpr (show (2 : Fin 3) ∉ ([0] : List (Fin 3)) from by decide)
  unfold ScatterDims.window
  rw [dif_pos hk]
  rfl

/-- Update element `(k, a', b')` lands on operand element `(v, a, b)` exactly when slab `k`'s scatter index, read
    signed, is `v` and the two window coordinates agree (an index that is not a slab number lands nowhere). -/
theorem slabScatter_resultIdx?_eq_some {w : Nat} (idx : IVec ⟨2, ![R, 1]⟩ w) (k : Fin R) (a' : Fin A) (b' : Fin B)
    (v : Fin N) (a : Fin A) (b : Fin B) :
    (slabScatterDims N A B R wf).resultIdx? (ix3 k a' b') idx = some (ix3 v a b)
      ↔ (idx (ix2 k (0 : Fin 1))).toInt = (v.val : Int) ∧ a' = a ∧ b' = b := by
  have hs0 := slabScatter_start0 wf idx k a' b'
  have hs1 := slabScatter_start_of_ne wf idx (ix3 k a' b') (1 : Fin 3) (by decide)
  have hs2 := slabScatter_start_of_ne wf idx (ix3 k a' b') (2 : Fin 3) (by decide)
  have hw0 := slabScatter_window0 wf (ix3 k a' b')
  have hw1 : (slabScatterDims N A B R wf).window (ix3 k a' b') (1 : Fin 3) = a'.val :=
    slabScatter_window1 wf (ix3 k a' b')
  have hw2 : (slabScatterDims N A B R wf).window (ix3 k a' b') (2 : Fin 3) = b'.val :=
    slabScatter_window2 wf (ix3 k a' b')
  have hv := v.isLt
  have ha' := a'.isLt
  have hb' := b'.isLt
  unfold ScatterDims.resultIdx?
  split
  · rename_i h
    rw [Option.some.injEq]
    constructor
    · intro hf
      have h0 : ((slabScatterDims N A B R wf).start (ix3 k a' b') idx (0 : Fin 3)
          + ((slabScatterDims N A B R wf).window (ix3 k a' b') (0 : Fin 3) : Int)).toNat = v.val :=
        congrArg Fin.val (congrFun hf (0 : Fin 3))
      have h1 : ((slabScatterDims N A B R wf).start (ix3 k a' b') idx (1 : Fin 3)
          + ((slabScatterDims N A B R wf).window (ix3 k a' b') (1 : Fin 3) : Int)).toNat = a.val :=
        congrArg Fin.val (congrFun hf (1 : Fin 3))
      have h2 : ((slabScatterDims N A B R wf).start (ix3 k a' b') idx (2 : Fin 3)
          + ((slabScatterDims N A B R wf).window (ix3 k a' b') (2 : Fin 3) : Int)).toNat = b.val :=
        congrArg Fin.val (congrFun hf (2 : Fin 3))
      have hh := (h (0 : Fin 3)).1
      rw [hs0, hw0] at h0 hh
      rw [hs1, hw1] at h1
      rw [hs2, hw2] at h2
      exact ⟨by omega, Fin.ext (by omega), Fin.ext (by omega)⟩
    · rintro ⟨hv', haa, hbb⟩
      have hav : a'.val = a.val := congrArg Fin.val haa
      have hbv : b'.val = b.val := congrArg Fin.val hbb
      funext c
      refine Fin.ext ?_
      match c with
      | ⟨0, _⟩ =>
        show ((slabScatterDims N A B R wf).start (ix3 k a' b') idx (0 : Fin 3)
          + ((slabScatterDims N A B R wf).window (ix3 k a' b') (0 : Fin 3) : Int)).toNat = v.val
        rw [hs0, hw0, hv']; omega
      | ⟨1, _⟩ =>
        show ((slabScatterDims N A B R wf).start (ix3 k a' b') idx (1 : Fin 3)
          + ((slabScatterDims N A B R wf).window (ix3 k a' b') (1 : Fin 3) : Int)).toNat = a.val
        rw [hs1, hw1]; omega
      | ⟨2, _⟩ =>
        show ((slabScatterDims N A B R wf).start (ix3 k a' b') idx (2 : Fin 3)
          + ((slabScatterDims N A B R wf).window (ix3 k a' b') (2 : Fin 3) : Int)).toNat = b.val
        rw [hs2, hw2]; omega
  · rename_i h
    refine iff_of_false (by simp) ?_
    rintro ⟨hv', -, -⟩
    apply h
    intro c
    match c with
    | ⟨0, _⟩ =>
      show 0 ≤ (slabScatterDims N A B R wf).start (ix3 k a' b') idx (0 : Fin 3)
          + ((slabScatterDims N A B R wf).window (ix3 k a' b') (0 : Fin 3) : Int)
        ∧ (slabScatterDims N A B R wf).start (ix3 k a' b') idx (0 : Fin 3)
          + ((slabScatterDims N A B R wf).window (ix3 k a' b') (0 : Fin 3) : Int) < (N : Int)
      rw [hs0, hw0, hv']; omega
    | ⟨1, _⟩ =>
      show 0 ≤ (slabScatterDims N A B R wf).start (ix3 k a' b') idx (1 : Fin 3)
          + ((slabScatterDims N A B R wf).window (ix3 k a' b') (1 : Fin 3) : Int)
        ∧ (slabScatterDims N A B R wf).start (ix3 k a' b') idx (1 : Fin 3)
          + ((slabScatterDims N A B R wf).window (ix3 k a' b') (1 : Fin 3) : Int) < (A : Int)
      rw [hs1, hw1]; omega
    | ⟨2, _⟩ =>
      show 0 ≤ (slabScatterDims N A B R wf).start (ix3 k a' b') idx (2 : Fin 3)
          + ((slabScatterDims N A B R wf).window (ix3 k a' b') (2 : Fin 3) : Int)
        ∧ (slabScatterDims N A B R wf).start (ix3 k a' b') idx (2 : Fin 3)
          + ((slabScatterDims N A B R wf).window (ix3 k a' b') (2 : Fin 3) : Int) < (B : Int)
      rw [hs2, hw2]; omega

/-- THE SLAB SCATTER-ADD READ AT `(v, a, b)`, at the ideal instance: the operand's element plus element `(a, b)` of
    every update slab whose scatter index, read signed, is `v`. -/
theorem scatterAdd_slab_apply {w : Nat} {φ : FTy}
    (x : FVec Ideal ⟨3, ![N, A, B]⟩ φ) (idx : IVec ⟨2, ![R, 1]⟩ w) (upd : FVec Ideal ⟨3, ![R, A, B]⟩ φ)
    (v : Fin N) (a : Fin A) (b : Fin B) :
    Host.scatterAdd (F := Ideal) (slabScatterDims N A B R wf) x idx upd (ix3 v a b)
      = x (ix3 v a b)
        + ∑ k : Fin R, if (idx (ix2 k (0 : Fin 1))).toInt = (v.val : Int) then upd (ix3 k a b) else 0 := by
  show Ideal.hostScatterAdd (slabScatterDims N A B R wf) x idx upd (ix3 v a b) = _
  unfold Ideal.hostScatterAdd
  congr 1
  rw [Finset.sum_filter, sum_idx3]
  refine Finset.sum_congr rfl fun k _ => ?_
  simp only [slabScatter_resultIdx?_eq_some]
  by_cases hk : (idx (ix2 k (0 : Fin 1))).toInt = (v.val : Int)
  · have hcg : ∀ (a' : Fin A) (b' : Fin B),
        (if (idx (ix2 k (0 : Fin 1))).toInt = (v.val : Int) ∧ a' = a ∧ b' = b then upd (ix3 k a' b') else 0)
          = if a' = a ∧ b' = b then upd (ix3 k a' b') else 0 :=
      fun a' b' => if_congr (and_iff_right hk) rfl rfl
    rw [if_pos hk, Finset.sum_congr rfl fun a' _ => Finset.sum_congr rfl fun b' _ => hcg a' b']
    exact sum_sum_ite_pair a b fun a' b' => upd (ix3 k a' b')
  · rw [if_neg hk]
    exact Finset.sum_eq_zero fun a' _ => Finset.sum_eq_zero fun b' _ => if_neg fun h => hk h.1

end Slab

/-- The same for any dimension numbers whose fields are those of a scatter of slabs (a printed record's are, each by
    `rfl`). -/
theorem scatterAdd_slab_apply_of {N A B R w : Nat} (d : ScatterDims ⟨3, ![N, A, B]⟩ ⟨2, ![R, 1]⟩ ⟨3, ![R, A, B]⟩)
    (h1 : d.updateWindowDims = [1, 2]) (h2 : d.insertedWindowDims = [0]) (h3 : d.scatterDimsToOperandDims = [0])
    (h4 : d.indexVectorDim = 1) {φ : FTy}
    (x : FVec Ideal ⟨3, ![N, A, B]⟩ φ) (idx : IVec ⟨2, ![R, 1]⟩ w) (upd : FVec Ideal ⟨3, ![R, A, B]⟩ φ)
    (v : Fin N) (a : Fin A) (b : Fin B) :
    Host.scatterAdd (F := Ideal) d x idx upd (ix3 v a b)
      = x (ix3 v a b)
        + ∑ k : Fin R, if (idx (ix2 k (0 : Fin 1))).toInt = (v.val : Int) then upd (ix3 k a b) else 0 := by
  obtain ⟨uw, iw, sd, iv, wf⟩ := d
  dsimp only at h1 h2 h3 h4
  subst h1 h2 h3 h4
  exact scatterAdd_slab_apply wf x idx upd v a b

end Cert.LibScatter3

end
-- ==== Proof.RNode.lean ====
/-
  The reference's two results.

  The reference adds each edge's messages into its source node (scatter-adds into zeros by the source indices: at the
  ideal instance the exact sum over the edges whose index is that node), counts each node's edges the same way, and
  divides by the larger of the count and one: the averaged messages of Spec.lean. It then joins `[f | mean message]`,
  forms and normalizes the Gram matrix as for an edge, joins it with the node's scalars and the mean scalar message,
  applies the three node layers, contracts the first 128 outputs (as 16 × 8) with the spatial rows and cuts off the
  last 128: the node function of Spec.lean at node `n`.
-/
import proofs.«408349_j8770323218950_3_alg».proof.Proof.RefRead
import proofs.«408349_j8770323218950_3_alg».proof.Proof.Spec
import proofs.«408349_j8770323218950_3_alg».proof.Proof.REdge
import proofs.«408349_j8770323218950_3_alg».proof.Proof.LibIndex
import proofs.«408349_j8770323218950_3_alg».proof.Proof.LibScatter3
import proofs.«408349_j8770323218950_3_alg».proof.Proof.LibBatchDot
import proofs.«408349_j8770323218950_3_alg».proof.Proof.LibDot
import Idealize.ShloMosaic.Lib.ValueLayout

noncomputable section

namespace Cert.RNode

open Cert.ReferenceIdeal Cert.ReferenceIdeal.Gen Cert.ReferenceIdeal.Read Idealize.ShloMosaic Idealize.ShloMosaic.TcCoe
open Idealize.SL.Sem Idealize.ShloMosaic.ValueIdx

variable (x0 : (⟨S10000x3x8, .f32⟩ : BufTy).Contents (Elt Ideal)) (x1 : (⟨S10000x128, .f32⟩ : BufTy).Contents (Elt Ideal))
  (x2 : (⟨S2x160000, .i32⟩ : BufTy).Contents (Elt Ideal)) (x3 : (⟨S160000x3x4, .f32⟩ : BufTy).Contents (Elt Ideal))
  (x4 : (⟨S160000x16, .f32⟩ : BufTy).Contents (Elt Ideal)) (x5 : (⟨S672x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x288, .f32⟩ : BufTy).Contents (Elt Ideal))
  (x10 : (⟨S288, .f32⟩ : BufTy).Contents (Elt Ideal))
  (src dst : Fin 160000 → Fin 10000)

variable (x11 : (⟨S512x128, .f32⟩ : BufTy).Contents (Elt Ideal)) (x12 : (⟨S128, .f32⟩ : BufTy).Contents (Elt Ideal))
  (x13 : (⟨S128x128, .f32⟩ : BufTy).Contents (Elt Ideal)) (x14 : (⟨S128, .f32⟩ : BufTy).Contents (Elt Ideal))
  (x15 : (⟨S128x256, .f32⟩ : BufTy).Contents (Elt Ideal)) (x16 : (⟨S256, .f32⟩ : BufTy).Contents (Elt Ideal))

/-! ## Two constants and the activation -/

/-- The binary32 word of one is the number one. -/
theorem oneW_eq : Ideal.ofBits .f32 0x3F800000#32 = (1 : EReal) := by
  simp [Ideal.ofBits, Ideal.ieee, -EReal.coe_mul]; norm_num

/-- The reference spells silu as the argument times one over one plus the exponential of its negative: that is
    the argument times the logistic function of it. -/
theorem silu_eq (x : EReal) :
    FloatOps.mulf (F := Ideal) (φ := .f32) x (FloatOps.hostDivf (FloatOps.ofBits .f32 0x3F800000#32)
      (FloatOps.addf (FloatOps.ofBits .f32 0x3F800000#32) (FloatOps.hostUnary .exp (FloatOps.hostNegf x))))
      = Cert.Spec.silu x := by
  simp only [Ideal.mulf_def, Ideal.hostDivf_def, Ideal.addf_def, Ideal.hostUnary_exp_def, Ideal.hostNegf_def,
    Ideal.negf_def, Ideal.ofBits_def, oneW_eq]
  rfl

/-! ## The source indices the scatters use -/

/-- Row 0 of the index argument, flattened: its word at edge e. -/
theorem v1_at (e : Fin 160000) : val_main_v1 (F := Ideal) x2 (ix1 e) = x2 (ix2 (0 : Fin 2) e) := by
  rewrite [val_main_v1_apply, val_main_v0_apply]
  exact congrArg x2 (funext fun a => Fin.ext (by
    match a with
    | ⟨0, _⟩ => rfl
    | ⟨1, _⟩ => exact Nat.mod_eq_of_lt e.isLt))

/-- The scatter's index array at edge e is the raw source word of e. -/
theorem v61_at (e : Fin 160000) : val_main_v61 (F := Ideal) x2 (ix2 e (0 : Fin 1)) = x2 (ix2 (0 : Fin 2) e) := by
  rewrite [val_main_v61_apply]
  exact (congrArg (val_main_v1 (F := Ideal) x2) (funext fun a => Fin.ext (by match a with | ⟨0, _⟩ => rfl))).trans (v1_at x2 e)

/-- The scatter's index array at edge e is the raw source word of e. -/
theorem v65_at (e : Fin 160000) : val_main_v65 (F := Ideal) x2 (ix2 e (0 : Fin 1)) = x2 (ix2 (0 : Fin 2) e) := by
  rewrite [val_main_v65_apply]
  exact (congrArg (val_main_v1 (F := Ideal) x2) (funext fun a => Fin.ext (by match a with | ⟨0, _⟩ => rfl))).trans (v1_at x2 e)

/-- The scatter's index array at edge e is the raw source word of e. -/
theorem v73_at (e : Fin 160000) : val_main_v73 (F := Ideal) x2 (ix2 e (0 : Fin 1)) = x2 (ix2 (0 : Fin 2) e) := by
  rewrite [val_main_v73_apply]
  exact (congrArg (val_main_v1 (F := Ideal) x2) (funext fun a => Fin.ext (by match a with | ⟨0, _⟩ => rfl))).trans (v1_at x2 e)

/-- The scatter's index array at edge e is the raw source word of e. -/
theorem v77_at (e : Fin 160000) : val_main_v77 (F := Ideal) x2 (ix2 e (0 : Fin 1)) = x2 (ix2 (0 : Fin 2) e) := by
  rewrite [val_main_v77_apply]
  exact (congrArg (val_main_v1 (F := Ideal) x2) (funext fun a => Fin.ext (by match a with | ⟨0, _⟩ => rfl))).trans (v1_at x2 e)

/-- An edge's source word, read signed, is the number of node n exactly when the edge's source is n. -/
theorem src_test (hsrc : ∀ e : Fin 160000, (x2 (ix2 (0 : Fin 2) e)).toInt = ((src e).val : Int)) (e : Fin 160000) (n : Fin 10000) :
    (x2 (ix2 (0 : Fin 2) e)).toInt = (n.val : Int) ↔ src e = n := by
  rewrite [hsrc e]
  constructor
  · intro h; exact Fin.ext (by omega)
  · intro h; rw [h]

/-! ## The averaged equivariant message -/

/-- The scatter-add of the equivariant messages into zeros by the source index: at node n the sum, started from
    the zero word, of the messages of the edges that leave n. -/
theorem v62_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (i : Fin 3) (k : Fin 8) :
    val_main_v62 (F := Ideal) x0 x1 x2 x3 x4 x5 x6 x7 x8 x9 x10 (ix3 n i k)
      = Cert.Spec.segSum src (fun e => Cert.Spec.msgF x0 x1 src dst x3 x4 x5 x6 x7 x8 x9 x10 e i k) n := by
  unfold val_main_v62
  refine (Cert.LibScatter3.scatterAdd_slab_apply_of (w := 32) (φ := .f32) scatter_S10000x3x8_S160000x1_S160000x3x8_12_0_0_1 rfl rfl rfl rfl
    (val_main_v60 (F := Ideal)) (val_main_v61 (F := Ideal) x2) (val_main_v59 (F := Ideal) x0 x1 x2 x3 x4 x5 x6 x7 x8 x9 x10) n i k).trans ?_
  unfold Cert.Spec.segSum
  refine congrArg₂ (· + ·) ((val_main_v60_apply _).trans (val_main_cst_7_apply _)) (Finset.sum_congr rfl fun e _ => ?_)
  rewrite [v61_at x2 e, Cert.REdge.v59_apply x0 x1 x2 x3 x4 x5 x6 x7 x8 x9 x10 src dst hsrc hdst e i k]
  exact if_congr (src_test x2 src hsrc e n) rfl rfl

/-- The scatter-add of one-words into zeros by the source index: at node n the count of the edges that leave n. -/
theorem v66_at (hsrc : ∀ e : Fin 160000, (x2 (ix2 (0 : Fin 2) e)).toInt = ((src e).val : Int)) (n : Fin 10000) : val_main_v66 (F := Ideal) x2 (ix1 n) = Cert.Spec.segCnt src n := by
  unfold val_main_v66
  refine (Cert.LibIndex.scatterAdd_vec_apply_of (w := 32) (φ := .f32) scatter_S10000_S160000x1_S160000_n_0_0_1 rfl rfl rfl rfl
    (val_main_v64 (F := Ideal)) (val_main_v65 (F := Ideal) x2) (val_main_v63 (F := Ideal)) n).trans ?_
  unfold Cert.Spec.segCnt Cert.Spec.segSum
  refine congrArg₂ (· + ·) ((val_main_v64_apply _).trans (val_main_cst_9_apply _)) (Finset.sum_congr rfl fun e _ => ?_)
  rewrite [v65_at x2 e, val_main_v63_apply, val_main_cst_8_apply]
  exact if_congr (src_test x2 src hsrc e n) rfl rfl

/-- The divisor of the equivariant average: the larger of the count and the one word, whatever the spatial row and
    the feature. -/
theorem v70_at (hsrc : ∀ e : Fin 160000, (x2 (ix2 (0 : Fin 2) e)).toInt = ((src e).val : Int)) (n : Fin 10000) (i : Fin 3) (k : Fin 8) :
    val_main_v70 (F := Ideal) x2 (ix3 n i k) = max (Cert.Spec.segCnt src n) Cert.Spec.oneW := by
  rewrite [val_main_v70_apply, val_main_v69_apply, val_main_v68_apply]
  have e : idx_main_v69 (idx_main_v70 (ix3 n i k)) = ix1 n := funext fun a => Fin.ext (by
    match a with
    | ⟨0, _⟩ => show (n.val * 1 + 0) * 1 + 0 = n.val; omega)
  rewrite [e, v66_at x2 src hsrc n, val_main_v67_apply, val_main_cst_10_apply]
  rfl

/-- The averaged equivariant message at node n. -/
theorem v71_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (i : Fin 3) (k : Fin 8) :
    val_main_v71 (F := Ideal) x0 x1 x2 x3 x4 x5 x6 x7 x8 x9 x10 (ix3 n i k) = Cert.Spec.aggF x0 x1 src dst x3 x4 x5 x6 x7 x8 x9 x10 n i k := by
  rewrite [val_main_v71_apply, v62_at x0 x1 x2 x3 x4 x5 x6 x7 x8 x9 x10 src dst hsrc hdst n i k, v70_at x2 src hsrc n i k]
  rfl

/-! ## The averaged scalar message -/

/-- The scatter-add of the scalar messages into zeros by the source index. -/
theorem v74_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 128) :
    val_main_v74 (F := Ideal) x0 x1 x2 x3 x4 x5 x6 x7 x8 x9 x10 (ix2 n j)
      = Cert.Spec.segSum src (fun e => Cert.Spec.msgS x0 x1 src dst x3 x4 x5 x6 x7 x8 x9 x10 e j) n := by
  unfold val_main_v74
  refine (Cert.LibIndex.scatterAdd_row_apply_of (w := 32) (φ := .f32) scatter_S10000x128_S160000x1_S160000x128_1_0_0_1 rfl rfl rfl rfl
    (val_main_v72 (F := Ideal)) (val_main_v73 (F := Ideal) x2) (val_main_v57 (F := Ideal) x0 x1 x2 x3 x4 x5 x6 x7 x8 x9 x10) n j).trans ?_
  unfold Cert.Spec.segSum
  refine congrArg₂ (· + ·) ((val_main_v72_apply _).trans (val_main_cst_11_apply _)) (Finset.sum_congr rfl fun e _ => ?_)
  rewrite [v73_at x2 e, Cert.REdge.v57_apply x0 x1 x2 x3 x4 x5 x6 x7 x8 x9 x10 src dst hsrc hdst e j]
  exact if_congr (src_test x2 src hsrc e n) rfl rfl

/-- The count once more, for the scalar average. -/
theorem v78_at (hsrc : ∀ e : Fin 160000, (x2 (ix2 (0 : Fin 2) e)).toInt = ((src e).val : Int)) (n : Fin 10000) : val_main_v78 (F := Ideal) x2 (ix1 n) = Cert.Spec.segCnt src n := by
  unfold val_main_v78
  refine (Cert.LibIndex.scatterAdd_vec_apply_of (w := 32) (φ := .f32) scatter_S10000_S160000x1_S160000_n_0_0_1 rfl rfl rfl rfl
    (val_main_v76 (F := Ideal)) (val_main_v77 (F := Ideal) x2) (val_main_v75 (F := Ideal)) n).trans ?_
  unfold Cert.Spec.segCnt Cert.Spec.segSum
  refine congrArg₂ (· + ·) ((val_main_v76_apply _).trans (val_main_cst_13_apply _)) (Finset.sum_congr rfl fun e _ => ?_)
  rewrite [v77_at x2 e, val_main_v75_apply, val_main_cst_12_apply]
  exact if_congr (src_test x2 src hsrc e n) rfl rfl

/-- The divisor of the scalar average: the larger of the count and the one word, whatever the column. -/
theorem v82_at (hsrc : ∀ e : Fin 160000, (x2 (ix2 (0 : Fin 2) e)).toInt = ((src e).val : Int)) (n : Fin 10000) (j : Fin 128) :
    val_main_v82 (F := Ideal) x2 (ix2 n j) = max (Cert.Spec.segCnt src n) Cert.Spec.oneW := by
  rewrite [val_main_v82_apply, val_main_v81_apply, val_main_v80_apply]
  have e : idx_main_v81 (idx_main_v82 (ix2 n j)) = ix1 n := funext fun a => Fin.ext (by
    match a with
    | ⟨0, _⟩ => show n.val * 1 + 0 = n.val; omega)
  rewrite [e, v78_at x2 src hsrc n, val_main_v79_apply, val_main_cst_14_apply]
  rfl

/-- The averaged scalar message at node n. -/
theorem v83_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 128) :
    val_main_v83 (F := Ideal) x0 x1 x2 x3 x4 x5 x6 x7 x8 x9 x10 (ix2 n j) = Cert.Spec.aggS x0 x1 src dst x3 x4 x5 x6 x7 x8 x9 x10 n j := by
  rewrite [val_main_v83_apply, v74_at x0 x1 x2 x3 x4 x5 x6 x7 x8 x9 x10 src dst hsrc hdst n j, v82_at x2 src hsrc n j]
  rfl

/-! ## The node's joined spatial rows, their Gram matrix and its unit vector -/

/-- The node's own features followed by the averaged message, along the feature axis. -/
theorem v84_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (i : Fin 3) (d : Fin 16) :
    val_main_v84 (F := Ideal) x0 x1 x2 x3 x4 x5 x6 x7 x8 x9 x10 (ix3 n i d) = Cert.Spec.cat2 (Cert.Spec.fRow x0 n) (Cert.Spec.aggF x0 x1 src dst x3 x4 x5 x6 x7 x8 x9 x10 n) i d := by
  unfold val_main_v84 Cert.Spec.cat2
  by_cases h : d.val < 8
  · rw [dif_pos h]
    refine (concatenate_pair_apply_left _ x0 (val_main_v71 (F := Ideal) x0 x1 x2 x3 x4 x5 x6 x7 x8 x9 x10)
      concatenates_S10000x3x8_S10000x3x8_S10000x3x16_d2 (ix3 n i d) rfl (ix3 n i (⟨d.val, h⟩ : Fin 8))
      (fun a => (by match a with | ⟨0, _⟩ => rfl | ⟨1, _⟩ => rfl | ⟨2, _⟩ => rfl))).trans ?_
    rfl
  · rw [dif_neg h]
    refine (concatenate_pair_apply_right _ x0 (val_main_v71 (F := Ideal) x0 x1 x2 x3 x4 x5 x6 x7 x8 x9 x10)
      concatenates_S10000x3x8_S10000x3x8_S10000x3x16_d2 (ix3 n i d) rfl rfl (ix3 n i (⟨d.val - 8, by omega⟩ : Fin 8))
      (fun a ha => by match a with | ⟨0, _⟩ => rfl | ⟨1, _⟩ => rfl | ⟨2, _⟩ => exact (ha rfl).elim)
      (by show d.val - 8 + 8 = d.val; omega)).trans ?_
    exact v71_at x0 x1 x2 x3 x4 x5 x6 x7 x8 x9 x10 src dst hsrc hdst n i ⟨d.val - 8, by omega⟩

/-- The batched product of the joined rows with themselves over the spatial axis: the Gram matrix. -/
theorem v85_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (d k : Fin 16) :
    val_main_v85 (F := Ideal) x0 x1 x2 x3 x4 x5 x6 x7 x8 x9 x10 (ix3 n d k) = Cert.Spec.gram (Cert.Spec.cat2 (Cert.Spec.fRow x0 n) (Cert.Spec.aggF x0 x1 src dst x3 x4 x5 x6 x7 x8 x9 x10 n)) d k := by
  rewrite [val_main_v85_apply]
  unfold Cert.Spec.gram
  refine Finset.sum_congr rfl fun i _ => ?_
  have el : lidx_main_v85 (ix3 n d k) i = ix3 n i d := funext fun a => Fin.ext (by match a with | ⟨0, _⟩ => rfl | ⟨1, _⟩ => rfl | ⟨2, _⟩ => rfl)
  have er : ridx_main_v85 (ix3 n d k) i = ix3 n i k := funext fun a => Fin.ext (by match a with | ⟨0, _⟩ => rfl | ⟨1, _⟩ => rfl | ⟨2, _⟩ => rfl)
  rewrite [el, er, v84_at x0 x1 x2 x3 x4 x5 x6 x7 x8 x9 x10 src dst hsrc hdst n i d, v84_at x0 x1 x2 x3 x4 x5 x6 x7 x8 x9 x10 src dst hsrc hdst n i k]
  rfl

/-- The Gram matrix flattened row-major: entry p is entry (p / 16, p % 16). -/
theorem v86_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (p : Fin 256) :
    val_main_v86 (F := Ideal) x0 x1 x2 x3 x4 x5 x6 x7 x8 x9 x10 (ix2 n p) = Cert.Spec.gramFlat16 (Cert.Spec.cat2 (Cert.Spec.fRow x0 n) (Cert.Spec.aggF x0 x1 src dst x3 x4 x5 x6 x7 x8 x9 x10 n)) p := by
  rewrite [val_main_v86_apply]
  have e : idx_main_v86 (ix2 n p) = ix3 n (⟨p.val / 16, by omega⟩ : Fin 16) (⟨p.val % 16, by omega⟩ : Fin 16) :=
    funext fun a => Fin.ext (by
      have hn := n.isLt; have hp := p.isLt
      match a with
      | ⟨0, _⟩ => show (n.val * 256 + p.val) / 256 = n.val; omega
      | ⟨1, _⟩ => show (n.val * 256 + p.val) / 16 % 16 = p.val / 16; omega
      | ⟨2, _⟩ => show (n.val * 256 + p.val) % 16 = p.val % 16; omega)
  rewrite [e, v85_at x0 x1 x2 x3 x4 x5 x6 x7 x8 x9 x10 src dst hsrc hdst n _ _]
  rfl

/-- The Euclidean norm of the flattened Gram matrix: the square root of the sum, started from zero, of squares. -/
theorem v87_at (hsrc : ∀ e : Fin 160000, (x2 (ix2 (0 : Fin 2) e)).toInt = ((src e).val : Int)) (hdst : ∀ e : Fin 160000, (x2 (ix2 (1 : Fin 2) e)).toInt = ((dst e).val : Int)) (n : Fin 10000) :
    val_main_v87 (F := Ideal) x0 x1 x2 x3 x4 x5 x6 x7 x8 x9 x10 (ix2 n (0 : Fin 1))
      = Ideal.sqrt (∑ q : Fin 256, (Cert.Spec.gramFlat16 (Cert.Spec.cat2 (Cert.Spec.fRow x0 n) (Cert.Spec.aggF x0 x1 src dst x3 x4 x5 x6 x7 x8 x9 x10 n))) q * (Cert.Spec.gramFlat16 (Cert.Spec.cat2 (Cert.Spec.fRow x0 n) (Cert.Spec.aggF x0 x1 src dst x3 x4 x5 x6 x7 x8 x9 x10 n))) q) := by
  rewrite [val_main_v87_apply, val_main_call3_v2_apply]
  have e : idx_main_call3_v2 (ix2 n (0 : Fin 1)) = ix1 n := funext fun a => Fin.ext (by match a with | ⟨0, _⟩ => rfl)
  rewrite [e, val_main_call3_v1_apply, val_main_call3_cst_apply]
  have hz : (FloatOps.ofBits (F := Ideal) .f32 0x00000000#32 : EReal) = 0 := Ideal.ofBits_zero_f32
  rewrite [hz, zero_add]
  refine congrArg Ideal.sqrt (Finset.sum_congr rfl fun q _ => ?_)
  have eq : idx_main_call3_v1 (ix1 n) q = ix2 n q := funext fun a => Fin.ext (by match a with | ⟨0, _⟩ => rfl | ⟨1, _⟩ => rfl)
  rewrite [eq, val_main_call3_v0_apply, v86_at x0 x1 x2 x3 x4 x5 x6 x7 x8 x9 x10 src dst hsrc hdst n q]
  rfl

/-- The flattened Gram matrix over the larger of its norm and the guard. -/
theorem v91_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (p : Fin 256) :
    val_main_v91 (F := Ideal) x0 x1 x2 x3 x4 x5 x6 x7 x8 x9 x10 (ix2 n p) = Cert.Spec.nodeU (Cert.Spec.fRow x0 n) (Cert.Spec.aggF x0 x1 src dst x3 x4 x5 x6 x7 x8 x9 x10 n) p := by
  rewrite [val_main_v91_apply, val_main_v90_apply]
  have e : idx_main_v90 (ix2 n p) = ix2 n (0 : Fin 1) := funext fun a => Fin.ext (by match a with | ⟨0, _⟩ => rfl | ⟨1, _⟩ => rfl)
  rewrite [e, val_main_v89_apply, v87_at x0 x1 x2 x3 x4 x5 x6 x7 x8 x9 x10 src dst hsrc hdst n, val_main_v88_apply, val_main_cst_15_apply,
    v86_at x0 x1 x2 x3 x4 x5 x6 x7 x8 x9 x10 src dst hsrc hdst n p]
  rfl

/-! ## The node network -/

/-- The network's input: the unit Gram vector, the node's scalars, the averaged scalar message. -/
theorem v92_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (q : Fin 512) :
    val_main_v92 (F := Ideal) x0 x1 x2 x3 x4 x5 x6 x7 x8 x9 x10 (ix2 n q) = Cert.Spec.nodeIn (Cert.Spec.nodeU (Cert.Spec.fRow x0 n) (Cert.Spec.aggF x0 x1 src dst x3 x4 x5 x6 x7 x8 x9 x10 n)) (Cert.Spec.sRow x1 n) (Cert.Spec.aggS x0 x1 src dst x3 x4 x5 x6 x7 x8 x9 x10 n) q := by
  have key := concatenate_apply_piece (α := Elt Ideal .f32) (t := S10000x512) (1 : Fin 2)
    [⟨S10000x256, val_main_v91 (F := Ideal) x0 x1 x2 x3 x4 x5 x6 x7 x8 x9 x10⟩, ⟨S10000x128, x1⟩, ⟨S10000x128, val_main_v83 (F := Ideal) x0 x1 x2 x3 x4 x5 x6 x7 x8 x9 x10⟩]
    concatenates_S10000x256_S10000x128_S10000x128_S10000x512_d1 (ix2 n q)
  unfold val_main_v92 Cert.Spec.nodeIn
  by_cases h : q.val < 256
  · rw [dif_pos h]
    refine (key 0 (by show (0 : Nat) < 3; omega) S10000x256 (val_main_v91 (F := Ideal) x0 x1 x2 x3 x4 x5 x6 x7 x8 x9 x10) rfl rfl 0 rfl
      (ix2 n (⟨q.val, h⟩ : Fin 256))
      (fun a ha => by match a with | ⟨0, _⟩ => rfl | ⟨1, _⟩ => exact (ha rfl).elim)
      (by show 0 + q.val = q.val; omega)).trans ?_
    exact v91_at x0 x1 x2 x3 x4 x5 x6 x7 x8 x9 x10 src dst hsrc hdst n ⟨q.val, h⟩
  · rw [dif_neg h]
    by_cases h1 : q.val < 384
    · rw [dif_pos h1]
      refine (key 1 (by show (1 : Nat) < 3; omega) S10000x128 x1 rfl rfl 256 rfl
        (ix2 n (⟨q.val - 256, by omega⟩ : Fin 128))
        (fun a ha => by match a with | ⟨0, _⟩ => rfl | ⟨1, _⟩ => exact (ha rfl).elim)
        (by show 256 + (q.val - 256) = q.val; omega)).trans ?_
      rfl
    · rw [dif_neg h1]
      refine (key 2 (by show (2 : Nat) < 3; omega) S10000x128 (val_main_v83 (F := Ideal) x0 x1 x2 x3 x4 x5 x6 x7 x8 x9 x10) rfl rfl 384 rfl
        (ix2 n (⟨q.val - 384, by omega⟩ : Fin 128))
        (fun a ha => by match a with | ⟨0, _⟩ => rfl | ⟨1, _⟩ => exact (ha rfl).elim)
        (by show 384 + (q.val - 384) = q.val; omega)).trans ?_
      exact v83_at x0 x1 x2 x3 x4 x5 x6 x7 x8 x9 x10 src dst hsrc hdst n ⟨q.val - 384, by omega⟩

/-- The first affine layer: the product with the weights, a sum over the 512 inputs, plus the bias row. -/
theorem v96_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 128) :
    val_main_v96 (F := Ideal) x0 x1 x2 x3 x4 x5 x6 x7 x8 x9 x10 x11 x12 (ix2 n j) = Cert.Spec.lin (Cert.Spec.nodeIn (Cert.Spec.nodeU (Cert.Spec.fRow x0 n) (Cert.Spec.aggF x0 x1 src dst x3 x4 x5 x6 x7 x8 x9 x10 n)) (Cert.Spec.sRow x1 n) (Cert.Spec.aggS x0 x1 src dst x3 x4 x5 x6 x7 x8 x9 x10 n)) (fun q j => x11 (ix2 q j)) (fun j => x12 (ix1 j)) j := by
  rewrite [val_main_v96_apply, val_main_v93_apply, val_main_v95_apply, val_main_v94_apply, Ideal.addf_def]
  unfold Cert.Spec.lin
  refine congrArg₂ (· + ·) (Finset.sum_congr rfl fun q _ => ?_) ?_
  · have el : lidx_main_v93 (ix2 n j) q = ix2 n q := funext fun a => Fin.ext (by match a with | ⟨0, _⟩ => rfl | ⟨1, _⟩ => rfl)
    have er : ridx_main_v93 (ix2 n j) q = ix2 q j := funext fun a => Fin.ext (by match a with | ⟨0, _⟩ => rfl | ⟨1, _⟩ => rfl)
    rewrite [el, er, v92_at x0 x1 x2 x3 x4 x5 x6 x7 x8 x9 x10 src dst hsrc hdst n q]
    rfl
  · exact congrArg x12 (funext fun a => Fin.ext (by match a with | ⟨0, _⟩ => rfl))

/-- The first hidden layer. -/
theorem v97_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 128) :
    val_main_v97 (F := Ideal) x0 x1 x2 x3 x4 x5 x6 x7 x8 x9 x10 x11 x12 (ix2 n j) = Cert.Spec.nodeH1 (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j)) j := by
  rewrite [val_main_v97_apply, val_main_call4_v5_apply, val_main_call4_v4_apply, val_main_call4_cst_0_apply,
    val_main_call4_v3_apply, val_main_call4_v2_apply, val_main_call4_cst_apply, val_main_call4_v1_apply,
    val_main_call4_v0_apply, v96_at x0 x1 x2 x3 x4 x5 x6 x7 x8 x9 x10 src dst x11 x12 hsrc hdst n j]
  exact silu_eq _

/-- The second affine layer. -/
theorem v101_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 128) :
    val_main_v101 (F := Ideal) x0 x1 x2 x3 x4 x5 x6 x7 x8 x9 x10 x11 x12 x13 x14 (ix2 n j) = Cert.Spec.lin (Cert.Spec.nodeH1 (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j))) (fun q j => x13 (ix2 q j)) (fun j => x14 (ix1 j)) j := by
  rewrite [val_main_v101_apply, val_main_v98_apply, val_main_v100_apply, val_main_v99_apply, Ideal.addf_def]
  unfold Cert.Spec.lin
  refine congrArg₂ (· + ·) (Finset.sum_congr rfl fun q _ => ?_) ?_
  · have el : lidx_main_v98 (ix2 n j) q = ix2 n q := funext fun a => Fin.ext (by match a with | ⟨0, _⟩ => rfl | ⟨1, _⟩ => rfl)
    have er : ridx_main_v98 (ix2 n j) q = ix2 q j := funext fun a => Fin.ext (by match a with | ⟨0, _⟩ => rfl | ⟨1, _⟩ => rfl)
    rewrite [el, er, v97_at x0 x1 x2 x3 x4 x5 x6 x7 x8 x9 x10 src dst x11 x12 hsrc hdst n q]
    rfl
  · exact congrArg x14 (funext fun a => Fin.ext (by match a with | ⟨0, _⟩ => rfl))

/-- The second hidden layer. -/
theorem v102_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 128) :
    val_main_v102 (F := Ideal) x0 x1 x2 x3 x4 x5 x6 x7 x8 x9 x10 x11 x12 x13 x14 (ix2 n j) = Cert.Spec.nodeH2 (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j)) (fun q j => x13 (ix2 q j)) (fun j => x14 (ix1 j)) j := by
  rewrite [val_main_v102_apply, val_main_call5_v5_apply, val_main_call5_v4_apply, val_main_call5_cst_0_apply,
    val_main_call5_v3_apply, val_main_call5_v2_apply, val_main_call5_cst_apply, val_main_call5_v1_apply,
    val_main_call5_v0_apply, v101_at x0 x1 x2 x3 x4 x5 x6 x7 x8 x9 x10 src dst x11 x12 x13 x14 hsrc hdst n j]
  exact silu_eq _

/-- The third affine layer: the 256 outputs of the node network. -/
theorem v106_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (j : Fin 256) :
    val_main_v106 (F := Ideal) x0 x1 x2 x3 x4 x5 x6 x7 x8 x9 x10 x11 x12 x13 x14 x15 x16 (ix2 n j) = Cert.Spec.lin (Cert.Spec.nodeH2 (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j)) (fun q j => x13 (ix2 q j)) (fun j => x14 (ix1 j))) (fun q j => x15 (ix2 q j)) (fun j => x16 (ix1 j)) j := by
  rewrite [val_main_v106_apply, val_main_v103_apply, val_main_v105_apply, val_main_v104_apply, Ideal.addf_def]
  unfold Cert.Spec.lin
  refine congrArg₂ (· + ·) (Finset.sum_congr rfl fun q _ => ?_) ?_
  · have el : lidx_main_v103 (ix2 n j) q = ix2 n q := funext fun a => Fin.ext (by match a with | ⟨0, _⟩ => rfl | ⟨1, _⟩ => rfl)
    have er : ridx_main_v103 (ix2 n j) q = ix2 q j := funext fun a => Fin.ext (by match a with | ⟨0, _⟩ => rfl | ⟨1, _⟩ => rfl)
    rewrite [el, er, v102_at x0 x1 x2 x3 x4 x5 x6 x7 x8 x9 x10 src dst x11 x12 x13 x14 hsrc hdst n q]
    rfl
  · exact congrArg x16 (funext fun a => Fin.ext (by match a with | ⟨0, _⟩ => rfl))

/-- The first 128 outputs read as a 16 by 8 matrix: entry (d, k) is output 8 d + k. -/
theorem v109_at (hsrc : ∀ e : Fin 160000, (x2 (ix2 (0 : Fin 2) e)).toInt = ((src e).val : Int)) (hdst : ∀ e : Fin 160000, (x2 (ix2 (1 : Fin 2) e)).toInt = ((dst e).val : Int)) (n : Fin 10000) (d : Fin 16) (k : Fin 8) :
    val_main_v109 (F := Ideal) x0 x1 x2 x3 x4 x5 x6 x7 x8 x9 x10 x11 x12 x13 x14 x15 x16 (ix3 n d k)
      = Cert.Spec.nodeC (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j)) (fun q j => x13 (ix2 q j)) (fun j => x14 (ix1 j)) (fun q j => x15 (ix2 q j)) (fun j => x16 (ix1 j)) ⟨8 * d.val + k.val, by omega⟩ := by
  rewrite [val_main_v109_apply, val_main_v107_apply]
  have e : idx_main_v107 (idx_main_v109 (ix3 n d k)) = ix2 n (⟨8 * d.val + k.val, by omega⟩ : Fin 256) :=
    funext fun a => Fin.ext (by
      have hn := n.isLt; have hd := d.isLt; have hk := k.isLt
      match a with
      | ⟨0, _⟩ => show ((n.val * 16 + d.val) * 8 + k.val) / 128 = n.val; omega
      | ⟨1, _⟩ => show ((n.val * 16 + d.val) * 8 + k.val) % 128 = 8 * d.val + k.val; omega)
  rewrite [e, v106_at x0 x1 x2 x3 x4 x5 x6 x7 x8 x9 x10 src dst x11 x12 x13 x14 x15 x16 hsrc hdst n _]
  rfl

/-- THE REFERENCE'S FIRST RESULT. -/
theorem v110_eq (hsrc : ∀ e : Fin 160000, (x2 (ix2 (0 : Fin 2) e)).toInt = ((src e).val : Int))
    (hdst : ∀ e : Fin 160000, (x2 (ix2 (1 : Fin 2) e)).toInt = ((dst e).val : Int)) :
    val_main_v110 (F := Ideal) x0 x1 x2 x3 x4 x5 x6 x7 x8 x9 x10 x11 x12 x13 x14 x15 x16
      = Cert.Spec.outF x0 x1 src dst x3 x4 x5 x6 x7 x8 x9 x10 x11 x12 x13 x14 x15 x16 := by
  funext y
  obtain ⟨n, i, k, rfl⟩ : ∃ (n : Fin 10000) (i : Fin 3) (k : Fin 8), y = ix3 n i k := ⟨y 0, y 1, y 2, eq_ix3 y⟩
  show _ = Cert.Spec.nodeF (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j)) (fun q j => x13 (ix2 q j)) (fun j => x14 (ix1 j)) (fun q j => x15 (ix2 q j)) (fun j => x16 (ix1 j)) i k
  rewrite [val_main_v110_apply]
  unfold Cert.Spec.nodeF
  refine Finset.sum_congr rfl fun d _ => ?_
  have el : lidx_main_v110 (ix3 n i k) d = ix3 n i d := funext fun a => Fin.ext (by match a with | ⟨0, _⟩ => rfl | ⟨1, _⟩ => rfl | ⟨2, _⟩ => rfl)
  have er : ridx_main_v110 (ix3 n i k) d = ix3 n d k := funext fun a => Fin.ext (by match a with | ⟨0, _⟩ => rfl | ⟨1, _⟩ => rfl | ⟨2, _⟩ => rfl)
  rewrite [el, er, v84_at x0 x1 x2 x3 x4 x5 x6 x7 x8 x9 x10 src dst hsrc hdst n i d, v109_at x0 x1 x2 x3 x4 x5 x6 x7 x8 x9 x10 src dst x11 x12 x13 x14 x15 x16 hsrc hdst n d k]
  rfl

/-- THE REFERENCE'S SECOND RESULT. -/
theorem v108_eq (hsrc : ∀ e : Fin 160000, (x2 (ix2 (0 : Fin 2) e)).toInt = ((src e).val : Int))
    (hdst : ∀ e : Fin 160000, (x2 (ix2 (1 : Fin 2) e)).toInt = ((dst e).val : Int)) :
    val_main_v108 (F := Ideal) x0 x1 x2 x3 x4 x5 x6 x7 x8 x9 x10 x11 x12 x13 x14 x15 x16
      = Cert.Spec.outS x0 x1 src dst x3 x4 x5 x6 x7 x8 x9 x10 x11 x12 x13 x14 x15 x16 := by
  funext y
  obtain ⟨n, j, rfl⟩ : ∃ (n : Fin 10000) (j : Fin 128), y = ix2 n j := ⟨y 0, y 1, eq_ix2 y⟩
  show _ = Cert.Spec.nodeS (Cert.Spec.fRow x0 n) (Cert.Spec.aggF x0 x1 src dst x3 x4 x5 x6 x7 x8 x9 x10 n) (Cert.Spec.sRow x1 n) (Cert.Spec.aggS x0 x1 src dst x3 x4 x5 x6 x7 x8 x9 x10 n) (fun q j => x11 (ix2 q j)) (fun j => x12 (ix1 j)) (fun q j => x13 (ix2 q j)) (fun j => x14 (ix1 j)) (fun q j => x15 (ix2 q j)) (fun j => x16 (ix1 j)) j
  rewrite [val_main_v108_apply]
  have e : idx_main_v108 (ix2 n j) = ix2 n (⟨128 + j.val, by omega⟩ : Fin 256) := funext fun a => Fin.ext (by match a with | ⟨0, _⟩ => rfl | ⟨1, _⟩ => rfl)
  rewrite [e, v106_at x0 x1 x2 x3 x4 x5 x6 x7 x8 x9 x10 src dst x11 x12 x13 x14 x15 x16 hsrc hdst n _]
  rfl

end Cert.RNode

end
-- ==== Proof.PreFacts.lean ====
/-
  What the precondition says of the index argument.

  The printed precondition is one word, the conjunction (a chain of `and`s) of one all-reduction per input: for each
  float input that every entry's magnitude is below +inf, and for the index argument (shape [2, 160000], 32-bit
  words) that every word is at least 0 and that every word is below 10000, both compared as signed integers. The
  whole conjunction is 1 exactly when every conjunct is, an all-reduction is 1 exactly when every entry's test is,
  and a signed comparison of words is the comparison of their signed values. So under the precondition every word of
  the index argument, read signed, lies in [0, 10000): each row names a node for every edge.
-/
import proofs.«408349_j8770323218950_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

variable [Cert.Pre_finite_inputs.Facts]

/-- The shape of rank 0 has one index. -/
private instance : Subsingleton S_.Idx := ⟨fun a b => funext fun d => d.elim0⟩

/-- UNDER THE PRECONDITION every word of the index argument, read signed, lies in [0, 10000). -/
theorem index_range (x0 : FVec Ideal S10000x3x8 .f32) (x1 : FVec Ideal S10000x128 .f32) (x2 : IVec S2x160000 32)
    (x3 : FVec Ideal S160000x3x4 .f32) (x4 : FVec Ideal S160000x16 .f32) (x5 : FVec Ideal S672x128 .f32)
    (x6 : FVec Ideal S128 .f32) (x7 : FVec Ideal S128x128 .f32) (x8 : FVec Ideal S128 .f32) (x9 : FVec Ideal S128x288 .f32)
    (x10 : FVec Ideal S288 .f32) (x11 : FVec Ideal S512x128 .f32) (x12 : FVec Ideal S128 .f32) (x13 : FVec Ideal S128x128 .f32)
    (x14 : FVec Ideal S128 .f32) (x15 : FVec Ideal S128x256 .f32) (x16 : FVec Ideal S256 .f32)
    (h : fn (F := Ideal) x0 x1 x2 x3 x4 x5 x6 x7 x8 x9 x10 x11 x12 x13 x14 x15 x16 = fun _ => 1#1)
    (i : S2x160000.Idx) : 0 ≤ (x2 i).toInt ∧ (x2 i).toInt < 10000 := by
  have h0 := congrFun h ValueIdx.ix0
  dsimp only [fn, fn_part1, fn_part2, fn_part3, fn_part4, fn_part5] at h0
  -- the conjunction is 1 exactly when every conjunct is: keep the last two, the tests of the index argument
  obtain ⟨h1, hlt⟩ := IntOp.andi_eq_one.1 h0
  obtain ⟨_, hge⟩ := IntOp.andi_eq_one.1 h1
  -- an all-reduction by and that is 1 had a 1 at every index of its operand
  have hge' : IntOp.cmpi .sge (x2 i) (0#32) = 1#1 := Host.reduce_andi_all _ _ _ _ _ hge i
  have hlt' : IntOp.cmpi .slt (x2 i) (10000#32) = 1#1 := Host.reduce_andi_all _ _ _ _ _ hlt i
  -- a signed comparison of words is the comparison of their signed values
  rw [IntOp.cmpi_sge, show (0#32 : BitVec 32).toInt = 0 from by decide] at hge'
  rw [IntOp.cmpi_slt, show (10000#32 : BitVec 32).toInt = 10000 from by decide] at hlt'
  exact ⟨hge', hlt'⟩

/-- Words in [0, 10000) name nodes: the two rows of the index argument as functions from edges to nodes. -/
theorem exists_nodes (x2 : IVec S2x160000 32) (h : ∀ i : S2x160000.Idx, 0 ≤ (x2 i).toInt ∧ (x2 i).toInt < 10000) :
    ∃ src dst : Fin 160000 → Fin 10000,
      (∀ e : Fin 160000, (x2 (ix2 (0 : Fin 2) e)).toInt = ((src e).val : Int))
      ∧ (∀ e : Fin 160000, (x2 (ix2 (1 : Fin 2) e)).toInt = ((dst e).val : Int)) := by
  -- a signed value in [0, 10000) is the natural number it reads, below 10000
  refine ⟨fun e => ⟨(x2 (ix2 (0 : Fin 2) e)).toInt.toNat, ?_⟩, fun e => ⟨(x2 (ix2 (1 : Fin 2) e)).toInt.toNat, ?_⟩,
    fun e => (Int.toNat_of_nonneg (h _).1).symm, fun e => (Int.toNat_of_nonneg (h _).1).symm⟩
  · have := h (ix2 (0 : Fin 2) e); omega
  · have := h (ix2 (1 : Fin 2) e); omega

end Cert.PreFacts

end
-- ==== Proof.lean ====
/-
  The certificate's five claims.

  THE FRAMES. The word-level kernel and its idealization run to completion with their arguments unchanged: the
  generated frame of each (two pipelined regions among host stretches). The reference has no kernel: its frame is its
  generated run with the two results dropped.
  THE IDEALIZATION. The pass that printed the idealized kernel rewrote no operation, so there is nothing to preserve.
  THE VALUE. Under the precondition every word of the index argument names a node (PreFacts): call the two rows
  `src` and `dst`. Then both programs end with the two arrays of Spec.lean: at node `n`, the node function of
  `[f(n) | mean over the edges leaving n of the edge function's equivariant message]`, the node's scalars and the
  mean scalar message. For the kernel: its run with the two result buffers named (the same launch as its frame), the
  first region's array as the packed messages, the scatter-mean between the regions, the second region's arrays and
  the last reshape (KFinal, over KMsg, KHost0, KHost1 and the two bodies KEdge, KNode; the edge body's first layer in
  four partial sums against one sum over 672 inputs is SpecLaws). For the reference: its generated run, read one
  operation at a time (REdge, RNode). The two memories agree on the arguments, so the two pairs of arrays are equal.
-/
import proofs.«408349_j8770323218950_3_alg».proof.Defs
import proofs.«408349_j8770323218950_3_alg».proof.Proof.Gen.Kernel
import proofs.«408349_j8770323218950_3_alg».proof.Proof.Gen.Kernel.Skeleton
import proofs.«408349_j8770323218950_3_alg».proof.Proof.Gen.Kernel.Launch
import proofs.«408349_j8770323218950_3_alg».proof.Proof.Gen.Kernel.Points
import proofs.«408349_j8770323218950_3_alg».proof.Proof.Gen.Kernel.Frame
import proofs.«408349_j8770323218950_3_alg».proof.Proof.Gen.KernelIdeal
import proofs.«408349_j8770323218950_3_alg».proof.Proof.Gen.KernelIdeal.Skeleton
import proofs.«408349_j8770323218950_3_alg».proof.Proof.Gen.KernelIdeal.Launch
import proofs.«408349_j8770323218950_3_alg».proof.Proof.Gen.KernelIdeal.Points
import proofs.«408349_j8770323218950_3_alg».proof.Proof.Gen.KernelIdeal.Frame
import proofs.«408349_j8770323218950_3_alg».proof.Proof.Gen.ReferenceIdeal
import proofs.«408349_j8770323218950_3_alg».proof.Proof.RefRun
import proofs.«408349_j8770323218950_3_alg».proof.Proof.RefRead
import proofs.«408349_j8770323218950_3_alg».proof.Proof.Gen.Pre_finite_inputs
import proofs.«408349_j8770323218950_3_alg».proof.Proof.KRun
import proofs.«408349_j8770323218950_3_alg».proof.Proof.KArgs
import proofs.«408349_j8770323218950_3_alg».proof.Proof.KFinal
import proofs.«408349_j8770323218950_3_alg».proof.Proof.RNode
import proofs.«408349_j8770323218950_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel terminates, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealizing pass rewrote nothing. -/
theorem preserves : Cert.preserves_Kernel_KernelIdeal := trivial

/-- Both programs end with the arrays of Spec.lean at the nodes the index argument names. -/
theorem algebraic : Cert.algebraic_KernelIdeal_ReferenceIdeal := by
  intro m ρ m' ρ' hpre hagree
  -- each device's index argument names nodes
  have hnodes : ∀ c : Dev Cert.KernelIdeal.nD, ∃ src dst : Fin 160000 → Fin 10000,
      Cert.KArgs.SrcOk m c src ∧ Cert.KArgs.DstOk m c dst := fun c =>
    Cert.PreFacts.exists_nodes _ (fun i =>
      Cert.PreFacts.index_range _ _ _ _ _ _ _ _ _ _ _ _ _ _ _ _ _ (hpre c) i)
  choose src dst hsrc hdst using hnodes
  refine ⟨fun c => Cert.KArgs.outF m c (src c) (dst c), fun c => Cert.KArgs.outS m c (src c) (dst c), ?_, ?_⟩
  · -- the kernel's program
    refine (θ_run Cert.KernelIdeal.defs _ _).mono (fun r h c => ?_)
      (Cert.KernelIdeal.Results.run_results (F := Ideal) m ρ)
    obtain ⟨h1, h2, hrest⟩ := h c
    exact ⟨h1.trans (Cert.KFinal.outF_eq m ρ c (src c) (dst c) (hsrc c) (hdst c)),
      h2.trans (Cert.KFinal.outS_eq m ρ c (src c) (dst c) (hsrc c) (hdst c)), hrest⟩
  · -- the reference
    refine (θ_run Cert.ReferenceIdeal.defs _ _).mono (fun r h c => ?_)
      (Cert.ReferenceIdeal.Value.run (F := Ideal) m' ρ')
    obtain ⟨h1, h2, hrest⟩ := h c
    obtain ⟨a0, a1, a2, a3, a4, a5, a6, a7, a8, a9, a10, a11, a12, a13, a14, a15, a16⟩ := hagree c
    refine ⟨h1.trans ?_, h2.trans ?_, hrest⟩
    · rw [Cert.ReferenceIdeal.Read.val_main_v110_eq, a0, a1, a2, a3, a4, a5, a6, a7, a8, a9, a10, a11, a12, a13, a14, a15, a16]
      exact Cert.RNode.v110_eq _ _ _ _ _ _ _ _ _ _ _ (src c) (dst c) _ _ _ _ _ _ (hsrc c) (hdst c)
    · rw [Cert.ReferenceIdeal.Read.val_main_v108_eq, a0, a1, a2, a3, a4, a5, a6, a7, a8, a9, a10, a11, a12, a13, a14, a15, a16]
      exact Cert.RNode.v108_eq _ _ _ _ _ _ _ _ _ _ _ (src c) (dst c) _ _ _ _ _ _ (hsrc c) (hdst c)

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
